-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S20x1024x1024 : Shape := ⟨3, ![20, 1024, 1024]⟩
abbrev S20x1024 : Shape := ⟨2, ![20, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S20x1024x1024 : S_.BroadcastsInDim S20x1024x1024 (![] : Fin 0 → Fin S20x1024x1024.rank)
  reducesTo_S20x1024x1024_S_d0_1_2 : S20x1024x1024.ReducesTo [0, 1, 2] S_
  bcast_S_S20x1024 : S_.BroadcastsInDim S20x1024 (![] : Fin 0 → Fin S20x1024.rank)
  reducesTo_S20x1024_S_d0_1 : S20x1024.ReducesTo [0, 1] S_

variable [Facts]

def fn {F : FTy → Type} [FloatOps F] (main_arg0 : FVec F S4096x1024 .f32) (main_arg1 : FVec F S20x1024x1024 .f32) (main_arg2 : FVec F S20x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S20x1024x1024 .f32 := Host.absf main_arg1
  let main_cst_0 : FVec F S_ .f32 := constant S_ .f32 0x7F800000#32
  let main_v5 : FVec F S20x1024x1024 .f32 := broadcastInDim S20x1024x1024 ![] bcast_S_S20x1024x1024 main_cst_0
  let main_v6 : IVec S20x1024x1024 1 := cmpf .olt main_v4 main_v5
  let main_c_1 : IVec S_ 1 := constantI S_ 1 1#1
  let main_v7 : IVec S_ 1 := (fun x v => Host.reduce IntOp.andi x v reducesTo_S20x1024x1024_S_d0_1_2 h_S_) main_v6 main_c_1
  let main_v8 : IVec S_ 1 := andi main_v3 main_v7
  let main_v9 : FVec F S20x1024 .f32 := Host.absf main_arg2
  let main_cst_2 : FVec F S_ .f32 := constant S_ .f32 0x7F800000#32
  let main_v10 : FVec F S20x1024 .f32 := broadcastInDim S20x1024 ![] bcast_S_S20x1024 main_cst_2
  let main_v11 : IVec S20x1024 1 := cmpf .olt main_v9 main_v10
  let main_c_3 : IVec S_ 1 := constantI S_ 1 1#1
  let main_v12 : IVec S_ 1 := (fun x v => Host.reduce IntOp.andi x v reducesTo_S20x1024_S_d0_1 h_S_) main_v11 main_c_3
  let main_v13 : IVec S_ 1 := andi main_v8 main_v12
  main_v13
-- ==== Kernel.lean ====
abbrev S4096x1024 : Shape := ⟨2, ![4096, 1024]⟩
abbrev S20x1024x1024 : Shape := ⟨3, ![20, 1024, 1024]⟩
abbrev S20x1024 : Shape := ⟨2, ![20, 1024]⟩
abbrev S20x1x1024 : Shape := ⟨3, ![20, 1, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1032x1024 : Shape := ⟨2, ![1032, 1024]⟩
abbrev S1024x1024 : Shape := ⟨2, ![1024, 1024]⟩
abbrev S1x1024 : Shape := ⟨2, ![1, 1024]⟩
abbrev S8x1024 : Shape := ⟨2, ![8, 1024]⟩

abbrev nBuf : Space → Nat
  | .hbm => 5
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S20x1024x1024, .f32⟩
  | .hbm, ⟨2, _⟩ => ⟨S20x1024, .f32⟩
  | .hbm, ⟨3, _⟩ => ⟨S20x1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | .local _ .vmem, ⟨19, _⟩ => ⟨S512x1024, .f32⟩
  | .local _ .vmem, ⟨20, _⟩ => ⟨S1032x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![13], ![false]⟩

def k0_cond3 (i : grid0.Coords) : BitVec 1 :=
  let arg0 : BitVec 32 := BitVec.ofNat 32 (i 0).val
  let c5_i32_3 : BitVec 32 := 5#32
  let v8 : BitVec 1 := Scalar.cmpi .sge arg0 c5_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_2 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c2_i32 : BitVec 32 := 2#32
  let v2 : BitVec 32 := Scalar.addi v1 c2_i32
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c3_i32 : BitVec 32 := 3#32
  let v2 : BitVec 32 := Scalar.addi v1 c3_i32
  let c0_i32 : BitVec 32 := 0#32
  let c0_i32_1 : BitVec 32 := 0#32
  let c0_i32_2 : BitVec 32 := 0#32
  ![v2.toNat, c0_i32.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c0_i32 : BitVec 32 := 0#32
  let v2 : BitVec 32 := Scalar.addi v1 c0_i32
  let c0_i32_1 : BitVec 32 := 0#32
  let c0_i32_2 : BitVec 32 := 0#32
  let c0_i32_3 : BitVec 32 := 0#32
  ![v2.toNat, c0_i32_1.toNat, c0_i32_2.toNat]

def cc0_transform_6 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c1_i32 : BitVec 32 := 1#32
  let v2 : BitVec 32 := Scalar.addi v1 c1_i32
  let c0_i32 : BitVec 32 := 0#32
  let c0_i32_1 : BitVec 32 := 0#32
  let c0_i32_2 : BitVec 32 := 0#32
  ![v2.toNat, c0_i32.toNat, c0_i32_1.toNat]

def cc0_transform_7 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c2_i32 : BitVec 32 := 2#32
  let v2 : BitVec 32 := Scalar.addi v1 c2_i32
  let c0_i32 : BitVec 32 := 0#32
  let c0_i32_1 : BitVec 32 := 0#32
  let c0_i32_2 : BitVec 32 := 0#32
  ![v2.toNat, c0_i32.toNat, c0_i32_1.toNat]

def cc0_transform_8 (i : grid0.Coords) : Fin 3 → Nat :=
  let arg0 : BitVec 32 := BitVec.ofNat 32 (i 0).val
  let c4_i32 : BitVec 32 := 4#32
  let v0 : BitVec 32 := Scalar.minsi arg0 c4_i32
  let c4_i32_0 : BitVec 32 := 4#32
  let v1 : BitVec 32 := Scalar.muli c4_i32_0 v0
  let c3_i32 : BitVec 32 := 3#32
  let v2 : BitVec 32 := Scalar.addi v1 c3_i32
  let c0_i32 : BitVec 32 := 0#32
  let c0_i32_1 : BitVec 32 := 0#32
  let c0_i32_2 : BitVec 32 := 0#32
  ![v2.toNat, c0_i32.toNat, c0_i32_1.toNat]

def cc0_transform_9 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S20x1024_S20x1x1024 : S20x1024.ShapeCasts S20x1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1024 : S1x1024.ShapeCasts S1x1024
  broadcasts_S1x1024_S8x1024 : S1x1024.Broadcasts S8x1024
  concatenates_S1024x1024_S8x1024_S1032x1024_d0 : Shape.Concatenates [S1024x1024, S8x1024] S1032x1024 0
  bitsLt_bf16_f32 : FTy.bits .bf16 < FTy.bits .f32
  slices_S1032x1024_o0_0_S1024x1024 : S1032x1024.Slices ![0, 0] S1024x1024
  slices_S1032x1024_o1024_0_S8x1024 : S1032x1024.Slices ![1024, 0] S8x1024
  inb_S1032x1024_S1032x1024_0_0 : ∀ a, (![0, 0] : Fin 2 → Nat) a + S1032x1024.size a ≤ S1032x1024.size a
  h_S1032x1024 : 0 < S1032x1024.numel
  shapeCasts_S1032x1024_S1032x1024 : S1032x1024.ShapeCasts S1032x1024
  inb_S512x1024_S512x1024_0_0 : ∀ a, (![0, 0] : Fin 2 → Nat) a + S512x1024.size a ≤ S512x1024.size a
  h_S512x1024 : 0 < S512x1024.numel
  inb_S1032x1024_S1024x1024_0_0 : ∀ a, (![0, 0] : Fin 2 → Nat) a + S1024x1024.size a ≤ S1032x1024.size a
  h_S1024x1024 : 0 < S1024x1024.numel
  inb_S1032x1024_S1x1024_1024_0 : ∀ a, (![1024, 0] : Fin 2 → Nat) a + S1x1024.size a ≤ S1032x1024.size a
  h_S1x1024 : 0 < S1x1024.numel
  broadcasts_S1x1024_S512x1024 : S1x1024.Broadcasts S512x1024
  dot_S1032x1024_S1024x1024_S1032x1024_1_1_0_0_n_n_wf : DotDims.WF S1032x1024 S1024x1024 S1032x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S20x1024x1024.size a
  hwx0_1 : ∀ i : grid0.Coords, EltTy.bits .f32 = 32 ∨ (Rect.block (s := S20x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S20x1024x1024.size a
  hwx0_2 : ∀ i : grid0.Coords, EltTy.bits .f32 = 32 ∨ (Rect.block (s := S20x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S20x1024x1024.size a
  hwx0_3 : ∀ i : grid0.Coords, EltTy.bits .f32 = 32 ∨ (Rect.block (s := S20x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S20x1024x1024.size a
  hwx0_4 : ∀ i : grid0.Coords, EltTy.bits .f32 = 32 ∨ (Rect.block (s := S20x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S20x1x1024.size a
  hwx0_5 : ∀ i : grid0.Coords, EltTy.bits .f32 = 32 ∨ (Rect.block (s := S20x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S20x1x1024.size a
  hwx0_6 : ∀ i : grid0.Coords, EltTy.bits .f32 = 32 ∨ (Rect.block (s := S20x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S20x1x1024.size a
  hwx0_7 : ∀ i : grid0.Coords, EltTy.bits .f32 = 32 ∨ (Rect.block (s := S20x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S20x1x1024.size a
  hwx0_8 : ∀ i : grid0.Coords, EltTy.bits .f32 = 32 ∨ (Rect.block (s := S20x1x1024) S1x1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .f32 = 32 ∨ (Rect.block (s := S4096x1024) S512x1024.size (cc0_transform_9 i) (hinb0_9 i)).WholeWords (EltTy.packing .f32)

variable [Facts₀]

def dot_S1032x1024_S1024x1024_S1032x1024_1_1_0_0_n_n : DotDims S1032x1024 S1024x1024 S1032x1024 where
  lhsContracting := [1]
  rhsContracting := [1]
  lhsNonContracting := [0]
  rhsNonContracting := [0]
  lhsBatch := []
  rhsBatch := []
  wf := dot_S1032x1024_S1024x1024_S1032x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond3 i == 1#1) | ⟨_ + 10, h⟩ => absurd h (Nat.not_lt.2 (Nat.le_add_left _ _))

class Facts : Prop extends Facts₀ where

variable [Facts]
-- ==== ReferenceIdeal.lean ====
abbrev S4096x1024 : Shape := ⟨2, ![4096, 1024]⟩
abbrev S20x1024x1024 : Shape := ⟨3, ![20, 1024, 1024]⟩
abbrev S20x1024 : Shape := ⟨2, ![20, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S20x1024x1024, .f32⟩
  | 2 => ⟨S20x1024, .f32⟩
  | 3 => ⟨S1x1024x1024, .f32⟩
  | 4 => ⟨S1024x1024, .f32⟩
  | 5 => ⟨S1024x1024, .f32⟩
  | 6 => ⟨S4096x1024, .f32⟩
  | 7 => ⟨S1x1024, .f32⟩
  | 8 => ⟨S1024, .f32⟩
  | 9 => ⟨S1x1024, .f32⟩
  | 10 => ⟨S4096x1024, .f32⟩
  | 11 => ⟨S4096x1024, .f32⟩
  | 12 => ⟨S1x1024x1024, .f32⟩
  | 13 => ⟨S1024x1024, .f32⟩
  | 14 => ⟨S1024x1024, .f32⟩
  | 15 => ⟨S4096x1024, .f32⟩
  | 16 => ⟨S1x1024, .f32⟩
  | 17 => ⟨S1024, .f32⟩
  | 18 => ⟨S1x1024, .f32⟩
  | 19 => ⟨S4096x1024, .f32⟩
  | 20 => ⟨S4096x1024, .f32⟩
  | 21 => ⟨S1x1024x1024, .f32⟩
  | 22 => ⟨S1024x1024, .f32⟩
  | 23 => ⟨S1024x1024, .f32⟩
  | 24 => ⟨S4096x1024, .f32⟩
  | 25 => ⟨S1x1024, .f32⟩
  | 26 => ⟨S1024, .f32⟩
  | 27 => ⟨S1x1024, .f32⟩
  | 28 => ⟨S4096x1024, .f32⟩
  | 29 => ⟨S4096x1024, .f32⟩
  | 30 => ⟨S1x1024x1024, .f32⟩
  | 31 => ⟨S1024x1024, .f32⟩
  | 32 => ⟨S1024x1024, .f32⟩
  | 33 => ⟨S4096x1024, .f32⟩
  | 34 => ⟨S1x1024, .f32⟩
  | 35 => ⟨S1024, .f32⟩
  | 36 => ⟨S1x1024, .f32⟩
  | 37 => ⟨S4096x1024, .f32⟩
  | 38 => ⟨S4096x1024, .f32⟩
  | 39 => ⟨S1x1024x1024, .f32⟩
  | 40 => ⟨S1024x1024, .f32⟩
  | 41 => ⟨S1024x1024, .f32⟩
  | 42 => ⟨S4096x1024, .f32⟩
  | 43 => ⟨S1x1024, .f32⟩
  | 44 => ⟨S1024, .f32⟩
  | 45 => ⟨S1x1024, .f32⟩
  | 46 => ⟨S4096x1024, .f32⟩
  | 47 => ⟨S4096x1024, .f32⟩
  | 48 => ⟨S1x1024x1024, .f32⟩
  | 49 => ⟨S1024x1024, .f32⟩
  | 50 => ⟨S1024x1024, .f32⟩
  | 51 => ⟨S4096x1024, .f32⟩
  | 52 => ⟨S1x1024, .f32⟩
  | 53 => ⟨S1024, .f32⟩
  | 54 => ⟨S1x1024, .f32⟩
  | 55 => ⟨S4096x1024, .f32⟩
  | 56 => ⟨S4096x1024, .f32⟩
  | 57 => ⟨S1x1024x1024, .f32⟩
  | 58 => ⟨S1024x1024, .f32⟩
  | 59 => ⟨S1024x1024, .f32⟩
  | 60 => ⟨S4096x1024, .f32⟩
  | 61 => ⟨S1x1024, .f32⟩
  | 62 => ⟨S1024, .f32⟩
  | 63 => ⟨S1x1024, .f32⟩
  | 64 => ⟨S4096x1024, .f32⟩
  | 65 => ⟨S4096x1024, .f32⟩
  | 66 => ⟨S1x1024x1024, .f32⟩
  | 67 => ⟨S1024x1024, .f32⟩
  | 68 => ⟨S1024x1024, .f32⟩
  | 69 => ⟨S4096x1024, .f32⟩
  | 70 => ⟨S1x1024, .f32⟩
  | 71 => ⟨S1024, .f32⟩
  | 72 => ⟨S1x1024, .f32⟩
  | 73 => ⟨S4096x1024, .f32⟩
  | 74 => ⟨S4096x1024, .f32⟩
  | 75 => ⟨S1x1024x1024, .f32⟩
  | 76 => ⟨S1024x1024, .f32⟩
  | 77 => ⟨S1024x1024, .f32⟩
  | 78 => ⟨S4096x1024, .f32⟩
  | 79 => ⟨S1x1024, .f32⟩
  | 80 => ⟨S1024, .f32⟩
  | 81 => ⟨S1x1024, .f32⟩
  | 82 => ⟨S4096x1024, .f32⟩
  | 83 => ⟨S4096x1024, .f32⟩
  | 84 => ⟨S1x1024x1024, .f32⟩
  | 85 => ⟨S1024x1024, .f32⟩
  | 86 => ⟨S1024x1024, .f32⟩
  | 87 => ⟨S4096x1024, .f32⟩
  | 88 => ⟨S1x1024, .f32⟩
  | 89 => ⟨S1024, .f32⟩
  | 90 => ⟨S1x1024, .f32⟩
  | 91 => ⟨S4096x1024, .f32⟩
  | 92 => ⟨S4096x1024, .f32⟩
  | 93 => ⟨S1x1024x1024, .f32⟩
  | 94 => ⟨S1024x1024, .f32⟩
  | 95 => ⟨S1024x1024, .f32⟩
  | 96 => ⟨S4096x1024, .f32⟩
  | 97 => ⟨S1x1024, .f32⟩
  | 98 => ⟨S1024, .f32⟩
  | 99 => ⟨S1x1024, .f32⟩
  | 100 => ⟨S4096x1024, .f32⟩
  | 101 => ⟨S4096x1024, .f32⟩
  | 102 => ⟨S1x1024x1024, .f32⟩
  | 103 => ⟨S1024x1024, .f32⟩
  | 104 => ⟨S1024x1024, .f32⟩
  | 105 => ⟨S4096x1024, .f32⟩
  | 106 => ⟨S1x1024, .f32⟩
  | 107 => ⟨S1024, .f32⟩
  | 108 => ⟨S1x1024, .f32⟩
  | 109 => ⟨S4096x1024, .f32⟩
  | 110 => ⟨S4096x1024, .f32⟩
  | 111 => ⟨S1x1024x1024, .f32⟩
  | 112 => ⟨S1024x1024, .f32⟩
  | 113 => ⟨S1024x1024, .f32⟩
  | 114 => ⟨S4096x1024, .f32⟩
  | 115 => ⟨S1x1024, .f32⟩
  | 116 => ⟨S1024, .f32⟩
  | 117 => ⟨S1x1024, .f32⟩
  | 118 => ⟨S4096x1024, .f32⟩
  | 119 => ⟨S4096x1024, .f32⟩
  | 120 => ⟨S1x1024x1024, .f32⟩
  | 121 => ⟨S1024x1024, .f32⟩
  | 122 => ⟨S1024x1024, .f32⟩
  | 123 => ⟨S4096x1024, .f32⟩
  | 124 => ⟨S1x1024, .f32⟩
  | 125 => ⟨S1024, .f32⟩
  | 126 => ⟨S1x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S1x1024x1024, .f32⟩
  | 2 => ⟨S1024x1024, .f32⟩
  | 3 => ⟨S1024x1024, .f32⟩
  | 4 => ⟨S4096x1024, .f32⟩
  | 5 => ⟨S1x1024, .f32⟩
  | 6 => ⟨S1024, .f32⟩
  | 7 => ⟨S1x1024, .f32⟩
  | 8 => ⟨S4096x1024, .f32⟩
  | 9 => ⟨S4096x1024, .f32⟩
  | 10 => ⟨S1x1024x1024, .f32⟩
  | 11 => ⟨S1024x1024, .f32⟩
  | 12 => ⟨S1024x1024, .f32⟩
  | 13 => ⟨S4096x1024, .f32⟩
  | 14 => ⟨S1x1024, .f32⟩
  | 15 => ⟨S1024, .f32⟩
  | 16 => ⟨S1x1024, .f32⟩
  | 17 => ⟨S4096x1024, .f32⟩
  | 18 => ⟨S4096x1024, .f32⟩
  | 19 => ⟨S1x1024x1024, .f32⟩
  | 20 => ⟨S1024x1024, .f32⟩
  | 21 => ⟨S1024x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S1x1024x1024, .f32⟩
  | 29 => ⟨S1024x1024, .f32⟩
  | 30 => ⟨S1024x1024, .f32⟩
  | 31 => ⟨S4096x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S1x1024x1024, .f32⟩
  | 38 => ⟨S1024x1024, .f32⟩
  | 39 => ⟨S1024x1024, .f32⟩
  | 40 => ⟨S4096x1024, .f32⟩
  | 41 => ⟨S1x1024, .f32⟩
  | 42 => ⟨S1024, .f32⟩
  | 43 => ⟨S1x1024, .f32⟩
  | 44 => ⟨S4096x1024, .f32⟩
  | 45 => ⟨S4096x1024, .f32⟩
  | 46 => ⟨S1x1024x1024, .f32⟩
  | 47 => ⟨S1024x1024, .f32⟩
  | 48 => ⟨S1024x1024, .f32⟩
  | 49 => ⟨S4096x1024, .f32⟩
  | 50 => ⟨S1x1024, .f32⟩
  | 51 => ⟨S1024, .f32⟩
  | 52 => ⟨S1x1024, .f32⟩
  | 53 => ⟨S4096x1024, .f32⟩
  | 54 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩

abbrev nD : Nat := 1
abbrev τ : Topo := Topo.v7x

variable {F : FTy → Type} [FloatOps F]

class Facts₀ : Prop where
  slices_S20x1024x1024_S1x1024x1024_0_0_0 : S20x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S20x1024_S1x1024_0_0 : S20x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S20x1024x1024_S1x1024x1024_1_0_0 : S20x1024x1024.Slices ![1, 0, 0] S1x1024x1024
  slices_S20x1024_S1x1024_1_0 : S20x1024.Slices ![1, 0] S1x1024
  slices_S20x1024x1024_S1x1024x1024_2_0_0 : S20x1024x1024.Slices ![2, 0, 0] S1x1024x1024
  slices_S20x1024_S1x1024_2_0 : S20x1024.Slices ![2, 0] S1x1024
  slices_S20x1024x1024_S1x1024x1024_3_0_0 : S20x1024x1024.Slices ![3, 0, 0] S1x1024x1024
  slices_S20x1024_S1x1024_3_0 : S20x1024.Slices ![3, 0] S1x1024
  slices_S20x1024x1024_S1x1024x1024_4_0_0 : S20x1024x1024.Slices ![4, 0, 0] S1x1024x1024
  slices_S20x1024_S1x1024_4_0 : S20x1024.Slices ![4, 0] S1x1024
  slices_S20x1024x1024_S1x1024x1024_5_0_0 : S20x1024x1024.Slices ![5, 0, 0] S1x1024x1024
  slices_S20x1024_S1x1024_5_0 : S20x1024.Slices ![5, 0] S1x1024
  slices_S20x1024x1024_S1x1024x1024_6_0_0 : S20x1024x1024.Slices ![6, 0, 0] S1x1024x1024
  slices_S20x1024_S1x1024_6_0 : S20x1024.Slices ![6, 0] S1x1024
  slices_S20x1024x1024_S1x1024x1024_7_0_0 : S20x1024x1024.Slices ![7, 0, 0] S1x1024x1024
  slices_S20x1024_S1x1024_7_0 : S20x1024.Slices ![7, 0] S1x1024
  slices_S20x1024x1024_S1x1024x1024_8_0_0 : S20x1024x1024.Slices ![8, 0, 0] S1x1024x1024
  slices_S20x1024_S1x1024_8_0 : S20x1024.Slices ![8, 0] S1x1024
  slices_S20x1024x1024_S1x1024x1024_9_0_0 : S20x1024x1024.Slices ![9, 0, 0] S1x1024x1024
  slices_S20x1024_S1x1024_9_0 : S20x1024.Slices ![9, 0] S1x1024
  slices_S20x1024x1024_S1x1024x1024_10_0_0 : S20x1024x1024.Slices ![10, 0, 0] S1x1024x1024
  slices_S20x1024_S1x1024_10_0 : S20x1024.Slices ![10, 0] S1x1024
  slices_S20x1024x1024_S1x1024x1024_11_0_0 : S20x1024x1024.Slices ![11, 0, 0] S1x1024x1024
  slices_S20x1024_S1x1024_11_0 : S20x1024.Slices ![11, 0] S1x1024
  slices_S20x1024x1024_S1x1024x1024_12_0_0 : S20x1024x1024.Slices ![12, 0, 0] S1x1024x1024
  slices_S20x1024_S1x1024_12_0 : S20x1024.Slices ![12, 0] S1x1024
  slices_S20x1024x1024_S1x1024x1024_13_0_0 : S20x1024x1024.Slices ![13, 0, 0] S1x1024x1024
  slices_S20x1024_S1x1024_13_0 : S20x1024.Slices ![13, 0] S1x1024
  slices_S20x1024x1024_S1x1024x1024_14_0_0 : S20x1024x1024.Slices ![14, 0, 0] S1x1024x1024
  slices_S20x1024_S1x1024_14_0 : S20x1024.Slices ![14, 0] S1x1024
  slices_S20x1024x1024_S1x1024x1024_15_0_0 : S20x1024x1024.Slices ![15, 0, 0] S1x1024x1024
  slices_S20x1024_S1x1024_15_0 : S20x1024.Slices ![15, 0] S1x1024
  slices_S20x1024x1024_S1x1024x1024_16_0_0 : S20x1024x1024.Slices ![16, 0, 0] S1x1024x1024
  slices_S20x1024_S1x1024_16_0 : S20x1024.Slices ![16, 0] S1x1024
  slices_S20x1024x1024_S1x1024x1024_17_0_0 : S20x1024x1024.Slices ![17, 0, 0] S1x1024x1024
  slices_S20x1024_S1x1024_17_0 : S20x1024.Slices ![17, 0] S1x1024
  slices_S20x1024x1024_S1x1024x1024_18_0_0 : S20x1024x1024.Slices ![18, 0, 0] S1x1024x1024
  slices_S20x1024_S1x1024_18_0 : S20x1024.Slices ![18, 0] S1x1024
  slices_S20x1024x1024_S1x1024x1024_19_0_0 : S20x1024x1024.Slices ![19, 0, 0] S1x1024x1024
  slices_S20x1024_S1x1024_19_0 : S20x1024.Slices ![19, 0] S1x1024
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.K.Base.lean ====
/-
  What the runs of the kernel body and the pipeline's proof data share.

  The region is entered after one host operation (the bias array reshaped to [20, 1, 1024]); `V` names each
  buffer's contents there. A window's block at a grid point is read off `V` (`iblk`). The body branches three
  ways on the grid coordinate: the first point builds the accumulator from layers 0 … 3, points 1 … 4 fold four
  more layers each into it, points 5 … 12 apply it to one tile of tokens each. The three conditions are decided
  over the thirteen points in closed form. The output window is idle (nothing stored, nothing written back) at
  points 0 … 4 and live from point 5 on.
-/
import proofs.«135073_g15564961481514_cont_week2b_1535_21_alg».proof.Proof.Gen.Kernel.Launch
import proofs.«135073_g15564961481514_cont_week2b_1535_21_alg».proof.Proof.Gen.Kernel.Skeleton
import proofs.«135073_g15564961481514_cont_week2b_1535_21_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s TensorCore buffer contents when the region is entered: after the one host operation before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's three branch conditions -/

/-- "This is the first grid point." -/
abbrev cond0 (i : grid0.Coords) : Prop :=
  (Scalar.cmpi .ne (Scalar.extui (Scalar.cmpi .eq (BitVec.ofNat 32 (i 0).val) 0#32)) 0#32) = 1#1
/-- "This is one of the later folding points." -/
abbrev cond1 (i : grid0.Coords) : Prop :=
  (Scalar.cmpi .ne (Scalar.extui (Scalar.andi (Scalar.cmpi .sgt (BitVec.ofNat 32 (i 0).val) 0#32) (Scalar.cmpi .slt (BitVec.ofNat 32 (i 0).val) 5#32))) 0#32) = 1#1
/-- "This is an applying point." -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ (0 < t.val ∧ t.val < 5) :=
  (by decide +kernel : ∀ t : Fin grid0.N, cond1 (grid0.coords t) ↔ (0 < t.val ∧ t.val < 5))
theorem hcond2 : ∀ t : Fin cfg0.N, cond2 (grid0.coords t) ↔ 5 ≤ t.val :=
  (by decide +kernel : ∀ t : Fin grid0.N, cond2 (grid0.coords t) ↔ 5 ≤ t.val)

/-! ## Where the windows are idle, fetched and written back -/

/-- No input window is ever idle. -/
theorem liveIn : ∀ (w : Fin cfg0.W), w.val < 9 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl
/-- The output window is idle exactly where the body does not apply the accumulator, -/
theorem idleOut : ∀ t : Fin cfg0.N, ¬cond2 (grid0.coords t) → cfg0.idle 9 (grid0.coords t) = true := by decide +kernel
theorem liveOut : ∀ t : Fin cfg0.N, cond2 (grid0.coords t) → cfg0.idle 9 (grid0.coords t) = false := by decide +kernel
/-- and there its block is not written back. -/
theorem noFlushOut : ∀ t : Fin cfg0.N, ¬cond2 (grid0.coords t) → (cfg0.win 9).flush t = false := by decide +kernel
theorem flushOut : ∀ t : Fin cfg0.N, cond2 (grid0.coords t) → (cfg0.win 9).flush t = true := by decide +kernel

/-! ## The staging memrefs at a point, and the scratch -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .f32 := win0_9.stage (cfg0.slots t 9)
abbrev hs9 (t : Fin cfg0.N) : (ms9 t).IsWhole := hstage0_9 ((cfg0.slots t 9).cast nbuf0_9)
/-- The accumulator's buffer: a whole scoped buffer of the kernel's own. -/
abbrev scM : Memref sig .tc .vmem S1032x1024 .f32 := Memref.whole cc0_scratch0

/-- What the launch hands the region besides the windows: the accumulator's buffer at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.Kernel.Hand

end
-- ==== Proof.K.RunA.lean ====
/-
  The kernel body at the first grid point: the accumulator is built from layers 0 … 3 and stored whole.
-/
import proofs.«135073_g15564961481514_cont_week2b_1535_21_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first grid point leaves in the accumulator's buffer, with the proof that the body, in this case,
    runs from whole staging memrefs at their contents (the output's buffer handed back untouched, the
    accumulator's buffer found at anything) to the continuation holding the accumulator's buffer with those
    pieces written. -/
noncomputable def kernelRunA (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : cond0 i) (hc1 : ¬cond1 i) (hc2 : ¬cond2 i) (x2 x3 x4 x5 : Vec F S1x1024x1024 .f32) (x6 x7 x8 x9 : Vec F S1x1x1024 .f32) :
    { LS : List (View.Piece (Elt F) S1032x1024 .f32) //
      ∀ (x1 xi10 : Vec F S512x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare xi10 ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ owns (c : Thread nD τ) arg10 fullShare xi10
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x1 xi10 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; iexact HS

end Cert.Kernel.Hand

end
-- ==== Proof.K.RunB.lean ====
/-
  The kernel body at a later folding point: four more layers are folded into the accumulator, which is stored whole.
-/
import proofs.«135073_g15564961481514_cont_week2b_1535_21_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later folding point leaves in the accumulator's buffer, found at the contents `xs` the point
    before left, with the proof that the body runs so in this case. -/
noncomputable def kernelRunB (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : cond1 i) (hc2 : ¬cond2 i) (x2 x3 x4 x5 : Vec F S1x1024x1024 .f32) (x6 x7 x8 x9 : Vec F S1x1x1024 .f32) (xs : Vec F S1032x1024 .f32) :
    { LS : List (View.Piece (Elt F) S1032x1024 .f32) //
      ∀ (x1 xi10 : Vec F S512x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare xi10 ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ owns (c : Thread nD τ) arg10 fullShare xi10
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x1 xi10 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10; obtain rfl := harg11.eq_unread hfs
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; iexact HS

end Cert.Kernel.Hand

end
-- ==== Proof.K.RunC.lean ====
/-
  The kernel body at an applying point: a tile of tokens times the accumulator's matrix, plus its bias row, stored whole into the output's buffer.
-/
import proofs.«135073_g15564961481514_cont_week2b_1535_21_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces an applying point leaves in the output's staging buffer, from the tile `x1` of tokens and the
    accumulator `xs` (read, not written), with the proof that the body runs so in this case. -/
noncomputable def kernelRunC (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : ¬cond1 i) (hc2 : cond2 i) (x1 : Vec F S512x1024 .f32) (xs : Vec F S1032x1024 .f32) :
    { L10 : List (View.Piece (Elt F) S512x1024 .f32) //
      ∀ (x2 x3 x4 x5 : Vec F S1x1024x1024 .f32) (x6 x7 x8 x9 : Vec F S1x1x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ d, owns (c : Thread nD τ) arg10 fullShare d) ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ (∃ f, arg10.view.loc (c : Thread nD τ) ↦[arg10.view.set]{fullShare} arg10.view.writes (Elt F) f L10)
                ∗ owns (c : Thread nD τ) arg11 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x2 x3 x4 x5 x6 x7 x8 x9 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg11.eq_unread hfs
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; isplitr; · ipureintro; exact harg11.read_unread _
    iexact HS

end Cert.Kernel.Hand

end
-- ==== Proof.K.Outs.lean ====
/-
  What the accumulator's buffer and the output's staging buffer hold after each grid point.

  Each case of the body leaves a list of stored pieces; read back over arbitrary contents, the pieces that tile
  a buffer determine it (`soutA`, `soutB` for the accumulator, `outC` for the output tile). `outsAt` follows the
  thirteen points: the first builds the accumulator from the first point's blocks, points 1 … 4 fold the
  point's blocks into what the point before left, points 5 … 12 leave the accumulator as it is and fill the
  output's buffer from the point's tile of tokens and the accumulator.
-/
import proofs.«135073_g15564961481514_cont_week2b_1535_21_alg».proof.Proof.K.RunC
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator's buffer as a view: what it holds is stated through it. -/
abbrev VS : View sig .tc .vmem S1032x1024 .f32 := scM.view
/-- One staging buffer of the output window, through which its contents are stated (the choice does not matter). -/
abbrev VO : View sig .tc .vmem S512x1024 .f32 := (Memref.whole cc0_stg9_0 : Memref sig .tc .vmem S512x1024 .f32).view

omit m ρ in
/-- The first point's pieces cover the accumulator's buffer. -/
theorem scoverA (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : cond0 i) (hc1 : ¬cond1 i) (hc2 : ¬cond2 i) (x2 x3 x4 x5 : Vec F S1x1024x1024 .f32) (x6 x7 x8 x9 : Vec F S1x1x1024 .f32) (y : S1032x1024.Idx) :
    ∃ pc ∈ (kernelRunA (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9).1, y ∈ pc.1.set :=
  View.cover_of_tiledL (kernelRunA (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9).1 S1032x1024.size (by sl_kernel_rfl) y

omit m ρ in
/-- What the first point leaves in the accumulator's buffer. -/
def soutA (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : cond0 i) (hc1 : ¬cond1 i) (hc2 : ¬cond2 i) (x2 x3 x4 x5 : Vec F S1x1024x1024 .f32) (x6 x7 x8 x9 : Vec F S1x1x1024 .f32) : Vec F S1032x1024 .f32 :=
  VS.read (Elt F) (VS.writes (Elt F) VS.junk (kernelRunA (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9).1)

omit m ρ in
/-- A later folding point's pieces cover the accumulator's buffer. -/
theorem scoverB (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : cond1 i) (hc2 : ¬cond2 i) (x2 x3 x4 x5 : Vec F S1x1024x1024 .f32) (x6 x7 x8 x9 : Vec F S1x1x1024 .f32) (xs : Vec F S1032x1024 .f32) (y : S1032x1024.Idx) :
    ∃ pc ∈ (kernelRunB (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs).1, y ∈ pc.1.set :=
  View.cover_of_tiledL (kernelRunB (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs).1 S1032x1024.size (by sl_kernel_rfl) y

omit m ρ in
/-- What a later folding point leaves in the accumulator's buffer, found at `xs`. -/
def soutB (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : cond1 i) (hc2 : ¬cond2 i) (x2 x3 x4 x5 : Vec F S1x1024x1024 .f32) (x6 x7 x8 x9 : Vec F S1x1x1024 .f32) (xs : Vec F S1032x1024 .f32) : Vec F S1032x1024 .f32 :=
  VS.read (Elt F) (VS.writes (Elt F) VS.junk (kernelRunB (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs).1)

omit m ρ in
/-- An applying point's pieces cover the output's staging buffer. -/
theorem coverC (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : ¬cond1 i) (hc2 : cond2 i) (x1 : Vec F S512x1024 .f32) (xs : Vec F S1032x1024 .f32) (y : S512x1024.Idx) :
    ∃ pc ∈ (kernelRunC (F := F) c i arg1 harg1 arg2 harg2 arg3 harg3 arg4 harg4 arg5 harg5 arg6 harg6 arg7 harg7 arg8 harg8 arg9 harg9 arg10 harg10 arg11 harg11 hc0 hc1 hc2 x1 xs).1, y ∈ pc.1.set :=
  View.cover_of_tiledL (kernelRunC (F := F) c i arg1 harg1 arg2 harg2 arg3 harg3 arg4 harg4 arg5 harg5 arg6 harg6 arg7 harg7 arg8 harg8 arg9 harg9 arg10 harg10 arg11 harg11 hc0 hc1 hc2 x1 xs).1 S512x1024.size (by sl_kernel_rfl) y

omit m ρ in
/-- What an applying point leaves in the output's staging buffer. -/
def outC (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : ¬cond1 i) (hc2 : cond2 i) (x1 : Vec F S512x1024 .f32) (xs : Vec F S1032x1024 .f32) : Vec F S512x1024 .f32 :=
  VO.read (Elt F) (VO.writes (Elt F) VO.junk (kernelRunC (F := F) c i arg1 harg1 arg2 harg2 arg3 harg3 arg4 harg4 arg5 harg5 arg6 harg6 arg7 harg7 arg8 harg8 arg9 harg9 arg10 harg10 arg11 harg11 hc0 hc1 hc2 x1 xs).1)

/-- The thirteen points have thirteen positions. -/
theorem N_lt (n : ℕ) (hn : n < cfg0.N) : n < 13 := lt_of_lt_of_eq hn (show cfg0.N = 13 from N_0)

/-- THE ACCUMULATION: after the body at position `n`, the output's staging buffer (first component; a placeholder
    nothing consults at the points where the window is idle) and the accumulator's buffer (second component). -/
def outsAt (c : Dev nD) : (n : ℕ) → n < cfg0.N → Vec F S512x1024 .f32 × Vec F S1032x1024 .f32
  | 0, hn =>
    (VO.read (Elt F) VO.junk,
      soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _)
        ((hcond0 ⟨0, hn⟩).mpr rfl) (fun h => by have := (hcond1 ⟨0, hn⟩).mp h; (try dsimp only at this); omega)
        (fun h => by have := (hcond2 ⟨0, hn⟩).mp h; (try dsimp only at this); omega) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h5 : n + 1 < 5 then
      (VO.read (Elt F) VO.junk,
        soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _)
          (fun h => by have := (hcond0 ⟨n + 1, hn⟩).mp h; (try dsimp only at this); omega) ((hcond1 ⟨n + 1, hn⟩).mpr ⟨Nat.succ_pos n, h5⟩)
          (fun h => by have := (hcond2 ⟨n + 1, hn⟩).mp h; (try dsimp only at this); omega) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
          (outsAt c n (Nat.lt_of_succ_lt hn)).2)
    else
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _)
          (fun h => by have := (hcond0 ⟨n + 1, hn⟩).mp h; (try dsimp only at this); omega)
          (fun h => by have := (hcond1 ⟨n + 1, hn⟩).mp h; (try dsimp only at this); omega)
          ((hcond2 ⟨n + 1, hn⟩).mpr (by (try dsimp only); omega)) (iblk m c 0 ⟨n + 1, hn⟩) (outsAt c n (Nat.lt_of_succ_lt hn)).2,
        (outsAt c n (Nat.lt_of_succ_lt hn)).2)

end Cert.Kernel.Hand

end
-- ==== Proof.K.Frame.lean ====
/-
  The pipeline's proof data for the kernel, and the body obligation at every grid point.

  The arrays are as the region finds them. After the body each input's staging buffer still holds its block;
  the output's holds what `outsAt` says. The invariant carries the accumulator's buffer: at anything before the
  first point, afterwards at what the point before left. The weights' array is read by four windows and the
  reshaped biases' array by four more: each such array's full share is dealt to its four windows in quarters.
-/
import proofs.«135073_g15564961481514_cont_week2b_1535_21_alg».proof.Proof.K.Outs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A quarter of the full share, by two halvings. -/
abbrev qLL : PosShare TreeShare := (fullShare : PosShare TreeShare).left.left
abbrev qLR : PosShare TreeShare := (fullShare : PosShare TreeShare).left.right
abbrev qRL : PosShare TreeShare := (fullShare : PosShare TreeShare).right.left
abbrev qRR : PosShare TreeShare := (fullShare : PosShare TreeShare).right.right

/-- The region invariant before position `n`: the accumulator's buffer at anything before the first point, then at
    what the point before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
  Φ t := PhiS m c t.val (Nat.le_of_lt_succ t.isLt)
  q w := match w with
    | ⟨0, _⟩ => fullShare
    | ⟨1, _⟩ => qLL | ⟨2, _⟩ => qLR | ⟨3, _⟩ => qRL | ⟨4, _⟩ => qRR
    | ⟨5, _⟩ => qLL | ⟨6, _⟩ => qLR | ⟨7, _⟩ => qRL | ⟨8, _⟩ => qRR
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

/-! ## The accumulation, case by case -/

/-- `outsAt` at the first point: the accumulator built from the point's blocks. -/
theorem outsAt_A (c : Dev nD) (t : Fin cfg0.N) (hc0 : cond0 (grid0.coords t)) (hc1 : ¬cond1 (grid0.coords t)) (hc2 : ¬cond2 (grid0.coords t)) :
    outsAt m c t.val t.isLt = (VO.read (Elt F) VO.junk,
      soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t)) := by
  have h0 : t.val = 0 := (hcond0 t).mp hc0
  obtain ⟨n, hn⟩ := t
  cases n with
  | zero => exact rfl
  | succ n => exact absurd h0 (Nat.succ_ne_zero n)

/-- `outsAt` at a later folding point: the point's blocks folded into what the point before left. -/
theorem outsAt_B (c : Dev nD) (t : Fin cfg0.N) (hc0 : ¬cond0 (grid0.coords t)) (hc1 : cond1 (grid0.coords t)) (hc2 : ¬cond2 (grid0.coords t)) :
    outsAt m c t.val t.isLt = (VO.read (Elt F) VO.junk,
      soutB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2) := by
  have h1 : 0 < t.val ∧ t.val < 5 := (hcond1 t).mp hc1
  obtain ⟨n, hn⟩ := t
  cases n with
  | zero => exact absurd h1.1 (Nat.lt_irrefl 0)
  | succ n => exact (dif_pos h1.2).trans rfl

/-- `outsAt` at an applying point: the output tile from the point's tokens and the accumulator, which stays as the
    point before left it. -/
theorem outsAt_C (c : Dev nD) (t : Fin cfg0.N) (hc0 : ¬cond0 (grid0.coords t)) (hc1 : ¬cond1 (grid0.coords t)) (hc2 : cond2 (grid0.coords t)) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 0 t) (outsAt m c (t.val - 1) (Nat.lt_of_le_of_lt (Nat.sub_le _ _) t.isLt)).2,
      (outsAt m c (t.val - 1) (Nat.lt_of_le_of_lt (Nat.sub_le _ _) t.isLt)).2) := by
  have h2 : 5 ≤ t.val := (hcond2 t).mp hc2
  obtain ⟨n, hn⟩ := t
  cases n with
  | zero => exact absurd h2 (Nat.not_succ_le_zero 4)
  | succ n => exact (dif_neg (Nat.not_lt.mpr h2)).trans rfl

/-! ## The invariant, position by position -/

theorem PhiS_zero (c : Dev nD) (n : ℕ) (h : n ≤ cfg0.N) (hz : n = 0) :
    PhiS m c n h = iprop(∃ d, owns (c : Thread nD τ) scM fullShare d) := by
  subst hz; rfl

/-- After position `n`: the accumulator's buffer at what that point left. -/
theorem PhiS_succ (c : Dev nD) (n : ℕ) (hn : n < cfg0.N) :
    PhiS m c (n + 1) hn = owns (c : Thread nD τ) scM fullShare ((outsAt m c n hn).2) := rfl

/-- Before a position that is not the first: the accumulator's buffer at what the point before left. -/
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## What the body leaves and finds, window by window -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]

/-- An input window's current staging buffer holds its block at every point, fetched there or not, for any proof data
    whose array is the region-entry contents and whose body leaves the block in place: unfetched, the block index has
    not moved since the point before (the windows are uncut and never idle). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (liveIn 0 (by decide)) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (liveIn 1 (by decide)) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (liveIn 2 (by decide)) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (liveIn 3 (by decide)) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (liveIn 4 (by decide)) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (liveIn 5 (by decide)) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (liveIn 6 (by decide)) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (liveIn 7 (by decide)) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (liveIn 8 (by decide)) (fun _ _ _ => rfl) (fun t => by rw [hafter]; unfold Dat.blockOf iblk; rw [hA]; try rfl) t d).trans
    (by unfold Dat.fetched Dat.blockOf iblk; rw [hA]; try rfl)

/-- So it is with the pipeline's proof data. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-- An input window is live at every point: the body's post for its buffer is the block left in place. -/
theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveIn 0 (by decide) (grid0.coords t)], after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveIn 1 (by decide) (grid0.coords t)], after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveIn 2 (by decide) (grid0.coords t)], after_2]
theorem leaves_3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveIn 3 (by decide) (grid0.coords t)], after_3]
theorem leaves_4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveIn 4 (by decide) (grid0.coords t)], after_4]
theorem leaves_5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveIn 5 (by decide) (grid0.coords t)], after_5]
theorem leaves_6 (c : Dev nD) (t : Fin cfg0.N) :
    (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [liveIn 6 (by decide) (grid0.coords t)], after_6]
theorem leaves_7 (c : Dev nD) (t : Fin cfg0.N) :
    (dats m 0 c).leavesExact 7 t = owns (c : Thread nD τ) (ms7 t) fullShare (iblk m c 7 t) := by
  rw [show (dats m 0 c).leavesExact 7 t = owns (c : Thread nD τ) (ms7 t) fullShare ((dats m 0 c).after 7 t) from by
    unfold Dat.leavesExact; rw [liveIn 7 (by decide) (grid0.coords t)], after_7]
theorem leaves_8 (c : Dev nD) (t : Fin cfg0.N) :
    (dats m 0 c).leavesExact 8 t = owns (c : Thread nD τ) (ms8 t) fullShare (iblk m c 8 t) := by
  rw [show (dats m 0 c).leavesExact 8 t = owns (c : Thread nD τ) (ms8 t) fullShare ((dats m 0 c).after 8 t) from by
    unfold Dat.leavesExact; rw [liveIn 8 (by decide) (grid0.coords t)], after_8]

/-- At an applying point the output window is live: the body's post for its buffer is what `outsAt` says. -/
theorem leaves_9_live (c : Dev nD) (t : Fin cfg0.N) (hc2 : cond2 (grid0.coords t)) :
    (dats m 0 c).leavesExact 9 t = owns (c : Thread nD τ) (ms9 t) fullShare ((outsAt m c t.val t.isLt).1) := by
  rw [show (dats m 0 c).leavesExact 9 t = owns (c : Thread nD τ) (ms9 t) fullShare ((dats m 0 c).after 9 t) from by
    unfold Dat.leavesExact; rw [liveOut t hc2], after_9]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point. The inputs' buffers hold their blocks; the closed forms say which of the three cases the
    point is in. At the first point the accumulator's buffer is found at anything and left at what the pieces stored
    there make of it; at a later folding point it is found at what the point before left and left at the pieces folded
    into that; at both the output's buffer is handed back as found. At an applying point the accumulator's buffer
    comes back unchanged and the output's buffer, found at anything, is left at what the pieces stored there make
    of it. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t, leaves_8 m c t]
  have hN : t.val < 13 := N_lt t.val t.isLt
  by_cases hz : t.val = 0
  · have hc0 : cond0 (grid0.coords t) := (hcond0 t).mpr hz
    have hc1 : ¬cond1 (grid0.coords t) := fun h => by have := (hcond1 t).mp h; omega
    have hc2 : ¬cond2 (grid0.coords t) := fun h => by have := (hcond2 t).mp h; omega
    rw [Dat.leavesExact_idle (dats m 0 c) 9 t (idleOut t hc2) (noFlushOut t hc2)]
    rw [outsAt_A m c t hc0 hc1 hc2]
    unfold soutA; (try dsimp only)
    rw [PhiS_castSucc m c t, PhiS_zero m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t)).2 (iblk m c 0 t) ((dats m 0 c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, ⟨%es, HS⟩⟩
    isplitl [HS]
    · unfold owns; iexists _; isplitr
      swap; · iexact HS
      ipureintro; exact View.read_writes_of_cover _ _ _ _ _ (scoverA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h5 : t.val < 5
    · have hc0 : ¬cond0 (grid0.coords t) := fun h => hz ((hcond0 t).mp h)
      have hc1 : cond1 (grid0.coords t) := (hcond1 t).mpr ⟨Nat.pos_of_ne_zero hz, h5⟩
      have hc2 : ¬cond2 (grid0.coords t) := fun h => by have := (hcond2 t).mp h; omega
      rw [Dat.leavesExact_idle (dats m 0 c) 9 t (idleOut t hc2) (noFlushOut t hc2)]
      rw [outsAt_B m c t hc0 hc1 hc2]
      unfold soutB; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2).2 (iblk m c 0 t) ((dats m 0 c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS]
      · unfold owns; iexists _; isplitr
        swap; · iexact HS
        ipureintro; exact View.read_writes_of_cover _ _ _ _ _ (scoverB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · have hc0 : ¬cond0 (grid0.coords t) := fun h => hz ((hcond0 t).mp h)
      have hc1 : ¬cond1 (grid0.coords t) := fun h => h5 ((hcond1 t).mp h).2
      have hc2 : cond2 (grid0.coords t) := (hcond2 t).mpr (Nat.le_of_not_lt h5)
      rw [leaves_9_live m c t hc2]
      rw [outsAt_C m c t hc0 hc1 hc2]
      unfold outC; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 0 t) (outsAt m c (t.val - 1) (Nat.lt_of_le_of_lt (Nat.sub_le _ _) t.isLt)).2).2 (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 0 t) (outsAt m c (t.val - 1) (Nat.lt_of_le_of_lt (Nat.sub_le _ _) t.isLt)).2)

/-- The body obligation at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(iprop(emp) ∗ Pipeline.scopedRest spec0 c) ⊢ (dats m 0 c).Φ 0 := by
  rw [show (dats m 0 c).Φ 0 = PhiS m c 0 (Nat.zero_le _) from rfl, PhiS_zero m c 0 _ rfl, scopedRest_eq]
  exact emp_sep_elim

/-- After any point the invariant gives the accumulator's buffer back, its contents forgotten. -/
theorem Phi_out (c : Dev nD) (t : Fin (cfg0.N + 1)) (ht : t.val ≠ 0) :
    (dats m 0 c).Φ t ⊢ iprop(iprop(emp) ∗ Pipeline.scopedRest spec0 c) := by
  rw [show (dats m 0 c).Φ t = PhiS m c t.val (Nat.le_of_lt_succ t.isLt) from rfl, PhiS_pos m c _ _ ht, scopedRest_eq]
  refine BIBase.Entails.trans ?_ emp_sep_intro
  iintro HS
  iexists _; iexact HS

/-- After the last point the invariant gives the accumulator's buffer back, its contents forgotten. -/
theorem hout (c : Dev nD) : (dats m 0 c).Φ (Fin.last cfg0.N) ⊢ iprop(iprop(emp) ∗ Pipeline.scopedRest spec0 c) :=
  Phi_out m c _ (by rw [Fin.val_last]; have : cfg0.N = 13 := N_0; omega)

end Cert.Kernel.Hand

end
-- ==== Proof.K.Launch.lean ====
/-
  The launch: from the body obligation to the run of @main.

  @main is one host operation (the reshape of the biases) and the kernel region. The region's ten windows stand
  on four arrays: the tokens (one window), the weights (four windows), the reshaped biases (four windows) and the
  result (the output window). The launch holds each array's buffer whole; the weights' and the biases' are dealt
  to their four reading windows in quarters of the full share, two halvings each. The accumulator's buffer is the
  one scoped buffer that is no staging buffer: it enters the invariant at some contents and leaves it so. The
  biases' own array is the one unscoped buffer that is no window's array: it bypasses the region and is read back
  unchanged. The run ends with every window's array at what the pipeline library computes from the proof data.
-/
import proofs.«135073_g15564961481514_cont_week2b_1535_21_alg».proof.Proof.K.Frame
import Idealize.ShloMosaic.Lib.Pipeline.Kit
import Idealize.ShloMosaic.Lib.Pipeline.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

omit [FloatOps F] in
/-- The four buffers behind the ten windows' arrays, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_v0) ↦{fullShare} V' main_v0) ∗ (((c : Thread nD τ).loc main_v1) ↦{fullShare} V' main_v1)) := by
  unfold Pipeline.arrBufs
  exact bigSep_eq_bigSepL_of_eq [main_arg0, main_arg1, main_v0, main_v1] (by decide) (by decide) _

/-- A buffer held whole at the full share is four holdings at the quarters. -/
theorem quarters {ℓ : Loc nD τ sig} (f : Buf (Elt F) ℓ) :
    (ℓ ↦{fullShare} f : sProp 𝕄) ⊢ iprop((ℓ ↦{qLL} f) ∗ (ℓ ↦{qLR} f) ∗ (ℓ ↦{qRL} f) ∗ (ℓ ↦{qRR} f)) := by
  iintro H
  ihave H' := (pointsTo_share (PosShare.mem_left_op_right (fullShare : PosShare TreeShare))).1 $$ H
  icases H' with ⟨HL, HR⟩
  ihave HL' := (pointsTo_share (PosShare.mem_left_op_right (fullShare : PosShare TreeShare).left)).1 $$ HL
  ihave HR' := (pointsTo_share (PosShare.mem_left_op_right (fullShare : PosShare TreeShare).right)).1 $$ HR
  icases HL' with ⟨H1, H2⟩
  icases HR' with ⟨H3, H4⟩
  isplitl [H1]; · iexact H1
  isplitl [H2]; · iexact H2
  isplitl [H3]; · iexact H3
  iexact H4

/-- The four buffers, each whole at the region-entry contents, are the proof data's arrays at entry. -/
theorem hsplit (c : Dev nD) :
    Pipeline.arrBufs spec0 c (V m c) ⊢ (dats m 0 c).arrays ((dats m 0 c).arrAt · 0) := by
  rw [arrBufs_eq]
  unfold Dat.arrays
  rw [bigSep_W0]
  -- every window's array is a whole buffer; the four windows on one array name the same set
  have hs : ∀ w : Fin cfg0.W, (cfg0.win w).arr.view.set = Finset.univ := fun w => (arr_whole0 w).set_eq_univ
  rw [hs 0, hs 1, hs 5, hs 9]
  iintro ⟨H0, H1, H2, H3⟩
  ihave Q1 := (quarters (V m c main_arg1)) $$ H1
  icases Q1 with ⟨A1, A2, A3, A4⟩
  ihave Q2 := (quarters (V m c main_v0)) $$ H2
  icases Q2 with ⟨B1, B2, B3, B4⟩
  isplitl [H0]; · iexact H0
  isplitl [A1]; · iexact A1
  isplitl [A2]; · iexact A2
  isplitl [A3]; · iexact A3
  isplitl [A4]; · iexact A4
  isplitl [B1]; · iexact B1
  isplitl [B2]; · iexact B2
  isplitl [B3]; · iexact B3
  isplitl [B4]; · iexact B4
  iexact H3

/-- The physical post: every window's array at what the library computes after the last write-back, and the
    biases' array as it was. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg2) = V m c main_arg2

set_option backward.isDefEq.respectTransparency.types false in
/-- From any memory with zero counters every weakly fair execution of @main terminates, nothing faulting, in a state
    of that kind. -/
theorem run_main : θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_prefix cfgs (0 : Fin 1) defs₀ Variants.none m main hostOps0 hostOps0_sub
      (by simp only [List.Forall]; repeat' constructor) main_chain)
    (hsplit := hsplit m)
    (X := fun _ => iprop(emp)) (Y := fun _ => iprop(emp))
    (Z := fun c => (((c : Thread nD τ).loc main_arg2) ↦{fullShare} V m c main_arg2))
    (hX := fun c => by rw [unscopedRest0_eq]; iintro H; isplitr; · iempintro
                       iexact H)
    (hin := hin m) (hout := hout m)
    (QY := fun c s => s.mem ((c : Thread nD τ).loc main_arg2) = V m c main_arg2)
    (hY := fun c s' => by
      iintro ⟨-, H1, HSI⟩
      icombine HSI H1 gives %h
      imodintro
      isplitr; · ipureintro; exact Buf.eq_of_forall_mem_univ h
      iexact HSI)
    (hQ := fun _ h => h)

/-! ## The argument arrays after the run -/

/-- The host operation before the region writes only the reshaped biases: the three argument arrays are, at the
    region's entry, as the launch found them. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results

/-- THE RUN, read at the result and the arguments: the result array at what the library computes after the last
    write-back; the tokens and the weights are inputs of the pipeline, never written; the biases bypass the region. -/
theorem run_out : θ_run defs (onTc (τ := τ) (main (F := F))) ⟨m, fun _ => 0, ρ⟩ (fun r => ∀ c : Dev nD,
      r.2.mem ((c.tc : Thread nD τ).loc main_v1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 9,
      ((h c).1 0).trans (((dats m 0 c).arrAt_in 0 rfl _).trans ((A_eq m c 0).trans (V_arg0 m c))),
      ((h c).1 1).trans (((dats m 0 c).arrAt_in 1 rfl _).trans ((A_eq m c 1).trans (V_arg1 m c))),
      (h c).2.trans (V_arg2 m c)⟩) (run_main m ρ)

/-- THE FRAME: the run ends and the three argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m ρ)

end Cert.Kernel.Hand

end
-- ==== Proof.KI.Base.lean ====
/-
  What the runs of the kernel body and the pipeline's proof data share.

  The region is entered after one host operation (the bias array reshaped to [20, 1, 1024]); `V` names each
  buffer's contents there. A window's block at a grid point is read off `V` (`iblk`). The body branches three
  ways on the grid coordinate: the first point builds the accumulator from layers 0 … 3, points 1 … 4 fold four
  more layers each into it, points 5 … 12 apply it to one tile of tokens each. The three conditions are decided
  over the thirteen points in closed form. The output window is idle (nothing stored, nothing written back) at
  points 0 … 4 and live from point 5 on.
-/
import proofs.«135073_g15564961481514_cont_week2b_1535_21_alg».proof.Proof.Gen.KernelIdeal.Launch
import proofs.«135073_g15564961481514_cont_week2b_1535_21_alg».proof.Proof.Gen.KernelIdeal.Skeleton
import proofs.«135073_g15564961481514_cont_week2b_1535_21_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s TensorCore buffer contents when the region is entered: after the one host operation before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's three branch conditions -/

/-- "This is the first grid point." -/
abbrev cond0 (i : grid0.Coords) : Prop :=
  (Scalar.cmpi .ne (Scalar.extui (Scalar.cmpi .eq (BitVec.ofNat 32 (i 0).val) 0#32)) 0#32) = 1#1
/-- "This is one of the later folding points." -/
abbrev cond1 (i : grid0.Coords) : Prop :=
  (Scalar.cmpi .ne (Scalar.extui (Scalar.andi (Scalar.cmpi .sgt (BitVec.ofNat 32 (i 0).val) 0#32) (Scalar.cmpi .slt (BitVec.ofNat 32 (i 0).val) 5#32))) 0#32) = 1#1
/-- "This is an applying point." -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ (0 < t.val ∧ t.val < 5) :=
  (by decide +kernel : ∀ t : Fin grid0.N, cond1 (grid0.coords t) ↔ (0 < t.val ∧ t.val < 5))
theorem hcond2 : ∀ t : Fin cfg0.N, cond2 (grid0.coords t) ↔ 5 ≤ t.val :=
  (by decide +kernel : ∀ t : Fin grid0.N, cond2 (grid0.coords t) ↔ 5 ≤ t.val)

/-! ## Where the windows are idle, fetched and written back -/

/-- No input window is ever idle. -/
theorem liveIn : ∀ (w : Fin cfg0.W), w.val < 9 → ∀ i : grid0.Coords, cfg0.idle w i = false := by
  intro w hw i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl
/-- The output window is idle exactly where the body does not apply the accumulator, -/
theorem idleOut : ∀ t : Fin cfg0.N, ¬cond2 (grid0.coords t) → cfg0.idle 9 (grid0.coords t) = true := by decide +kernel
theorem liveOut : ∀ t : Fin cfg0.N, cond2 (grid0.coords t) → cfg0.idle 9 (grid0.coords t) = false := by decide +kernel
/-- and there its block is not written back. -/
theorem noFlushOut : ∀ t : Fin cfg0.N, ¬cond2 (grid0.coords t) → (cfg0.win 9).flush t = false := by decide +kernel
theorem flushOut : ∀ t : Fin cfg0.N, cond2 (grid0.coords t) → (cfg0.win 9).flush t = true := by decide +kernel

/-! ## The staging memrefs at a point, and the scratch -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .f32 := win0_9.stage (cfg0.slots t 9)
abbrev hs9 (t : Fin cfg0.N) : (ms9 t).IsWhole := hstage0_9 ((cfg0.slots t 9).cast nbuf0_9)
/-- The accumulator's buffer: a whole scoped buffer of the kernel's own. -/
abbrev scM : Memref sig .tc .vmem S1032x1024 .f32 := Memref.whole cc0_scratch0

/-- What the launch hands the region besides the windows: the accumulator's buffer at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

end Cert.KernelIdeal.Hand

end
-- ==== Proof.KI.RunA.lean ====
/-
  The kernel body at the first grid point: the accumulator is built from layers 0 … 3 and stored whole.
-/
import proofs.«135073_g15564961481514_cont_week2b_1535_21_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first grid point leaves in the accumulator's buffer, with the proof that the body, in this case,
    runs from whole staging memrefs at their contents (the output's buffer handed back untouched, the
    accumulator's buffer found at anything) to the continuation holding the accumulator's buffer with those
    pieces written. -/
noncomputable def kernelRunA (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : cond0 i) (hc1 : ¬cond1 i) (hc2 : ¬cond2 i) (x2 x3 x4 x5 : Vec F S1x1024x1024 .f32) (x6 x7 x8 x9 : Vec F S1x1x1024 .f32) :
    { LS : List (View.Piece (Elt F) S1032x1024 .f32) //
      ∀ (x1 xi10 : Vec F S512x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare xi10 ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ owns (c : Thread nD τ) arg10 fullShare xi10
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x1 xi10 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds, %fs, -, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; iexact HS

end Cert.KernelIdeal.Hand

end
-- ==== Proof.KI.RunB.lean ====
/-
  The kernel body at a later folding point: four more layers are folded into the accumulator, which is stored whole.
-/
import proofs.«135073_g15564961481514_cont_week2b_1535_21_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later folding point leaves in the accumulator's buffer, found at the contents `xs` the point
    before left, with the proof that the body runs so in this case. -/
noncomputable def kernelRunB (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : cond1 i) (hc2 : ¬cond2 i) (x2 x3 x4 x5 : Vec F S1x1024x1024 .f32) (x6 x7 x8 x9 : Vec F S1x1x1024 .f32) (xs : Vec F S1032x1024 .f32) :
    { LS : List (View.Piece (Elt F) S1032x1024 .f32) //
      ∀ (x1 xi10 : Vec F S512x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare xi10 ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ owns (c : Thread nD τ) arg10 fullShare xi10
                ∗ (∃ f, arg11.view.loc (c : Thread nD τ) ↦[arg11.view.set]{fullShare} arg11.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x1 xi10 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg10.eq_unread hf10; obtain rfl := harg11.eq_unread hfs
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; iexact HS

end Cert.KernelIdeal.Hand

end
-- ==== Proof.KI.RunC.lean ====
/-
  The kernel body at an applying point: a tile of tokens times the accumulator's matrix, plus its bias row, stored whole into the output's buffer.
-/
import proofs.«135073_g15564961481514_cont_week2b_1535_21_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces an applying point leaves in the output's staging buffer, from the tile `x1` of tokens and the
    accumulator `xs` (read, not written), with the proof that the body runs so in this case. -/
noncomputable def kernelRunC (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : ¬cond1 i) (hc2 : cond2 i) (x1 : Vec F S512x1024 .f32) (xs : Vec F S1032x1024 .f32) :
    { L10 : List (View.Piece (Elt F) S512x1024 .f32) //
      ∀ (x2 x3 x4 x5 : Vec F S1x1024x1024 .f32) (x6 x7 x8 x9 : Vec F S1x1x1024 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ (∃ d, owns (c : Thread nD τ) arg10 fullShare d) ∗ owns (c : Thread nD τ) arg11 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
                ∗ (∃ f, arg10.view.loc (c : Thread nD τ) ↦[arg10.view.set]{fullShare} arg10.view.writes (Elt F) f L10)
                ∗ owns (c : Thread nD τ) arg11 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun x2 x3 x4 x5 x6 x7 x8 x9 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    obtain rfl := harg11.eq_unread hfs
    sl_exec (disch := first | exact hc0 | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexists _; isplitr; · ipureintro; exact harg11.read_unread _
    iexact HS

end Cert.KernelIdeal.Hand

end
-- ==== Proof.KI.Outs.lean ====
/-
  What the accumulator's buffer and the output's staging buffer hold after each grid point.

  Each case of the body leaves a list of stored pieces; read back over arbitrary contents, the pieces that tile
  a buffer determine it (`soutA`, `soutB` for the accumulator, `outC` for the output tile). `outsAt` follows the
  thirteen points: the first builds the accumulator from the first point's blocks, points 1 … 4 fold the
  point's blocks into what the point before left, points 5 … 12 leave the accumulator as it is and fill the
  output's buffer from the point's tile of tokens and the accumulator.
-/
import proofs.«135073_g15564961481514_cont_week2b_1535_21_alg».proof.Proof.KI.RunC
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator's buffer as a view: what it holds is stated through it. -/
abbrev VS : View sig .tc .vmem S1032x1024 .f32 := scM.view
/-- One staging buffer of the output window, through which its contents are stated (the choice does not matter). -/
abbrev VO : View sig .tc .vmem S512x1024 .f32 := (Memref.whole cc0_stg9_0 : Memref sig .tc .vmem S512x1024 .f32).view

omit m ρ in
/-- The first point's pieces cover the accumulator's buffer. -/
theorem scoverA (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : cond0 i) (hc1 : ¬cond1 i) (hc2 : ¬cond2 i) (x2 x3 x4 x5 : Vec F S1x1024x1024 .f32) (x6 x7 x8 x9 : Vec F S1x1x1024 .f32) (y : S1032x1024.Idx) :
    ∃ pc ∈ (kernelRunA (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9).1, y ∈ pc.1.set :=
  View.cover_of_tiledL (kernelRunA (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9).1 S1032x1024.size (by sl_kernel_rfl) y

omit m ρ in
/-- What the first point leaves in the accumulator's buffer. -/
def soutA (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : cond0 i) (hc1 : ¬cond1 i) (hc2 : ¬cond2 i) (x2 x3 x4 x5 : Vec F S1x1024x1024 .f32) (x6 x7 x8 x9 : Vec F S1x1x1024 .f32) : Vec F S1032x1024 .f32 :=
  VS.read (Elt F) (VS.writes (Elt F) VS.junk (kernelRunA (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9).1)

omit m ρ in
/-- A later folding point's pieces cover the accumulator's buffer. -/
theorem scoverB (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : cond1 i) (hc2 : ¬cond2 i) (x2 x3 x4 x5 : Vec F S1x1024x1024 .f32) (x6 x7 x8 x9 : Vec F S1x1x1024 .f32) (xs : Vec F S1032x1024 .f32) (y : S1032x1024.Idx) :
    ∃ pc ∈ (kernelRunB (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs).1, y ∈ pc.1.set :=
  View.cover_of_tiledL (kernelRunB (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs).1 S1032x1024.size (by sl_kernel_rfl) y

omit m ρ in
/-- What a later folding point leaves in the accumulator's buffer, found at `xs`. -/
def soutB (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : cond1 i) (hc2 : ¬cond2 i) (x2 x3 x4 x5 : Vec F S1x1024x1024 .f32) (x6 x7 x8 x9 : Vec F S1x1x1024 .f32) (xs : Vec F S1032x1024 .f32) : Vec F S1032x1024 .f32 :=
  VS.read (Elt F) (VS.writes (Elt F) VS.junk (kernelRunB (F := F) c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs).1)

omit m ρ in
/-- An applying point's pieces cover the output's staging buffer. -/
theorem coverC (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : ¬cond1 i) (hc2 : cond2 i) (x1 : Vec F S512x1024 .f32) (xs : Vec F S1032x1024 .f32) (y : S512x1024.Idx) :
    ∃ pc ∈ (kernelRunC (F := F) c i arg1 harg1 arg2 harg2 arg3 harg3 arg4 harg4 arg5 harg5 arg6 harg6 arg7 harg7 arg8 harg8 arg9 harg9 arg10 harg10 arg11 harg11 hc0 hc1 hc2 x1 xs).1, y ∈ pc.1.set :=
  View.cover_of_tiledL (kernelRunC (F := F) c i arg1 harg1 arg2 harg2 arg3 harg3 arg4 harg4 arg5 harg5 arg6 harg6 arg7 harg7 arg8 harg8 arg9 harg9 arg10 harg10 arg11 harg11 hc0 hc1 hc2 x1 xs).1 S512x1024.size (by sl_kernel_rfl) y

omit m ρ in
/-- What an applying point leaves in the output's staging buffer. -/
def outC (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : ¬cond1 i) (hc2 : cond2 i) (x1 : Vec F S512x1024 .f32) (xs : Vec F S1032x1024 .f32) : Vec F S512x1024 .f32 :=
  VO.read (Elt F) (VO.writes (Elt F) VO.junk (kernelRunC (F := F) c i arg1 harg1 arg2 harg2 arg3 harg3 arg4 harg4 arg5 harg5 arg6 harg6 arg7 harg7 arg8 harg8 arg9 harg9 arg10 harg10 arg11 harg11 hc0 hc1 hc2 x1 xs).1)

/-- The thirteen points have thirteen positions. -/
theorem N_lt (n : ℕ) (hn : n < cfg0.N) : n < 13 := lt_of_lt_of_eq hn (show cfg0.N = 13 from N_0)

/-- THE ACCUMULATION: after the body at position `n`, the output's staging buffer (first component; a placeholder
    nothing consults at the points where the window is idle) and the accumulator's buffer (second component). -/
def outsAt (c : Dev nD) : (n : ℕ) → n < cfg0.N → Vec F S512x1024 .f32 × Vec F S1032x1024 .f32
  | 0, hn =>
    (VO.read (Elt F) VO.junk,
      soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _)
        ((hcond0 ⟨0, hn⟩).mpr rfl) (fun h => by have := (hcond1 ⟨0, hn⟩).mp h; (try dsimp only at this); omega)
        (fun h => by have := (hcond2 ⟨0, hn⟩).mp h; (try dsimp only at this); omega) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h5 : n + 1 < 5 then
      (VO.read (Elt F) VO.junk,
        soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _)
          (fun h => by have := (hcond0 ⟨n + 1, hn⟩).mp h; (try dsimp only at this); omega) ((hcond1 ⟨n + 1, hn⟩).mpr ⟨Nat.succ_pos n, h5⟩)
          (fun h => by have := (hcond2 ⟨n + 1, hn⟩).mp h; (try dsimp only at this); omega) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
          (outsAt c n (Nat.lt_of_succ_lt hn)).2)
    else
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _)
          (fun h => by have := (hcond0 ⟨n + 1, hn⟩).mp h; (try dsimp only at this); omega)
          (fun h => by have := (hcond1 ⟨n + 1, hn⟩).mp h; (try dsimp only at this); omega)
          ((hcond2 ⟨n + 1, hn⟩).mpr (by (try dsimp only); omega)) (iblk m c 0 ⟨n + 1, hn⟩) (outsAt c n (Nat.lt_of_succ_lt hn)).2,
        (outsAt c n (Nat.lt_of_succ_lt hn)).2)

end Cert.KernelIdeal.Hand

end
-- ==== Proof.KI.Frame.lean ====
/-
  The pipeline's proof data for the kernel, and the body obligation at every grid point.

  The arrays are as the region finds them. After the body each input's staging buffer still holds its block;
  the output's holds what `outsAt` says. The invariant carries the accumulator's buffer: at anything before the
  first point, afterwards at what the point before left. The weights' array is read by four windows and the
  reshaped biases' array by four more: each such array's full share is dealt to its four windows in quarters.
-/
import proofs.«135073_g15564961481514_cont_week2b_1535_21_alg».proof.Proof.KI.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A quarter of the full share, by two halvings. -/
abbrev qLL : PosShare TreeShare := (fullShare : PosShare TreeShare).left.left
abbrev qLR : PosShare TreeShare := (fullShare : PosShare TreeShare).left.right
abbrev qRL : PosShare TreeShare := (fullShare : PosShare TreeShare).right.left
abbrev qRR : PosShare TreeShare := (fullShare : PosShare TreeShare).right.right

/-- The region invariant before position `n`: the accumulator's buffer at anything before the first point, then at
    what the point before left. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
  Φ t := PhiS m c t.val (Nat.le_of_lt_succ t.isLt)
  q w := match w with
    | ⟨0, _⟩ => fullShare
    | ⟨1, _⟩ => qLL | ⟨2, _⟩ => qLR | ⟨3, _⟩ => qRL | ⟨4, _⟩ => qRR
    | ⟨5, _⟩ => qLL | ⟨6, _⟩ => qLR | ⟨7, _⟩ => qRL | ⟨8, _⟩ => qRR
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

/-! ## The accumulation, case by case -/

/-- `outsAt` at the first point: the accumulator built from the point's blocks. -/
theorem outsAt_A (c : Dev nD) (t : Fin cfg0.N) (hc0 : cond0 (grid0.coords t)) (hc1 : ¬cond1 (grid0.coords t)) (hc2 : ¬cond2 (grid0.coords t)) :
    outsAt m c t.val t.isLt = (VO.read (Elt F) VO.junk,
      soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t)) := by
  have h0 : t.val = 0 := (hcond0 t).mp hc0
  obtain ⟨n, hn⟩ := t
  cases n with
  | zero => exact rfl
  | succ n => exact absurd h0 (Nat.succ_ne_zero n)

/-- `outsAt` at a later folding point: the point's blocks folded into what the point before left. -/
theorem outsAt_B (c : Dev nD) (t : Fin cfg0.N) (hc0 : ¬cond0 (grid0.coords t)) (hc1 : cond1 (grid0.coords t)) (hc2 : ¬cond2 (grid0.coords t)) :
    outsAt m c t.val t.isLt = (VO.read (Elt F) VO.junk,
      soutB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2) := by
  have h1 : 0 < t.val ∧ t.val < 5 := (hcond1 t).mp hc1
  obtain ⟨n, hn⟩ := t
  cases n with
  | zero => exact absurd h1.1 (Nat.lt_irrefl 0)
  | succ n => exact (dif_pos h1.2).trans rfl

/-- `outsAt` at an applying point: the output tile from the point's tokens and the accumulator, which stays as the
    point before left it. -/
theorem outsAt_C (c : Dev nD) (t : Fin cfg0.N) (hc0 : ¬cond0 (grid0.coords t)) (hc1 : ¬cond1 (grid0.coords t)) (hc2 : cond2 (grid0.coords t)) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 0 t) (outsAt m c (t.val - 1) (Nat.lt_of_le_of_lt (Nat.sub_le _ _) t.isLt)).2,
      (outsAt m c (t.val - 1) (Nat.lt_of_le_of_lt (Nat.sub_le _ _) t.isLt)).2) := by
  have h2 : 5 ≤ t.val := (hcond2 t).mp hc2
  obtain ⟨n, hn⟩ := t
  cases n with
  | zero => exact absurd h2 (Nat.not_succ_le_zero 4)
  | succ n => exact (dif_neg (Nat.not_lt.mpr h2)).trans rfl

/-! ## The invariant, position by position -/

theorem PhiS_zero (c : Dev nD) (n : ℕ) (h : n ≤ cfg0.N) (hz : n = 0) :
    PhiS m c n h = iprop(∃ d, owns (c : Thread nD τ) scM fullShare d) := by
  subst hz; rfl

/-- After position `n`: the accumulator's buffer at what that point left. -/
theorem PhiS_succ (c : Dev nD) (n : ℕ) (hn : n < cfg0.N) :
    PhiS m c (n + 1) hn = owns (c : Thread nD τ) scM fullShare ((outsAt m c n hn).2) := rfl

/-- Before a position that is not the first: the accumulator's buffer at what the point before left. -/
theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## What the body leaves and finds, window by window -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]

/-- An input window's current staging buffer holds its block at every point, fetched there or not, for any proof data
    whose array is the region-entry contents and whose body leaves the block in place: unfetched, the block index has
    not moved since the point before (the windows are uncut and never idle). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (liveIn 0 (by decide)) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (liveIn 1 (by decide)) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (liveIn 2 (by decide)) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (liveIn 3 (by decide)) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (liveIn 4 (by decide)) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (liveIn 5 (by decide)) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (liveIn 6 (by decide)) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (liveIn 7 (by decide)) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (liveIn 8 (by decide)) (fun _ _ _ => rfl) (fun t => by rw [hafter]; unfold Dat.blockOf iblk; rw [hA]; try rfl) t d).trans
    (by unfold Dat.fetched Dat.blockOf iblk; rw [hA]; try rfl)

/-- So it is with the pipeline's proof data. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d

/-- An input window is live at every point: the body's post for its buffer is the block left in place. -/
theorem leaves_0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveIn 0 (by decide) (grid0.coords t)], after_0]
theorem leaves_1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveIn 1 (by decide) (grid0.coords t)], after_1]
theorem leaves_2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveIn 2 (by decide) (grid0.coords t)], after_2]
theorem leaves_3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveIn 3 (by decide) (grid0.coords t)], after_3]
theorem leaves_4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveIn 4 (by decide) (grid0.coords t)], after_4]
theorem leaves_5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveIn 5 (by decide) (grid0.coords t)], after_5]
theorem leaves_6 (c : Dev nD) (t : Fin cfg0.N) :
    (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [liveIn 6 (by decide) (grid0.coords t)], after_6]
theorem leaves_7 (c : Dev nD) (t : Fin cfg0.N) :
    (dats m 0 c).leavesExact 7 t = owns (c : Thread nD τ) (ms7 t) fullShare (iblk m c 7 t) := by
  rw [show (dats m 0 c).leavesExact 7 t = owns (c : Thread nD τ) (ms7 t) fullShare ((dats m 0 c).after 7 t) from by
    unfold Dat.leavesExact; rw [liveIn 7 (by decide) (grid0.coords t)], after_7]
theorem leaves_8 (c : Dev nD) (t : Fin cfg0.N) :
    (dats m 0 c).leavesExact 8 t = owns (c : Thread nD τ) (ms8 t) fullShare (iblk m c 8 t) := by
  rw [show (dats m 0 c).leavesExact 8 t = owns (c : Thread nD τ) (ms8 t) fullShare ((dats m 0 c).after 8 t) from by
    unfold Dat.leavesExact; rw [liveIn 8 (by decide) (grid0.coords t)], after_8]

/-- At an applying point the output window is live: the body's post for its buffer is what `outsAt` says. -/
theorem leaves_9_live (c : Dev nD) (t : Fin cfg0.N) (hc2 : cond2 (grid0.coords t)) :
    (dats m 0 c).leavesExact 9 t = owns (c : Thread nD τ) (ms9 t) fullShare ((outsAt m c t.val t.isLt).1) := by
  rw [show (dats m 0 c).leavesExact 9 t = owns (c : Thread nD τ) (ms9 t) fullShare ((dats m 0 c).after 9 t) from by
    unfold Dat.leavesExact; rw [liveOut t hc2], after_9]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point. The inputs' buffers hold their blocks; the closed forms say which of the three cases the
    point is in. At the first point the accumulator's buffer is found at anything and left at what the pieces stored
    there make of it; at a later folding point it is found at what the point before left and left at the pieces folded
    into that; at both the output's buffer is handed back as found. At an applying point the accumulator's buffer
    comes back unchanged and the output's buffer, found at anything, is left at what the pieces stored there make
    of it. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t, leaves_8 m c t]
  have hN : t.val < 13 := N_lt t.val t.isLt
  by_cases hz : t.val = 0
  · have hc0 : cond0 (grid0.coords t) := (hcond0 t).mpr hz
    have hc1 : ¬cond1 (grid0.coords t) := fun h => by have := (hcond1 t).mp h; omega
    have hc2 : ¬cond2 (grid0.coords t) := fun h => by have := (hcond2 t).mp h; omega
    rw [Dat.leavesExact_idle (dats m 0 c) 9 t (idleOut t hc2) (noFlushOut t hc2)]
    rw [outsAt_A m c t hc0 hc1 hc2]
    unfold soutA; (try dsimp only)
    rw [PhiS_castSucc m c t, PhiS_zero m c _ _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t)).2 (iblk m c 0 t) ((dats m 0 c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, ⟨%es, HS⟩⟩
    isplitl [HS]
    · unfold owns; iexists _; isplitr
      swap; · iexact HS
      ipureintro; exact View.read_writes_of_cover _ _ _ _ _ (scoverA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h5 : t.val < 5
    · have hc0 : ¬cond0 (grid0.coords t) := fun h => hz ((hcond0 t).mp h)
      have hc1 : cond1 (grid0.coords t) := (hcond1 t).mpr ⟨Nat.pos_of_ne_zero hz, h5⟩
      have hc2 : ¬cond2 (grid0.coords t) := fun h => by have := (hcond2 t).mp h; omega
      rw [Dat.leavesExact_idle (dats m 0 c) 9 t (idleOut t hc2) (noFlushOut t hc2)]
      rw [outsAt_B m c t hc0 hc1 hc2]
      unfold soutB; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2).2 (iblk m c 0 t) ((dats m 0 c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS]
      · unfold owns; iexists _; isplitr
        swap; · iexact HS
        ipureintro; exact View.read_writes_of_cover _ _ _ _ _ (scoverB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).2)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · have hc0 : ¬cond0 (grid0.coords t) := fun h => hz ((hcond0 t).mp h)
      have hc1 : ¬cond1 (grid0.coords t) := fun h => h5 ((hcond1 t).mp h).2
      have hc2 : cond2 (grid0.coords t) := (hcond2 t).mpr (Nat.le_of_not_lt h5)
      rw [leaves_9_live m c t hc2]
      rw [outsAt_C m c t hc0 hc1 hc2]
      unfold outC; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRunC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 0 t) (outsAt m c (t.val - 1) (Nat.lt_of_le_of_lt (Nat.sub_le _ _) t.isLt)).2).2 (iblk m c 1 t) (iblk m c 2 t) (iblk m c 3 t) (iblk m c 4 t) (iblk m c 5 t) (iblk m c 6 t) (iblk m c 7 t) (iblk m c 8 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) hc0 hc1 hc2 (iblk m c 0 t) (outsAt m c (t.val - 1) (Nat.lt_of_le_of_lt (Nat.sub_le _ _) t.isLt)).2)

/-- The body obligation at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(iprop(emp) ∗ Pipeline.scopedRest spec0 c) ⊢ (dats m 0 c).Φ 0 := by
  rw [show (dats m 0 c).Φ 0 = PhiS m c 0 (Nat.zero_le _) from rfl, PhiS_zero m c 0 _ rfl, scopedRest_eq]
  exact emp_sep_elim

/-- After any point the invariant gives the accumulator's buffer back, its contents forgotten. -/
theorem Phi_out (c : Dev nD) (t : Fin (cfg0.N + 1)) (ht : t.val ≠ 0) :
    (dats m 0 c).Φ t ⊢ iprop(iprop(emp) ∗ Pipeline.scopedRest spec0 c) := by
  rw [show (dats m 0 c).Φ t = PhiS m c t.val (Nat.le_of_lt_succ t.isLt) from rfl, PhiS_pos m c _ _ ht, scopedRest_eq]
  refine BIBase.Entails.trans ?_ emp_sep_intro
  iintro HS
  iexists _; iexact HS

/-- After the last point the invariant gives the accumulator's buffer back, its contents forgotten. -/
theorem hout (c : Dev nD) : (dats m 0 c).Φ (Fin.last cfg0.N) ⊢ iprop(iprop(emp) ∗ Pipeline.scopedRest spec0 c) :=
  Phi_out m c _ (by rw [Fin.val_last]; have : cfg0.N = 13 := N_0; omega)

end Cert.KernelIdeal.Hand

end
-- ==== Proof.KI.Launch.lean ====
/-
  The launch: from the body obligation to the run of @main.

  @main is one host operation (the reshape of the biases) and the kernel region. The region's ten windows stand
  on four arrays: the tokens (one window), the weights (four windows), the reshaped biases (four windows) and the
  result (the output window). The launch holds each array's buffer whole; the weights' and the biases' are dealt
  to their four reading windows in quarters of the full share, two halvings each. The accumulator's buffer is the
  one scoped buffer that is no staging buffer: it enters the invariant at some contents and leaves it so. The
  biases' own array is the one unscoped buffer that is no window's array: it bypasses the region and is read back
  unchanged. The run ends with every window's array at what the pipeline library computes from the proof data.
-/
import proofs.«135073_g15564961481514_cont_week2b_1535_21_alg».proof.Proof.KI.Frame
import Idealize.ShloMosaic.Lib.Pipeline.Kit
import Idealize.ShloMosaic.Lib.Pipeline.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

omit [FloatOps F] in
/-- The four buffers behind the ten windows' arrays, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_v0) ↦{fullShare} V' main_v0) ∗ (((c : Thread nD τ).loc main_v1) ↦{fullShare} V' main_v1)) := by
  unfold Pipeline.arrBufs
  exact bigSep_eq_bigSepL_of_eq [main_arg0, main_arg1, main_v0, main_v1] (by decide) (by decide) _

/-- A buffer held whole at the full share is four holdings at the quarters. -/
theorem quarters {ℓ : Loc nD τ sig} (f : Buf (Elt F) ℓ) :
    (ℓ ↦{fullShare} f : sProp 𝕄) ⊢ iprop((ℓ ↦{qLL} f) ∗ (ℓ ↦{qLR} f) ∗ (ℓ ↦{qRL} f) ∗ (ℓ ↦{qRR} f)) := by
  iintro H
  ihave H' := (pointsTo_share (PosShare.mem_left_op_right (fullShare : PosShare TreeShare))).1 $$ H
  icases H' with ⟨HL, HR⟩
  ihave HL' := (pointsTo_share (PosShare.mem_left_op_right (fullShare : PosShare TreeShare).left)).1 $$ HL
  ihave HR' := (pointsTo_share (PosShare.mem_left_op_right (fullShare : PosShare TreeShare).right)).1 $$ HR
  icases HL' with ⟨H1, H2⟩
  icases HR' with ⟨H3, H4⟩
  isplitl [H1]; · iexact H1
  isplitl [H2]; · iexact H2
  isplitl [H3]; · iexact H3
  iexact H4

/-- The four buffers, each whole at the region-entry contents, are the proof data's arrays at entry. -/
theorem hsplit (c : Dev nD) :
    Pipeline.arrBufs spec0 c (V m c) ⊢ (dats m 0 c).arrays ((dats m 0 c).arrAt · 0) := by
  rw [arrBufs_eq]
  unfold Dat.arrays
  rw [bigSep_W0]
  -- every window's array is a whole buffer; the four windows on one array name the same set
  have hs : ∀ w : Fin cfg0.W, (cfg0.win w).arr.view.set = Finset.univ := fun w => (arr_whole0 w).set_eq_univ
  rw [hs 0, hs 1, hs 5, hs 9]
  iintro ⟨H0, H1, H2, H3⟩
  ihave Q1 := (quarters (V m c main_arg1)) $$ H1
  icases Q1 with ⟨A1, A2, A3, A4⟩
  ihave Q2 := (quarters (V m c main_v0)) $$ H2
  icases Q2 with ⟨B1, B2, B3, B4⟩
  isplitl [H0]; · iexact H0
  isplitl [A1]; · iexact A1
  isplitl [A2]; · iexact A2
  isplitl [A3]; · iexact A3
  isplitl [A4]; · iexact A4
  isplitl [B1]; · iexact B1
  isplitl [B2]; · iexact B2
  isplitl [B3]; · iexact B3
  isplitl [B4]; · iexact B4
  iexact H3

/-- The physical post: every window's array at what the library computes after the last write-back, and the
    biases' array as it was. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg2) = V m c main_arg2

set_option backward.isDefEq.respectTransparency.types false in
/-- From any memory with zero counters every weakly fair execution of @main terminates, nothing faulting, in a state
    of that kind. -/
theorem run_main : θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := Pipeline.hmain_prefix cfgs (0 : Fin 1) defs₀ Variants.none m main hostOps0 hostOps0_sub
      (by simp only [List.Forall]; repeat' constructor) main_chain)
    (hsplit := hsplit m)
    (X := fun _ => iprop(emp)) (Y := fun _ => iprop(emp))
    (Z := fun c => (((c : Thread nD τ).loc main_arg2) ↦{fullShare} V m c main_arg2))
    (hX := fun c => by rw [unscopedRest0_eq]; iintro H; isplitr; · iempintro
                       iexact H)
    (hin := hin m) (hout := hout m)
    (QY := fun c s => s.mem ((c : Thread nD τ).loc main_arg2) = V m c main_arg2)
    (hY := fun c s' => by
      iintro ⟨-, H1, HSI⟩
      icombine HSI H1 gives %h
      imodintro
      isplitr; · ipureintro; exact Buf.eq_of_forall_mem_univ h
      iexact HSI)
    (hQ := fun _ h => h)

/-! ## The argument arrays after the run -/

/-- The host operation before the region writes only the reshaped biases: the three argument arrays are, at the
    region's entry, as the launch found them. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results

/-- THE RUN, read at the result and the arguments: the result array at what the library computes after the last
    write-back; the tokens and the weights are inputs of the pipeline, never written; the biases bypass the region. -/
theorem run_out : θ_run defs (onTc (τ := τ) (main (F := F))) ⟨m, fun _ => 0, ρ⟩ (fun r => ∀ c : Dev nD,
      r.2.mem ((c.tc : Thread nD τ).loc main_v1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 9,
      ((h c).1 0).trans (((dats m 0 c).arrAt_in 0 rfl _).trans ((A_eq m c 0).trans (V_arg0 m c))),
      ((h c).1 1).trans (((dats m 0 c).arrAt_in 1 rfl _).trans ((A_eq m c 1).trans (V_arg1 m c))),
      (h c).2.trans (V_arg2 m c)⟩) (run_main m ρ)

/-- THE FRAME: the run ends and the three argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m ρ)

end Cert.KernelIdeal.Hand

end
-- ==== Proof.KI.Pieces.lean ====
/-
  What each case of the body leaves, as a term of the blocks it read.

  Every store of the body covers its whole buffer, so the buffer's contents afterwards are the store's payload,
  and every load but two reads a whole staging buffer. The first point leaves the last fold of layers 0 … 3;
  a later folding point leaves four folds of what the accumulator held; an applying point leaves the tile of
  tokens times the accumulator's first 1024 rows plus its row 1024 — the two loads that read a part of the
  accumulator's buffer.
-/
import proofs.«135073_g15564961481514_cont_week2b_1535_21_alg».proof.Proof.KI.Outs
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator's first 1024 rows, as the applying points load them. -/
abbrev topRows (xs : Vec F S1032x1024 .f32) : Vec F S1024x1024 .f32 :=
  View.ld xs (Rect.unit (s := S1032x1024) ![0, 0] S1024x1024.size inb_S1032x1024_S1024x1024_0_0)
/-- The accumulator's row 1024, as the applying points load it. -/
abbrev biasRow (xs : Vec F S1032x1024 .f32) : Vec F S1x1024 .f32 :=
  View.ld xs (Rect.unit (s := S1032x1024) ![1024, 0] S1x1024.size inb_S1032x1024_S1x1024_1024_0)

/-- Row `k` of the loaded first 1024 rows is row `k` of the accumulator. -/
theorem topRows_apply (xs : Vec F S1032x1024 .f32) (k j : Fin 1024) (hk : k.val < 1032) :
    topRows xs (ix2 k j) = xs (ix2 (⟨k.val, hk⟩ : Fin 1032) j) := by
  show xs _ = xs _
  congr 1
  funext a
  apply Fin.ext
  match a with
  | ⟨0, _⟩ => show 0 + 1 * k.val = k.val; omega
  | ⟨1, _⟩ => show 0 + 1 * j.val = j.val; omega

/-- The loaded row is row 1024 of the accumulator. -/
theorem biasRow_apply (xs : Vec F S1032x1024 .f32) (j : Fin 1024) (h : 1024 < 1032) :
    biasRow xs (ix2 (0 : Fin 1) j) = xs (ix2 (⟨1024, h⟩ : Fin 1032) j) := by
  show xs _ = xs _
  congr 1
  funext a
  apply Fin.ext
  match a with
  | ⟨0, _⟩ => show 1024 + 1 * 0 = 1024; omega
  | ⟨1, _⟩ => show 0 + 1 * j.val = j.val; omega

/-- The first point leaves the fourth layer folded into the first three. -/
theorem soutA_eq (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : cond0 i) (hc1 : ¬cond1 i) (hc2 : ¬cond2 i) (x2 x3 x4 x5 : Vec F S1x1024x1024 .f32) (x6 x7 x8 x9 : Vec F S1x1x1024 .f32) :
    soutA c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 = k0_pay1 (k0_pay4 x2 x6 x3 x7 x4 x8) (k0_pay5 x5) x9 := by
  unfold soutA
  rw [View.read_writes_eq_canon _ _ _ (scoverA c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9)]
  unfold kernelRunA
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x1024x1024) hz3, View.ld_unit_zero (S := S1x1x1024) hz3]

/-- A later folding point leaves four layers folded into what the accumulator held. -/
theorem soutB_eq (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : cond1 i) (hc2 : ¬cond2 i) (x2 x3 x4 x5 : Vec F S1x1024x1024 .f32) (x6 x7 x8 x9 : Vec F S1x1x1024 .f32) (xs : Vec F S1032x1024 .f32) :
    soutB c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs = k0_pay2 (k0_pay6 xs x2 x6 x3 x7 x4 x8) x5 x9 := by
  unfold soutB
  rw [View.read_writes_eq_canon _ _ _ (scoverB c i arg1 harg1 arg2 harg2 arg3 harg3 arg4 harg4 arg5 harg5 arg6 harg6 arg7 harg7 arg8 harg8 arg9 harg9 arg10 harg10 arg11 harg11 hc0 hc1 hc2 x2 x3 x4 x5 x6 x7 x8 x9 xs)]
  unfold kernelRunB
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S1x1024x1024) hz3, View.ld_unit_zero (S := S1x1x1024) hz3, View.ld_unit_zero (S := S1032x1024) hz2]

/-- An applying point leaves the tile of tokens times the accumulator's first 1024 rows, plus its row 1024. -/
theorem outC_eq (c : Dev nD) (i : grid0.Coords) (arg1 : Memref sig .tc .vmem S512x1024 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1032x1024 .f32) (harg11 : arg11.IsWhole)
    (hc0 : ¬cond0 i) (hc1 : ¬cond1 i) (hc2 : cond2 i) (x1 : Vec F S512x1024 .f32) (xs : Vec F S1032x1024 .f32) :
    outC c i arg1 harg1 arg2 harg2 arg3 harg3 arg4 harg4 arg5 harg5 arg6 harg6 arg7 harg7 arg8 harg8 arg9 harg9 arg10 harg10 arg11 harg11 hc0 hc1 hc2 x1 xs = k0_pay3 x1 (topRows xs) (biasRow xs) := by
  unfold outC
  rw [View.read_writes_eq_canon _ _ _ (coverC c i arg1 harg1 arg2 harg2 arg3 harg3 arg4 harg4 arg5 harg5 arg6 harg6 arg7 harg7 arg8 harg8 arg9 harg9 arg10 harg10 arg11 harg11 hc0 hc1 hc2 x1 xs)]
  unfold kernelRunC
  dsimp only
  sl_unfold_words
  rw [View.canon_unit_zero hz2]
  simp only [View.readAt_eq_ld, harg1.read_unread, harg11.read_unread, View.ld_unit_zero (S := S512x1024) hz2]

end Cert.KernelIdeal.HandValue

end
-- ==== Proof.Chain.lean ====
/-
  Twenty affine layers, composed two ways, over the extended reals.

  The reference applies the layers to the tokens one after the other:
      h₀ = x,   h_{l+1}[i][j] = Σ_k h_l[i][k] · W_l[j][k] + b_l[j].
  The kernel first composes the layers into ONE affine map and then applies it once:
      Q₀[k][j] = W₀[j][k],            Q_{n+1}[k][j] = Σ_p Q_n[k][p] · W_{n+1}[j][p],
      C₀[j]    = b₀[j],               C_{n+1}[j]    = Σ_p C_n[p] · W_{n+1}[j][p] + b_{n+1}[j],
      y[i][j]  = Σ_k x[i][k] · Q₁₉[k][j] + C₁₉[j].
  It keeps Q and C in one accumulator of 1032 rows (`aug`): rows below 1024 are Q's rows, the eight rows from
  1024 on all hold C; one fold (`foldA`) multiplies every row by W_lᵀ and adds b_l to the rows from 1024 on.

  Over the reals the two agree by associativity of the matrix product and distributivity over the bias row.
  Over the extended reals distributivity fails at the infinities, so the statement takes every entry of x, W
  and b to be a real number.
-/
import Idealize.ShloMosaic.PureOps.Ideal.Laws

noncomputable section

namespace Cert.Chain

open scoped BigOperators

/-- One layer on a family of rows: `out[i][j] = Σ_k h[i][k] · w[j][k] + bb[j]`. -/
def layer {ι : Type} (w : Fin 1024 → Fin 1024 → EReal) (bb : Fin 1024 → EReal) (h : ι → Fin 1024 → EReal) :
    ι → Fin 1024 → EReal :=
  fun i j => (∑ k : Fin 1024, h i k * w j k) + bb j

/-- The same without the bias: every row times `wᵀ`. -/
def mulT {ι : Type} (w : Fin 1024 → Fin 1024 → EReal) (h : ι → Fin 1024 → EReal) : ι → Fin 1024 → EReal :=
  fun i j => ∑ k : Fin 1024, h i k * w j k

/-- The reference: `l` layers applied to the rows `x`, one after the other. -/
def chain {ι : Type} (W : ℕ → Fin 1024 → Fin 1024 → EReal) (b : ℕ → Fin 1024 → EReal) (x : ι → Fin 1024 → EReal) :
    ℕ → ι → Fin 1024 → EReal
  | 0 => x
  | l + 1 => layer (W l) (b l) (chain W b x l)

/-- The kernel's composed matrix after layers `0 … n`. -/
def accQ (W : ℕ → Fin 1024 → Fin 1024 → EReal) : ℕ → Fin 1024 → Fin 1024 → EReal
  | 0 => fun k j => W 0 j k
  | n + 1 => mulT (W (n + 1)) (accQ W n)

/-- The kernel's composed bias row after layers `0 … n`. -/
def accC (W : ℕ → Fin 1024 → Fin 1024 → EReal) (b : ℕ → Fin 1024 → EReal) : ℕ → Fin 1024 → EReal
  | 0 => b 0
  | n + 1 => fun j => (∑ p : Fin 1024, accC W b n p * W (n + 1) j p) + b (n + 1) j

/-- The composed map applied once. -/
def kernelOut {ι : Type} (W : ℕ → Fin 1024 → Fin 1024 → EReal) (b : ℕ → Fin 1024 → EReal) (x : ι → Fin 1024 → EReal) :
    ι → Fin 1024 → EReal :=
  fun i j => (∑ k : Fin 1024, x i k * accQ W 19 k j) + accC W b 19 j

/-- The kernel's accumulator of 1032 rows: `Q`'s rows, then eight copies of the row `C`. -/
def aug (Q : Fin 1024 → Fin 1024 → EReal) (C : Fin 1024 → EReal) : Fin 1032 → Fin 1024 → EReal :=
  fun r j => if h : r.val < 1024 then Q ⟨r.val, h⟩ j else C j

/-- One fold of the accumulator: every row times `wᵀ`, the bias added to the rows from 1024 on. -/
def foldA (w : Fin 1024 → Fin 1024 → EReal) (bb : Fin 1024 → EReal) (A : Fin 1032 → Fin 1024 → EReal) :
    Fin 1032 → Fin 1024 → EReal :=
  fun r j => if r.val < 1024 then ∑ p : Fin 1024, A r p * w j p else (∑ p : Fin 1024, A r p * w j p) + bb j

/-- The accumulator applied to a block of rows: its first 1024 rows as the matrix, its row 1024 as the bias. -/
def applyA {ι : Type} (xb : ι → Fin 1024 → EReal) (A : Fin 1032 → Fin 1024 → EReal) : ι → Fin 1024 → EReal :=
  fun i j => (∑ k : Fin 1024, xb i k * A ⟨k.val, by have := k.isLt; omega⟩ j) + A ⟨1024, by omega⟩ j

/-- The accumulator the kernel's scratch holds after its grid point `n` (`n = 0 … 4`: layers `0 … 4n+3`). -/
def scr (W : ℕ → Fin 1024 → Fin 1024 → EReal) (b : ℕ → Fin 1024 → EReal) (n : ℕ) : Fin 1032 → Fin 1024 → EReal :=
  aug (accQ W (4 * n + 3)) (accC W b (4 * n + 3))

/-- The accumulator at the start: `W₀ᵀ` over eight copies of `b₀`. -/
theorem aug_zero (W : ℕ → Fin 1024 → Fin 1024 → EReal) (b : ℕ → Fin 1024 → EReal) :
    aug (fun k j => W 0 j k) (b 0) = aug (accQ W 0) (accC W b 0) := rfl

/-- A fold of an accumulator in the two-part form is again of that form, one layer further. -/
theorem foldA_aug (W : ℕ → Fin 1024 → Fin 1024 → EReal) (b : ℕ → Fin 1024 → EReal) (n : ℕ) :
    foldA (W (n + 1)) (b (n + 1)) (aug (accQ W n) (accC W b n)) = aug (accQ W (n + 1)) (accC W b (n + 1)) := by
  funext r j
  by_cases h : r.val < 1024
  · -- a row of the matrix part: the fold is one more product with the next layer's matrix
    simp only [foldA, aug, h, ↓reduceIte, ↓reduceDIte]
    rfl
  · -- a copy of the bias row: the fold is the product plus the next layer's bias
    simp only [foldA, aug, h, ↓reduceIte, ↓reduceDIte]
    rfl

/-- The first grid point: the start and three folds. -/
theorem scr_zero (W : ℕ → Fin 1024 → Fin 1024 → EReal) (b : ℕ → Fin 1024 → EReal) :
    foldA (W 3) (b 3) (foldA (W 2) (b 2) (foldA (W 1) (b 1) (aug (fun k j => W 0 j k) (b 0)))) = scr W b 0 := by
  have h1 : foldA (W 1) (b 1) (aug (accQ W 0) (accC W b 0)) = aug (accQ W 1) (accC W b 1) := foldA_aug W b 0
  have h2 : foldA (W 2) (b 2) (aug (accQ W 1) (accC W b 1)) = aug (accQ W 2) (accC W b 2) := foldA_aug W b 1
  have h3 : foldA (W 3) (b 3) (aug (accQ W 2) (accC W b 2)) = aug (accQ W 3) (accC W b 3) := foldA_aug W b 2
  rw [aug_zero, h1, h2, h3]
  rfl

/-- A later grid point: four folds. -/
theorem scr_succ (W : ℕ → Fin 1024 → Fin 1024 → EReal) (b : ℕ → Fin 1024 → EReal) (n : ℕ) :
    foldA (W (4 * n + 7)) (b (4 * n + 7)) (foldA (W (4 * n + 6)) (b (4 * n + 6))
      (foldA (W (4 * n + 5)) (b (4 * n + 5)) (foldA (W (4 * n + 4)) (b (4 * n + 4)) (scr W b n)))) = scr W b (n + 1) := by
  have h4 : foldA (W (4 * n + 4)) (b (4 * n + 4)) (aug (accQ W (4 * n + 3)) (accC W b (4 * n + 3)))
      = aug (accQ W (4 * n + 4)) (accC W b (4 * n + 4)) := foldA_aug W b (4 * n + 3)
  have h5 : foldA (W (4 * n + 5)) (b (4 * n + 5)) (aug (accQ W (4 * n + 4)) (accC W b (4 * n + 4)))
      = aug (accQ W (4 * n + 5)) (accC W b (4 * n + 5)) := foldA_aug W b (4 * n + 4)
  have h6 : foldA (W (4 * n + 6)) (b (4 * n + 6)) (aug (accQ W (4 * n + 5)) (accC W b (4 * n + 5)))
      = aug (accQ W (4 * n + 6)) (accC W b (4 * n + 6)) := foldA_aug W b (4 * n + 5)
  have h7 : foldA (W (4 * n + 7)) (b (4 * n + 7)) (aug (accQ W (4 * n + 6)) (accC W b (4 * n + 6)))
      = aug (accQ W (4 * n + 7)) (accC W b (4 * n + 7)) := foldA_aug W b (4 * n + 6)
  have e : 4 * (n + 1) + 3 = 4 * n + 7 := by omega
  unfold scr
  rw [h4, h5, h6, h7, e]

/-- A row of the accumulator below 1024 is that row of the matrix part. -/
theorem aug_lo (Q : Fin 1024 → Fin 1024 → EReal) (C : Fin 1024 → EReal) (k : Fin 1024) (h : k.val < 1032)
    (j : Fin 1024) : aug Q C ⟨k.val, h⟩ j = Q k j := by
  show (if h' : k.val < 1024 then Q ⟨k.val, h'⟩ j else C j) = Q k j
  rw [dif_pos k.isLt]

/-- Row 1024 of the accumulator is the bias row. -/
theorem aug_hi (Q : Fin 1024 → Fin 1024 → EReal) (C : Fin 1024 → EReal) (h : 1024 < 1032) (j : Fin 1024) :
    aug Q C ⟨1024, h⟩ j = C j := by
  show (if h' : 1024 < 1024 then Q ⟨1024, h'⟩ j else C j) = C j
  rw [dif_neg (Nat.lt_irrefl 1024)]

/-- Applying the last accumulator to a block of rows is the composed map on those rows. -/
theorem applyA_scr {ι : Type} (W : ℕ → Fin 1024 → Fin 1024 → EReal) (b : ℕ → Fin 1024 → EReal) (xb : ι → Fin 1024 → EReal) :
    applyA xb (scr W b 4) = kernelOut W b xb := by
  funext i j
  show (∑ k : Fin 1024, xb i k * aug (accQ W 19) (accC W b 19) ⟨k.val, _⟩ j)
      + aug (accQ W 19) (accC W b 19) ⟨1024, _⟩ j
    = (∑ k : Fin 1024, xb i k * accQ W 19 k j) + accC W b 19 j
  simp only [aug_lo, aug_hi]

/-! ### The law over the reals, and its transfer to real-valued extended reals -/

/-- The coercion of a finite sum of reals is the sum of the coercions. -/
theorem coe_sum {α : Type} (s : Finset α) (f : α → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The reference over the reals. -/
def chainR {ι : Type} (W : ℕ → Fin 1024 → Fin 1024 → ℝ) (b : ℕ → Fin 1024 → ℝ) (x : ι → Fin 1024 → ℝ) :
    ℕ → ι → Fin 1024 → ℝ
  | 0 => x
  | l + 1 => fun i j => (∑ k : Fin 1024, chainR W b x l i k * W l j k) + b l j

/-- The composed matrix over the reals. -/
def accQR (W : ℕ → Fin 1024 → Fin 1024 → ℝ) : ℕ → Fin 1024 → Fin 1024 → ℝ
  | 0 => fun k j => W 0 j k
  | n + 1 => fun k j => ∑ p : Fin 1024, accQR W n k p * W (n + 1) j p

/-- The composed bias row over the reals. -/
def accCR (W : ℕ → Fin 1024 → Fin 1024 → ℝ) (b : ℕ → Fin 1024 → ℝ) : ℕ → Fin 1024 → ℝ
  | 0 => b 0
  | n + 1 => fun j => (∑ p : Fin 1024, accCR W b n p * W (n + 1) j p) + b (n + 1) j

/-- On real entries every intermediate of the reference is the coercion of its real version. -/
theorem chain_coe {ι : Type} (W : ℕ → Fin 1024 → Fin 1024 → ℝ) (b : ℕ → Fin 1024 → ℝ) (x : ι → Fin 1024 → ℝ)
    (l : ℕ) :
    chain (fun l j k => (W l j k : EReal)) (fun l j => (b l j : EReal)) (fun i k => (x i k : EReal)) l
      = fun i j => (chainR W b x l i j : EReal) := by
  induction l with
  | zero => rfl
  | succ l ih =>
    funext i j
    show (∑ k : Fin 1024, chain (fun l j k => (W l j k : EReal)) (fun l j => (b l j : EReal))
        (fun i k => (x i k : EReal)) l i k * (W l j k : EReal)) + (b l j : EReal)
      = (((∑ k : Fin 1024, chainR W b x l i k * W l j k) + b l j : ℝ) : EReal)
    rw [ih, EReal.coe_add, coe_sum]
    simp only [EReal.coe_mul]

/-- On real entries the composed matrix is the coercion of its real version. -/
theorem accQ_coe (W : ℕ → Fin 1024 → Fin 1024 → ℝ) (n : ℕ) :
    accQ (fun l j k => (W l j k : EReal)) n = fun k j => (accQR W n k j : EReal) := by
  induction n with
  | zero => rfl
  | succ n ih =>
    funext k j
    show (∑ p : Fin 1024, accQ (fun l j k => (W l j k : EReal)) n k p * (W (n + 1) j p : EReal))
      = ((∑ p : Fin 1024, accQR W n k p * W (n + 1) j p : ℝ) : EReal)
    rw [ih, coe_sum]
    simp only [EReal.coe_mul]

/-- On real entries the composed bias row is the coercion of its real version. -/
theorem accC_coe (W : ℕ → Fin 1024 → Fin 1024 → ℝ) (b : ℕ → Fin 1024 → ℝ) (n : ℕ) :
    accC (fun l j k => (W l j k : EReal)) (fun l j => (b l j : EReal)) n = fun j => (accCR W b n j : EReal) := by
  induction n with
  | zero => rfl
  | succ n ih =>
    funext j
    show (∑ p : Fin 1024, accC (fun l j k => (W l j k : EReal)) (fun l j => (b l j : EReal)) n p
        * (W (n + 1) j p : EReal)) + (b (n + 1) j : EReal)
      = (((∑ p : Fin 1024, accCR W b n p * W (n + 1) j p) + b (n + 1) j : ℝ) : EReal)
    rw [ih, EReal.coe_add, coe_sum]
    simp only [EReal.coe_mul]

/-- The law over the reals: after n + 1 layers the reference is the composed map of layers 0 … n.
The step is associativity of the product (an exchange of the two sums) and distributivity over the bias. -/
theorem chainR_eq {ι : Type} (W : ℕ → Fin 1024 → Fin 1024 → ℝ) (b : ℕ → Fin 1024 → ℝ) (x : ι → Fin 1024 → ℝ)
    (n : ℕ) (i : ι) :
    ∀ j, chainR W b x (n + 1) i j = (∑ k : Fin 1024, x i k * accQR W n k j) + accCR W b n j := by
  induction n with
  | zero => intro j; rfl
  | succ n ih =>
    intro j
    show (∑ k : Fin 1024, chainR W b x (n + 1) i k * W (n + 1) j k) + b (n + 1) j
      = (∑ k : Fin 1024, x i k * ∑ p : Fin 1024, accQR W n k p * W (n + 1) j p)
        + ((∑ p : Fin 1024, accCR W b n p * W (n + 1) j p) + b (n + 1) j)
    simp only [ih, add_mul, Finset.sum_add_distrib, Finset.sum_mul, Finset.mul_sum, mul_assoc]
    rw [Finset.sum_comm, add_assoc]

/-- THE LAW: on real entries the layers applied one after the other are the composed map applied once. -/
theorem chain_eq_kernelOut {ι : Type} (W : ℕ → Fin 1024 → Fin 1024 → EReal) (b : ℕ → Fin 1024 → EReal)
    (x : ι → Fin 1024 → EReal)
    (hW : ∀ l j k, ∃ r : ℝ, W l j k = (r : EReal)) (hb : ∀ l j, ∃ r : ℝ, b l j = (r : EReal))
    (hx : ∀ i k, ∃ r : ℝ, x i k = (r : EReal)) :
    chain W b x 20 = kernelOut W b x := by
  choose Wr hWr using hW
  choose br hbr using hb
  choose xr hxr using hx
  have eW : W = fun l j k => (Wr l j k : EReal) := by funext l j k; exact hWr l j k
  have eb : b = fun l j => (br l j : EReal) := by funext l j; exact hbr l j
  have ex : x = fun i k => (xr i k : EReal) := by funext i k; exact hxr i k
  subst eW eb ex
  funext i j
  unfold kernelOut
  rw [chain_coe, accQ_coe, accC_coe]
  show ((chainR Wr br xr (19 + 1) i j : ℝ) : EReal)
    = (∑ k : Fin 1024, (xr i k : EReal) * (accQR Wr 19 k j : EReal)) + (accCR Wr br 19 j : EReal)
  rw [chainR_eq Wr br xr 19 i j, EReal.coe_add, coe_sum]
  simp only [EReal.coe_mul]

end Cert.Chain

end
-- ==== Proof.KPay.lean ====
/-
  The kernel body's arithmetic, read at an index at the ideal instance.

  The body is built from one block, used eight times: the accumulator (1032 rows) times a weight matrix
  transposed, its rows from 1024 on taking the bias row — `Cert.Chain.foldA`. Changes of float format are the
  identity on the extended reals, the matrix unit on a zero accumulator is the plain sum over the contracted
  axis, and slicing, concatenating and broadcasting only move indices. The last block multiplies a tile of
  tokens by the accumulator's first 1024 rows and adds its row 1024.
-/
import proofs.«135073_g15564961481514_cont_week2b_1535_21_alg».proof.Proof.Gen.KernelIdeal.Skeleton
import proofs.«135073_g15564961481514_cont_week2b_1535_21_alg».proof.Proof.Chain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Chain
open scoped BigOperators

/-- A staged weight block `[1, 1024, 1024]` as the matrix `w[j][k]`. -/
def wmat (w : Vec Ideal S1x1024x1024 .f32) : Fin 1024 → Fin 1024 → EReal := fun j k => w (ix3 0 j k)
/-- A staged bias block `[1, 1, 1024]` as the row `b[j]`. -/
def brow (bb : Vec Ideal S1x1x1024 .f32) : Fin 1024 → EReal := fun j => bb (ix3 0 0 j)
/-- The accumulator `[1032, 1024]` as rows. -/
def amat (A : Vec Ideal S1032x1024 .f32) : Fin 1032 → Fin 1024 → EReal := fun r j => A (ix2 r j)

/-! ## The matrix unit's operand indices, axis by axis

The folds contract the left operand's axis 1 with the right operand's axis 1; the output tile contracts the left
operand's axis 1 with the right operand's axis 0. -/

theorem lhsF_0 (i : S1032x1024.Idx) (q : dot_S1032x1024_S1024x1024_S1032x1024_1_1_0_0_n_n.contr.Idx) :
    (dot_S1032x1024_S1024x1024_S1032x1024_1_1_0_0_n_n.lhsIdx i q 0).val = (i 0).val := by
  unfold DotDims.lhsIdx
  rw [dif_neg (show ¬(0 : Fin S1032x1024.rank) ∈ dot_S1032x1024_S1024x1024_S1032x1024_1_1_0_0_n_n.lhsBatch by decide), dif_pos (show (0 : Fin S1032x1024.rank) ∈ dot_S1032x1024_S1024x1024_S1032x1024_1_1_0_0_n_n.lhsNonContracting by decide)]
  rfl
theorem lhsF_1 (i : S1032x1024.Idx) (q : dot_S1032x1024_S1024x1024_S1032x1024_1_1_0_0_n_n.contr.Idx) :
    (dot_S1032x1024_S1024x1024_S1032x1024_1_1_0_0_n_n.lhsIdx i q 1).val = (q ⟨0, by decide⟩).val :=
  dot_S1032x1024_S1024x1024_S1032x1024_1_1_0_0_n_n.lhsIdx_val_of_single rfl i q
theorem rhsF_0 (i : S1032x1024.Idx) (q : dot_S1032x1024_S1024x1024_S1032x1024_1_1_0_0_n_n.contr.Idx) :
    (dot_S1032x1024_S1024x1024_S1032x1024_1_1_0_0_n_n.rhsIdx i q 0).val = (i 1).val := by
  unfold DotDims.rhsIdx
  rw [dif_neg (show ¬(0 : Fin S1024x1024.rank) ∈ dot_S1032x1024_S1024x1024_S1032x1024_1_1_0_0_n_n.rhsBatch by decide), dif_pos (show (0 : Fin S1024x1024.rank) ∈ dot_S1032x1024_S1024x1024_S1032x1024_1_1_0_0_n_n.rhsNonContracting by decide)]
  rfl
theorem rhsF_1 (i : S1032x1024.Idx) (q : dot_S1032x1024_S1024x1024_S1032x1024_1_1_0_0_n_n.contr.Idx) :
    (dot_S1032x1024_S1024x1024_S1032x1024_1_1_0_0_n_n.rhsIdx i q 1).val = (q ⟨0, by decide⟩).val :=
  dot_S1032x1024_S1024x1024_S1032x1024_1_1_0_0_n_n.rhsIdx_val_of_single rfl i q

theorem lhsO_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsO_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsO_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsO_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The folds' product on a zero accumulator, read at `(r, j)`: row `r` of the left operand against row `j` of the
    right one. The changes of format are the identity. -/
theorem matmulF_apply (A : FVec Ideal S1032x1024 .f32) (w : FVec Ideal S1024x1024 .f32) (r : Fin 1032) (j : Fin 1024) :
    matmul dot_S1032x1024_S1024x1024_S1032x1024_1_1_0_0_n_n none (truncf .bf16 A bitsLt_bf16_f32) (truncf .bf16 w bitsLt_bf16_f32)
        (constant (F := Ideal) S1032x1024 .f32 0x00000000#32) (ix2 r j)
      = ∑ p : Fin 1024, A (ix2 r p) * w (ix2 j p) := by
  refine (Ideal.matmul_constant_zero_apply dot_S1032x1024_S1024x1024_S1032x1024_1_1_0_0_n_n none _ _ (ix2 r j)).trans ?_
  rw [← Equiv.sum_comp (contrEquiv1 dot_S1032x1024_S1024x1024_S1032x1024_1_1_0_0_n_n 1024 rfl rfl).symm]
  refine Finset.sum_congr rfl fun k _ => ?_
  have hk := contrEquiv1_symm_val dot_S1032x1024_S1024x1024_S1032x1024_1_1_0_0_n_n 1024 rfl rfl k
  have el : dot_S1032x1024_S1024x1024_S1032x1024_1_1_0_0_n_n.lhsIdx (ix2 r j) ((contrEquiv1 dot_S1032x1024_S1024x1024_S1032x1024_1_1_0_0_n_n 1024 rfl rfl).symm k) = ix2 r k := funext fun a => Fin.ext (by
    match a with
    | ⟨0, _⟩ => exact lhsF_0 _ _
    | ⟨1, _⟩ => exact (lhsF_1 _ _).trans hk)
  have er : dot_S1032x1024_S1024x1024_S1032x1024_1_1_0_0_n_n.rhsIdx (ix2 r j) ((contrEquiv1 dot_S1032x1024_S1024x1024_S1032x1024_1_1_0_0_n_n 1024 rfl rfl).symm k) = ix2 j k := funext fun a => Fin.ext (by
    match a with
    | ⟨0, _⟩ => exact rhsF_0 _ _
    | ⟨1, _⟩ => exact (rhsF_1 _ _).trans hk)
  rw [el, er]
  rfl

/-- The output tile's product on a zero accumulator, read at `(i, j)`: row `i` of the left operand against column `j`
    of the right one. -/
theorem matmulO_apply (x : FVec Ideal S512x1024 .f32) (Q : FVec Ideal S1024x1024 .f32) (i : Fin 512) (j : Fin 1024) :
    matmul dot_S512x1024_S1024x1024_S512x1024_1_0_0_1_n_n none (truncf .bf16 x bitsLt_bf16_f32) (truncf .bf16 Q bitsLt_bf16_f32)
        (constant (F := Ideal) S512x1024 .f32 0x00000000#32) (ix2 i j)
      = ∑ k : Fin 1024, x (ix2 i k) * Q (ix2 k j) := by
  refine (Ideal.matmul_constant_zero_apply dot_S512x1024_S1024x1024_S512x1024_1_0_0_1_n_n none _ _ (ix2 i j)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 i j) ((contrEquiv1 dot_S512x1024_S1024x1024_S512x1024_1_0_0_1_n_n 1024 rfl rfl).symm k) = ix2 i k := funext fun a => Fin.ext (by
    match a with
    | ⟨0, _⟩ => exact lhsO_0 _ _
    | ⟨1, _⟩ => exact (lhsO_1 _ _).trans hk)
  have er : dot_S512x1024_S1024x1024_S512x1024_1_0_0_1_n_n.rhsIdx (ix2 i j) ((contrEquiv1 dot_S512x1024_S1024x1024_S512x1024_1_0_0_1_n_n 1024 rfl rfl).symm k) = ix2 k j := funext fun a => Fin.ext (by
    match a with
    | ⟨0, _⟩ => exact (rhsO_0 _ _).trans hk
    | ⟨1, _⟩ => exact rhsO_1 _ _)
  rw [el, er]
  rfl

/-! ## The repeated block

One fold as the body writes it: the product, its first 1024 rows kept, its last eight rows with the bias row added,
the two put back one over the other. -/

/-- One fold of the accumulator as the body writes it. -/
def block (A : FVec Ideal S1032x1024 .f32) (w : FVec Ideal S1024x1024 .f32) (bb : FVec Ideal S1x1024 .f32) :
    FVec Ideal S1032x1024 .f32 :=
  concatenate S1032x1024 0
    [⟨S1024x1024, extractStridedSlice S1024x1024 ![0, 0]
        (matmul dot_S1032x1024_S1024x1024_S1032x1024_1_1_0_0_n_n none (truncf .bf16 A bitsLt_bf16_f32) (truncf .bf16 w bitsLt_bf16_f32)
          (constant (F := Ideal) S1032x1024 .f32 0x00000000#32))
        slices_S1032x1024_o0_0_S1024x1024⟩,
     ⟨S8x1024, addf (extractStridedSlice S8x1024 ![1024, 0]
        (matmul dot_S1032x1024_S1024x1024_S1032x1024_1_1_0_0_n_n none (truncf .bf16 A bitsLt_bf16_f32) (truncf .bf16 w bitsLt_bf16_f32)
          (constant (F := Ideal) S1032x1024 .f32 0x00000000#32))
        slices_S1032x1024_o1024_0_S8x1024) (broadcastTo S8x1024 bb broadcasts_S1x1024_S8x1024)⟩]
    concatenates_S1024x1024_S8x1024_S1032x1024_d0

/-- The block at `(r, j)`: below row 1024 the product alone, from row 1024 on the product plus the bias. -/
theorem block_apply (A : FVec Ideal S1032x1024 .f32) (w : FVec Ideal S1024x1024 .f32) (bb : FVec Ideal S1x1024 .f32)
    (r : Fin 1032) (j : Fin 1024) :
    block A w bb (ix2 r j) = foldA (fun j k => w (ix2 j k)) (fun j => bb (ix2 (0 : Fin 1) j)) (amat A) r j := by
  unfold block foldA
  by_cases h : r.val < 1024
  · rw [if_pos h]
    refine (concatenate_pair_apply_left (0 : Fin S1032x1024.rank) _ _ concatenates_S1024x1024_S8x1024_S1032x1024_d0 (ix2 r j) rfl
      (ix2 (⟨r.val, h⟩ : Fin 1024) j) (fun b => by match b with | ⟨0, _⟩ => rfl | ⟨1, _⟩ => rfl)).trans ?_
    refine (slice2_axis0_apply 0 _ slices_S1032x1024_o0_0_S1024x1024 (⟨r.val, h⟩ : Fin 1024) j r (Nat.zero_add _).symm).trans ?_
    exact matmulF_apply A w r j
  · rw [if_neg h]
    have h8 : r.val - 1024 < 8 := by have := r.isLt; omega
    refine (concatenate_pair_apply_right (0 : Fin S1032x1024.rank) _ _ concatenates_S1024x1024_S8x1024_S1032x1024_d0 (ix2 r j) rfl rfl
      (ix2 (⟨r.val - 1024, h8⟩ : Fin 8) j)
      (fun b hb => by match b, hb with | ⟨0, _⟩, hb => exact absurd rfl hb | ⟨1, _⟩, _ => rfl)
      (by show r.val - 1024 + 1024 = r.val; omega)).trans ?_
    refine (addf_apply _ _ _).trans ?_
    exact congrArg₂ (· + ·)
      ((slice2_axis0_apply 1024 _ slices_S1032x1024_o1024_0_S8x1024 (⟨r.val - 1024, h8⟩ : Fin 8) j r
        (by show r.val = 1024 + (r.val - 1024); omega)).trans (matmulF_apply A w r j))
      (broadcastTo_1b_ab_apply bb broadcasts_S1x1024_S8x1024 (⟨r.val - 1024, h8⟩ : Fin 8) j)

/-- The block as rows. -/
theorem block_amat (A : FVec Ideal S1032x1024 .f32) (w : FVec Ideal S1024x1024 .f32) (bb : FVec Ideal S1x1024 .f32) :
    amat (block A w bb) = foldA (fun j k => w (ix2 j k)) (fun j => bb (ix2 (0 : Fin 1) j)) (amat A) :=
  funext fun r => funext fun j => block_apply A w bb r j

/-- A staged weight block with its unit axis dropped is the matrix. -/
theorem wcast_apply (w : Vec Ideal S1x1024x1024 .f32) (j k : Fin 1024) :
    shapeCast S1024x1024 w shapeCasts_S1x1024x1024_S1024x1024 (ix2 j k) = wmat w j k :=
  shapeCast_1ab_ab_apply w shapeCasts_S1x1024x1024_S1024x1024 j k

/-- A staged bias block with its unit axis dropped is the row. -/
theorem bcast_apply (bb : Vec Ideal S1x1x1024 .f32) (j : Fin 1024) :
    shapeCast S1x1024 bb shapeCasts_S1x1x1024_S1x1024 (ix2 (0 : Fin 1) j) = brow bb j :=
  shapeCast_1ab_ab_apply bb shapeCasts_S1x1x1024_S1x1024 (0 : Fin 1) j

/-- One fold from a staged weight block and a staged bias block. -/
def foldV (A : FVec Ideal S1032x1024 .f32) (w : Vec Ideal S1x1024x1024 .f32) (bb : Vec Ideal S1x1x1024 .f32) :
    FVec Ideal S1032x1024 .f32 :=
  block A (shapeCast S1024x1024 w shapeCasts_S1x1024x1024_S1024x1024) (shapeCast S1x1024 bb shapeCasts_S1x1x1024_S1x1024)

theorem foldV_amat (A : FVec Ideal S1032x1024 .f32) (w : Vec Ideal S1x1024x1024 .f32) (bb : Vec Ideal S1x1x1024 .f32) :
    amat (foldV A w bb) = foldA (wmat w) (brow bb) (amat A) := by
  unfold foldV
  rw [block_amat]
  have hw : (fun j k : Fin 1024 => shapeCast S1024x1024 w shapeCasts_S1x1024x1024_S1024x1024 (ix2 j k)) = wmat w :=
    funext fun j => funext fun k => wcast_apply w j k
  have hb : (fun j : Fin 1024 => shapeCast S1x1024 bb shapeCasts_S1x1x1024_S1x1024 (ix2 (0 : Fin 1) j)) = brow bb :=
    funext fun j => bcast_apply bb j
  rw [hw, hb]

/-! ## The accumulator at the start: the first weight transposed over eight copies of the first bias -/

def start (w0 : Vec Ideal S1x1024x1024 .f32) (b0 : Vec Ideal S1x1x1024 .f32) : FVec Ideal S1032x1024 .f32 :=
  concatenate S1032x1024 0
    [⟨S1024x1024, transpose S1024x1024 [1, 0] (shapeCast S1024x1024 w0 shapeCasts_S1x1024x1024_S1024x1024)
        transposes_S1024x1024_p1_0_S1024x1024⟩,
     ⟨S8x1024, broadcastTo S8x1024
        (shapeCast S1x1024 (shapeCast S1x1024 b0 shapeCasts_S1x1x1024_S1x1024) shapeCasts_S1x1024_S1x1024)
        broadcasts_S1x1024_S8x1024⟩]
    concatenates_S1024x1024_S8x1024_S1032x1024_d0

theorem start_apply (w0 : Vec Ideal S1x1024x1024 .f32) (b0 : Vec Ideal S1x1x1024 .f32) (r : Fin 1032) (j : Fin 1024) :
    start w0 b0 (ix2 r j) = aug (fun k j => wmat w0 j k) (brow b0) r j := by
  unfold start aug
  by_cases h : r.val < 1024
  · rw [dif_pos h]
    refine (concatenate_pair_apply_left (0 : Fin S1032x1024.rank) _ _ concatenates_S1024x1024_S8x1024_S1032x1024_d0 (ix2 r j) rfl
      (ix2 (⟨r.val, h⟩ : Fin 1024) j) (fun b => by match b with | ⟨0, _⟩ => rfl | ⟨1, _⟩ => rfl)).trans ?_
    refine (transpose_ix2_apply _ transposes_S1024x1024_p1_0_S1024x1024 (⟨r.val, h⟩ : Fin 1024) j).trans ?_
    exact wcast_apply w0 j ⟨r.val, h⟩
  · rw [dif_neg h]
    have h8 : r.val - 1024 < 8 := by have := r.isLt; omega
    refine (concatenate_pair_apply_right (0 : Fin S1032x1024.rank) _ _ concatenates_S1024x1024_S8x1024_S1032x1024_d0 (ix2 r j) rfl rfl
      (ix2 (⟨r.val - 1024, h8⟩ : Fin 8) j)
      (fun b hb => by match b, hb with | ⟨0, _⟩, hb => exact absurd rfl hb | ⟨1, _⟩, _ => rfl)
      (by show r.val - 1024 + 1024 = r.val; omega)).trans ?_
    refine (broadcastTo_1b_ab_apply _ broadcasts_S1x1024_S8x1024 (⟨r.val - 1024, h8⟩ : Fin 8) j).trans ?_
    rw [shapeCast_self]
    exact bcast_apply b0 j

theorem start_amat (w0 : Vec Ideal S1x1024x1024 .f32) (b0 : Vec Ideal S1x1x1024 .f32) :
    amat (start w0 b0) = aug (fun k j => wmat w0 j k) (brow b0) :=
  funext fun r => funext fun j => start_apply w0 b0 r j

/-! ## The six payloads -/

/-- The first grid point's first three layers: the transposed first weight over the broadcast first bias, folded twice. -/
theorem pay4_apply (w0 : Vec Ideal S1x1024x1024 .f32) (b0 : Vec Ideal S1x1x1024 .f32) (w1 : Vec Ideal S1x1024x1024 .f32)
    (b1 : Vec Ideal S1x1x1024 .f32) (w2 : Vec Ideal S1x1024x1024 .f32) (b2 : Vec Ideal S1x1x1024 .f32) (r : Fin 1032) (j : Fin 1024) :
    k0_pay4 (F := Ideal) w0 b0 w1 b1 w2 b2 (ix2 r j)
      = foldA (wmat w2) (brow b2) (foldA (wmat w1) (brow b1) (aug (fun k j => wmat w0 j k) (brow b0))) r j := by
  have h : k0_pay4 (F := Ideal) w0 b0 w1 b1 w2 b2 = foldV (foldV (start w0 b0) w1 b1) w2 b2 := rfl
  show amat (k0_pay4 (F := Ideal) w0 b0 w1 b1 w2 b2) r j = _
  rw [h, foldV_amat, foldV_amat, start_amat]

/-- A weight block with its unit axis dropped. -/
theorem pay5_apply (w3 : Vec Ideal S1x1024x1024 .f32) (j k : Fin 1024) : k0_pay5 (F := Ideal) w3 (ix2 j k) = wmat w3 j k :=
  wcast_apply w3 j k

/-- The first grid point's last fold. -/
theorem pay1_apply (A : FVec Ideal S1032x1024 .f32) (w3 : FVec Ideal S1024x1024 .f32) (b3 : Vec Ideal S1x1x1024 .f32)
    (r : Fin 1032) (j : Fin 1024) :
    k0_pay1 (F := Ideal) A w3 b3 (ix2 r j) = foldA (fun j k => w3 (ix2 j k)) (brow b3) (amat A) r j := by
  have h : k0_pay1 (F := Ideal) A w3 b3
      = shapeCast S1032x1024 (block A w3 (shapeCast S1x1024 b3 shapeCasts_S1x1x1024_S1x1024)) shapeCasts_S1032x1024_S1032x1024 := rfl
  rw [h, shapeCast_self, block_apply]
  have hb : (fun j : Fin 1024 => shapeCast S1x1024 b3 shapeCasts_S1x1x1024_S1x1024 (ix2 (0 : Fin 1) j)) = brow b3 :=
    funext fun j => bcast_apply b3 j
  rw [hb]

/-- A later grid point's first three folds. -/
theorem pay6_apply (A : Vec Ideal S1032x1024 .f32) (w0 : Vec Ideal S1x1024x1024 .f32) (b0 : Vec Ideal S1x1x1024 .f32)
    (w1 : Vec Ideal S1x1024x1024 .f32) (b1 : Vec Ideal S1x1x1024 .f32) (w2 : Vec Ideal S1x1024x1024 .f32) (b2 : Vec Ideal S1x1x1024 .f32)
    (r : Fin 1032) (j : Fin 1024) :
    k0_pay6 (F := Ideal) A w0 b0 w1 b1 w2 b2 (ix2 r j)
      = foldA (wmat w2) (brow b2) (foldA (wmat w1) (brow b1) (foldA (wmat w0) (brow b0) (amat A))) r j := by
  have h : k0_pay6 (F := Ideal) A w0 b0 w1 b1 w2 b2 = foldV (foldV (foldV A w0 b0) w1 b1) w2 b2 := rfl
  show amat (k0_pay6 (F := Ideal) A w0 b0 w1 b1 w2 b2) r j = _
  rw [h, foldV_amat, foldV_amat, foldV_amat]

/-- A later grid point's last fold. -/
theorem pay2_apply (A : FVec Ideal S1032x1024 .f32) (w3 : Vec Ideal S1x1024x1024 .f32) (b3 : Vec Ideal S1x1x1024 .f32)
    (r : Fin 1032) (j : Fin 1024) :
    k0_pay2 (F := Ideal) A w3 b3 (ix2 r j) = foldA (wmat w3) (brow b3) (amat A) r j := by
  have h : k0_pay2 (F := Ideal) A w3 b3 = shapeCast S1032x1024 (foldV A w3 b3) shapeCasts_S1032x1024_S1032x1024 := rfl
  show amat (k0_pay2 (F := Ideal) A w3 b3) r j = _
  rw [h, shapeCast_self, foldV_amat]

/-- The output tile: the tokens' tile times the composed matrix, plus the composed bias row. -/
theorem pay3_apply (xb : Vec Ideal S512x1024 .f32) (Qv : Vec Ideal S1024x1024 .f32) (cv : Vec Ideal S1x1024 .f32)
    (i : Fin 512) (j : Fin 1024) :
    k0_pay3 (F := Ideal) xb Qv cv (ix2 i j) = (∑ k : Fin 1024, xb (ix2 i k) * Qv (ix2 k j)) + cv (ix2 0 j) := by
  unfold k0_pay3
  refine (addf_apply _ _ _).trans ?_
  exact congrArg₂ (· + ·) (matmulO_apply xb Qv i j) (broadcastTo_1b_ab_apply cv broadcasts_S1x1024_S512x1024 i j)

end Cert.KernelIdeal.Pay

end
-- ==== Proof.Arr.lean ====
/-
  The three argument arrays as the functions the layer recurrences are stated over: the weights `[20, 1024, 1024]`
  as `W_l[j][k]`, the biases `[20, 1024]` as `b_l[j]` (both indexed by a natural number `l`, zero past the last
  layer, so that the recurrences need no bound proofs) and the tokens `[4096, 1024]` as rows.
-/
import proofs.«135073_g15564961481514_cont_week2b_1535_21_alg».proof.Proof.Chain
import Idealize.ShloMosaic.Lib.ValueIdx

noncomputable section

namespace Cert.Arr

open Idealize.ShloMosaic Idealize.ShloMosaic.ValueIdx

/-- The weights as `W_l[j][k]`. -/
def Wf (W : FVec Ideal ⟨3, ![20, 1024, 1024]⟩ .f32) : ℕ → Fin 1024 → Fin 1024 → EReal :=
  fun l j k => if h : l < 20 then W (ix3 ⟨l, h⟩ j k) else 0
/-- The biases as `b_l[j]`. -/
def bf (b : FVec Ideal ⟨2, ![20, 1024]⟩ .f32) : ℕ → Fin 1024 → EReal :=
  fun l j => if h : l < 20 then b (ix2 ⟨l, h⟩ j) else 0
/-- The tokens as rows. -/
def xf (x : FVec Ideal ⟨2, ![4096, 1024]⟩ .f32) : Fin 4096 → Fin 1024 → EReal := fun i k => x (ix2 i k)

/-- The composed map's value as an array `[4096, 1024]`: what both programs are shown to end with. -/
def outArr (x : FVec Ideal ⟨2, ![4096, 1024]⟩ .f32) (W : FVec Ideal ⟨3, ![20, 1024, 1024]⟩ .f32) (b : FVec Ideal ⟨2, ![20, 1024]⟩ .f32) :
    FVec Ideal ⟨2, ![4096, 1024]⟩ .f32 :=
  fun idx => Cert.Chain.kernelOut (Wf W) (bf b) (xf x) (idx 0) (idx 1)

/-- The layers applied one after the other, as an array `[4096, 1024]`. -/
def chainArr (x : FVec Ideal ⟨2, ![4096, 1024]⟩ .f32) (W : FVec Ideal ⟨3, ![20, 1024, 1024]⟩ .f32) (b : FVec Ideal ⟨2, ![20, 1024]⟩ .f32) :
    FVec Ideal ⟨2, ![4096, 1024]⟩ .f32 :=
  fun idx => Cert.Chain.chain (Wf W) (bf b) (xf x) 20 (idx 0) (idx 1)

/-- On real entries the two arrays are one. -/
theorem chainArr_eq_outArr (x : FVec Ideal ⟨2, ![4096, 1024]⟩ .f32) (W : FVec Ideal ⟨3, ![20, 1024, 1024]⟩ .f32) (b : FVec Ideal ⟨2, ![20, 1024]⟩ .f32)
    (hx : ∀ i, ∃ r : ℝ, x i = (r : EReal)) (hW : ∀ i, ∃ r : ℝ, W i = (r : EReal)) (hb : ∀ i, ∃ r : ℝ, b i = (r : EReal)) :
    chainArr x W b = outArr x W b := by
  funext idx
  unfold chainArr outArr
  rw [Cert.Chain.chain_eq_kernelOut (Wf W) (bf b) (xf x)
    (fun l j k => by
      unfold Wf; split
      · exact hW _
      · exact ⟨0, EReal.coe_zero.symm⟩)
    (fun l j => by
      unfold bf; split
      · exact hb _
      · exact ⟨0, EReal.coe_zero.symm⟩)
    (fun i k => hx _)]

end Cert.Arr

end
-- ==== Proof.KI.Blocks.lean ====
/-
  The windows' blocks read at an index.

  The tokens and the weights reach the region as the launch found them; the biases reach it reshaped to
  [20, 1, 1024], which moves no entry. A block's entry sits in its array, on each axis, at the block index times
  the block's size plus the coordinate inside the block. The four weight windows and the four bias windows read,
  at point `t`, layers `4 · min t 4` … `4 · min t 4 + 3`; the tokens' window reads, from point 5 on, the tile
  of 512 rows from row `512 (t - 5)`.
-/
import proofs.«135073_g15564961481514_cont_week2b_1535_21_alg».proof.Proof.KI.Base
import proofs.«135073_g15564961481514_cont_week2b_1535_21_alg».proof.Proof.KPay
import proofs.«135073_g15564961481514_cont_week2b_1535_21_alg».proof.Proof.Arr
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Pay Cert.Chain Cert.Arr

variable (m : (ℓ : Loc nD τ sig) → Buf (Elt Ideal) ℓ)

/-! ## The three argument arrays and the blocks, by name -/

/-- The tokens as the launch found them. -/
abbrev tokens (c : Dev nD) : FVec Ideal ⟨2, ![4096, 1024]⟩ .f32 := m ((c : Thread nD τ).loc main_arg0)
/-- The weights as the launch found them. -/
abbrev weights (c : Dev nD) : FVec Ideal ⟨3, ![20, 1024, 1024]⟩ .f32 := m ((c : Thread nD τ).loc main_arg1)
/-- The biases as the launch found them. -/
abbrev biases (c : Dev nD) : FVec Ideal ⟨2, ![20, 1024]⟩ .f32 := m ((c : Thread nD τ).loc main_arg2)

/-- The tokens' tile at point `t`. -/
abbrev xblk (c : Dev nD) (t : Fin cfg0.N) : Vec Ideal S512x1024 .f32 := iblk m c 0 t
/-- The four weight blocks at point `t`. -/
abbrev wblk1 (c : Dev nD) (t : Fin cfg0.N) : Vec Ideal S1x1024x1024 .f32 := iblk m c 1 t
abbrev wblk2 (c : Dev nD) (t : Fin cfg0.N) : Vec Ideal S1x1024x1024 .f32 := iblk m c 2 t
abbrev wblk3 (c : Dev nD) (t : Fin cfg0.N) : Vec Ideal S1x1024x1024 .f32 := iblk m c 3 t
abbrev wblk4 (c : Dev nD) (t : Fin cfg0.N) : Vec Ideal S1x1024x1024 .f32 := iblk m c 4 t
/-- The four bias blocks at point `t`. -/
abbrev bblk5 (c : Dev nD) (t : Fin cfg0.N) : Vec Ideal S1x1x1024 .f32 := iblk m c 5 t
abbrev bblk6 (c : Dev nD) (t : Fin cfg0.N) : Vec Ideal S1x1x1024 .f32 := iblk m c 6 t
abbrev bblk7 (c : Dev nD) (t : Fin cfg0.N) : Vec Ideal S1x1x1024 .f32 := iblk m c 7 t
abbrev bblk8 (c : Dev nD) (t : Fin cfg0.N) : Vec Ideal S1x1x1024 .f32 := iblk m c 8 t

/-! ## The arrays when the region is entered -/

/-- The reshape before the region writes neither the tokens -/
theorem V_tokens (c : Dev nD) : (V m c main_arg0 : S4096x1024.Idx → EReal) = tokens m c := by
  dsimp only [V, V0, hostOps0]; after_results

/-- nor the weights; -/
theorem V_weights (c : Dev nD) : (V m c main_arg1 : S20x1024x1024.Idx → EReal) = weights m c := by
  dsimp only [V, V0, hostOps0]; after_results

/-- what it writes is the biases with a unit axis put in. -/
theorem V_biases (c : Dev nD) :
    (V m c main_v0 : S20x1x1024.Idx → EReal) = shapeCast S20x1x1024 (biases m c) shapeCasts_S20x1024_S20x1x1024 := by
  dsimp only [V, V0, hostOps0]; after_results; rfl

/-- The reshaped biases at `(l, 0, j)` are the biases at `(l, j)`: the same row-major position. -/
theorem reshaped_apply (b : FVec Ideal ⟨2, ![20, 1024]⟩ .f32) (l : Fin 20) (j : Fin 1024) :
    shapeCast S20x1x1024 b shapeCasts_S20x1024_S20x1x1024 (ix3 l (0 : Fin 1) j) = b (ix2 l j) := by
  refine shapeCast_apply b shapeCasts_S20x1024_S20x1x1024 (ix3 l (0 : Fin 1) j) (ix2 l j) ?_
  rw [Shape.rowMajor_val_two, Shape.rowMajor_val_three]
  show l.val * 1024 + j.val = (l.val * 1 + 0) * 1024 + j.val
  omega

/-! ## The weight blocks -/

/-- Weight window 1 at point `t` holds layer `4 · min t 4 + 0`. -/
theorem index_w1 : ∀ t : Fin cfg0.N, win0_1.index t (0 : Fin 3) = 4 * min t.val 4 + 0 ∧ win0_1.index t (1 : Fin 3) = 0 ∧ win0_1.index t (2 : Fin 3) = 0 :=
  (by decide +kernel : ∀ t : Fin grid0.N, win0_1.index t (0 : Fin 3) = 4 * min t.val 4 + 0 ∧ win0_1.index t (1 : Fin 3) = 0 ∧ win0_1.index t (2 : Fin 3) = 0)

theorem wblk1_apply (c : Dev nD) (t : Fin cfg0.N) (j k : Fin 1024) (l : Fin 20) (hl : l.val = 4 * min t.val 4 + 0) :
    wblk1 m c t (ix3 (0 : Fin 1) j k) = weights m c (ix3 l j k) := by
  show (V m c main_arg1 : S20x1024x1024.Idx → EReal) _ = _
  rw [V_weights m c]
  refine congrArg _ (funext fun a => Fin.ext ?_)
  match a with
  | ⟨0, _⟩ => show win0_1.index t 0 * 1 + 1 * 0 = l.val; rw [(index_w1 t).1, hl]; omega
  | ⟨1, _⟩ => show win0_1.index t 1 * 1024 + 1 * j.val = j.val; rw [(index_w1 t).2.1]; omega
  | ⟨2, _⟩ => show win0_1.index t 2 * 1024 + 1 * k.val = k.val; rw [(index_w1 t).2.2]; omega

theorem wblk1_mat (c : Dev nD) (t : Fin cfg0.N) : wmat (wblk1 m c t) = Wf (weights m c) (4 * min t.val 4 + 0) := by
  funext j k
  have h : 4 * min t.val 4 + 0 < 20 := by omega
  show wblk1 m c t (ix3 (0 : Fin 1) j k) = Wf (weights m c) (4 * min t.val 4 + 0) j k
  unfold Wf
  rw [dif_pos h]
  exact wblk1_apply m c t j k ⟨_, h⟩ rfl

/-- Weight window 2 at point `t` holds layer `4 · min t 4 + 1`. -/
theorem index_w2 : ∀ t : Fin cfg0.N, win0_2.index t (0 : Fin 3) = 4 * min t.val 4 + 1 ∧ win0_2.index t (1 : Fin 3) = 0 ∧ win0_2.index t (2 : Fin 3) = 0 :=
  (by decide +kernel : ∀ t : Fin grid0.N, win0_2.index t (0 : Fin 3) = 4 * min t.val 4 + 1 ∧ win0_2.index t (1 : Fin 3) = 0 ∧ win0_2.index t (2 : Fin 3) = 0)

theorem wblk2_apply (c : Dev nD) (t : Fin cfg0.N) (j k : Fin 1024) (l : Fin 20) (hl : l.val = 4 * min t.val 4 + 1) :
    wblk2 m c t (ix3 (0 : Fin 1) j k) = weights m c (ix3 l j k) := by
  show (V m c main_arg1 : S20x1024x1024.Idx → EReal) _ = _
  rw [V_weights m c]
  refine congrArg _ (funext fun a => Fin.ext ?_)
  match a with
  | ⟨0, _⟩ => show win0_2.index t 0 * 1 + 1 * 0 = l.val; rw [(index_w2 t).1, hl]; omega
  | ⟨1, _⟩ => show win0_2.index t 1 * 1024 + 1 * j.val = j.val; rw [(index_w2 t).2.1]; omega
  | ⟨2, _⟩ => show win0_2.index t 2 * 1024 + 1 * k.val = k.val; rw [(index_w2 t).2.2]; omega

theorem wblk2_mat (c : Dev nD) (t : Fin cfg0.N) : wmat (wblk2 m c t) = Wf (weights m c) (4 * min t.val 4 + 1) := by
  funext j k
  have h : 4 * min t.val 4 + 1 < 20 := by omega
  show wblk2 m c t (ix3 (0 : Fin 1) j k) = Wf (weights m c) (4 * min t.val 4 + 1) j k
  unfold Wf
  rw [dif_pos h]
  exact wblk2_apply m c t j k ⟨_, h⟩ rfl

/-- Weight window 3 at point `t` holds layer `4 · min t 4 + 2`. -/
theorem index_w3 : ∀ t : Fin cfg0.N, win0_3.index t (0 : Fin 3) = 4 * min t.val 4 + 2 ∧ win0_3.index t (1 : Fin 3) = 0 ∧ win0_3.index t (2 : Fin 3) = 0 :=
  (by decide +kernel : ∀ t : Fin grid0.N, win0_3.index t (0 : Fin 3) = 4 * min t.val 4 + 2 ∧ win0_3.index t (1 : Fin 3) = 0 ∧ win0_3.index t (2 : Fin 3) = 0)

theorem wblk3_apply (c : Dev nD) (t : Fin cfg0.N) (j k : Fin 1024) (l : Fin 20) (hl : l.val = 4 * min t.val 4 + 2) :
    wblk3 m c t (ix3 (0 : Fin 1) j k) = weights m c (ix3 l j k) := by
  show (V m c main_arg1 : S20x1024x1024.Idx → EReal) _ = _
  rw [V_weights m c]
  refine congrArg _ (funext fun a => Fin.ext ?_)
  match a with
  | ⟨0, _⟩ => show win0_3.index t 0 * 1 + 1 * 0 = l.val; rw [(index_w3 t).1, hl]; omega
  | ⟨1, _⟩ => show win0_3.index t 1 * 1024 + 1 * j.val = j.val; rw [(index_w3 t).2.1]; omega
  | ⟨2, _⟩ => show win0_3.index t 2 * 1024 + 1 * k.val = k.val; rw [(index_w3 t).2.2]; omega

theorem wblk3_mat (c : Dev nD) (t : Fin cfg0.N) : wmat (wblk3 m c t) = Wf (weights m c) (4 * min t.val 4 + 2) := by
  funext j k
  have h : 4 * min t.val 4 + 2 < 20 := by omega
  show wblk3 m c t (ix3 (0 : Fin 1) j k) = Wf (weights m c) (4 * min t.val 4 + 2) j k
  unfold Wf
  rw [dif_pos h]
  exact wblk3_apply m c t j k ⟨_, h⟩ rfl

/-- Weight window 4 at point `t` holds layer `4 · min t 4 + 3`. -/
theorem index_w4 : ∀ t : Fin cfg0.N, win0_4.index t (0 : Fin 3) = 4 * min t.val 4 + 3 ∧ win0_4.index t (1 : Fin 3) = 0 ∧ win0_4.index t (2 : Fin 3) = 0 :=
  (by decide +kernel : ∀ t : Fin grid0.N, win0_4.index t (0 : Fin 3) = 4 * min t.val 4 + 3 ∧ win0_4.index t (1 : Fin 3) = 0 ∧ win0_4.index t (2 : Fin 3) = 0)

theorem wblk4_apply (c : Dev nD) (t : Fin cfg0.N) (j k : Fin 1024) (l : Fin 20) (hl : l.val = 4 * min t.val 4 + 3) :
    wblk4 m c t (ix3 (0 : Fin 1) j k) = weights m c (ix3 l j k) := by
  show (V m c main_arg1 : S20x1024x1024.Idx → EReal) _ = _
  rw [V_weights m c]
  refine congrArg _ (funext fun a => Fin.ext ?_)
  match a with
  | ⟨0, _⟩ => show win0_4.index t 0 * 1 + 1 * 0 = l.val; rw [(index_w4 t).1, hl]; omega
  | ⟨1, _⟩ => show win0_4.index t 1 * 1024 + 1 * j.val = j.val; rw [(index_w4 t).2.1]; omega
  | ⟨2, _⟩ => show win0_4.index t 2 * 1024 + 1 * k.val = k.val; rw [(index_w4 t).2.2]; omega

theorem wblk4_mat (c : Dev nD) (t : Fin cfg0.N) : wmat (wblk4 m c t) = Wf (weights m c) (4 * min t.val 4 + 3) := by
  funext j k
  have h : 4 * min t.val 4 + 3 < 20 := by omega
  show wblk4 m c t (ix3 (0 : Fin 1) j k) = Wf (weights m c) (4 * min t.val 4 + 3) j k
  unfold Wf
  rw [dif_pos h]
  exact wblk4_apply m c t j k ⟨_, h⟩ rfl

/-! ## The bias blocks -/

/-- Bias window 5 at point `t` holds layer `4 · min t 4 + 0`. -/
theorem index_b5 : ∀ t : Fin cfg0.N, win0_5.index t (0 : Fin 3) = 4 * min t.val 4 + 0 ∧ win0_5.index t (1 : Fin 3) = 0 ∧ win0_5.index t (2 : Fin 3) = 0 :=
  (by decide +kernel : ∀ t : Fin grid0.N, win0_5.index t (0 : Fin 3) = 4 * min t.val 4 + 0 ∧ win0_5.index t (1 : Fin 3) = 0 ∧ win0_5.index t (2 : Fin 3) = 0)

theorem bblk5_apply (c : Dev nD) (t : Fin cfg0.N) (j : Fin 1024) (l : Fin 20) (hl : l.val = 4 * min t.val 4 + 0) :
    bblk5 m c t (ix3 (0 : Fin 1) (0 : Fin 1) j) = biases m c (ix2 l j) := by
  show (V m c main_v0 : S20x1x1024.Idx → EReal) _ = _
  rw [V_biases m c]
  refine (congrArg _ (funext fun a => Fin.ext ?_)).trans (reshaped_apply (biases m c) l j)
  match a with
  | ⟨0, _⟩ => show win0_5.index t 0 * 1 + 1 * 0 = l.val; rw [(index_b5 t).1, hl]; omega
  | ⟨1, _⟩ => show win0_5.index t 1 * 1 + 1 * 0 = 0; rw [(index_b5 t).2.1]
  | ⟨2, _⟩ => show win0_5.index t 2 * 1024 + 1 * j.val = j.val; rw [(index_b5 t).2.2]; omega

theorem bblk5_row (c : Dev nD) (t : Fin cfg0.N) : brow (bblk5 m c t) = bf (biases m c) (4 * min t.val 4 + 0) := by
  funext j
  have h : 4 * min t.val 4 + 0 < 20 := by omega
  show bblk5 m c t (ix3 (0 : Fin 1) (0 : Fin 1) j) = bf (biases m c) (4 * min t.val 4 + 0) j
  unfold bf
  rw [dif_pos h]
  exact bblk5_apply m c t j ⟨_, h⟩ rfl

/-- Bias window 6 at point `t` holds layer `4 · min t 4 + 1`. -/
theorem index_b6 : ∀ t : Fin cfg0.N, win0_6.index t (0 : Fin 3) = 4 * min t.val 4 + 1 ∧ win0_6.index t (1 : Fin 3) = 0 ∧ win0_6.index t (2 : Fin 3) = 0 :=
  (by decide +kernel : ∀ t : Fin grid0.N, win0_6.index t (0 : Fin 3) = 4 * min t.val 4 + 1 ∧ win0_6.index t (1 : Fin 3) = 0 ∧ win0_6.index t (2 : Fin 3) = 0)

theorem bblk6_apply (c : Dev nD) (t : Fin cfg0.N) (j : Fin 1024) (l : Fin 20) (hl : l.val = 4 * min t.val 4 + 1) :
    bblk6 m c t (ix3 (0 : Fin 1) (0 : Fin 1) j) = biases m c (ix2 l j) := by
  show (V m c main_v0 : S20x1x1024.Idx → EReal) _ = _
  rw [V_biases m c]
  refine (congrArg _ (funext fun a => Fin.ext ?_)).trans (reshaped_apply (biases m c) l j)
  match a with
  | ⟨0, _⟩ => show win0_6.index t 0 * 1 + 1 * 0 = l.val; rw [(index_b6 t).1, hl]; omega
  | ⟨1, _⟩ => show win0_6.index t 1 * 1 + 1 * 0 = 0; rw [(index_b6 t).2.1]
  | ⟨2, _⟩ => show win0_6.index t 2 * 1024 + 1 * j.val = j.val; rw [(index_b6 t).2.2]; omega

theorem bblk6_row (c : Dev nD) (t : Fin cfg0.N) : brow (bblk6 m c t) = bf (biases m c) (4 * min t.val 4 + 1) := by
  funext j
  have h : 4 * min t.val 4 + 1 < 20 := by omega
  show bblk6 m c t (ix3 (0 : Fin 1) (0 : Fin 1) j) = bf (biases m c) (4 * min t.val 4 + 1) j
  unfold bf
  rw [dif_pos h]
  exact bblk6_apply m c t j ⟨_, h⟩ rfl

/-- Bias window 7 at point `t` holds layer `4 · min t 4 + 2`. -/
theorem index_b7 : ∀ t : Fin cfg0.N, win0_7.index t (0 : Fin 3) = 4 * min t.val 4 + 2 ∧ win0_7.index t (1 : Fin 3) = 0 ∧ win0_7.index t (2 : Fin 3) = 0 :=
  (by decide +kernel : ∀ t : Fin grid0.N, win0_7.index t (0 : Fin 3) = 4 * min t.val 4 + 2 ∧ win0_7.index t (1 : Fin 3) = 0 ∧ win0_7.index t (2 : Fin 3) = 0)

theorem bblk7_apply (c : Dev nD) (t : Fin cfg0.N) (j : Fin 1024) (l : Fin 20) (hl : l.val = 4 * min t.val 4 + 2) :
    bblk7 m c t (ix3 (0 : Fin 1) (0 : Fin 1) j) = biases m c (ix2 l j) := by
  show (V m c main_v0 : S20x1x1024.Idx → EReal) _ = _
  rw [V_biases m c]
  refine (congrArg _ (funext fun a => Fin.ext ?_)).trans (reshaped_apply (biases m c) l j)
  match a with
  | ⟨0, _⟩ => show win0_7.index t 0 * 1 + 1 * 0 = l.val; rw [(index_b7 t).1, hl]; omega
  | ⟨1, _⟩ => show win0_7.index t 1 * 1 + 1 * 0 = 0; rw [(index_b7 t).2.1]
  | ⟨2, _⟩ => show win0_7.index t 2 * 1024 + 1 * j.val = j.val; rw [(index_b7 t).2.2]; omega

theorem bblk7_row (c : Dev nD) (t : Fin cfg0.N) : brow (bblk7 m c t) = bf (biases m c) (4 * min t.val 4 + 2) := by
  funext j
  have h : 4 * min t.val 4 + 2 < 20 := by omega
  show bblk7 m c t (ix3 (0 : Fin 1) (0 : Fin 1) j) = bf (biases m c) (4 * min t.val 4 + 2) j
  unfold bf
  rw [dif_pos h]
  exact bblk7_apply m c t j ⟨_, h⟩ rfl

/-- Bias window 8 at point `t` holds layer `4 · min t 4 + 3`. -/
theorem index_b8 : ∀ t : Fin cfg0.N, win0_8.index t (0 : Fin 3) = 4 * min t.val 4 + 3 ∧ win0_8.index t (1 : Fin 3) = 0 ∧ win0_8.index t (2 : Fin 3) = 0 :=
  (by decide +kernel : ∀ t : Fin grid0.N, win0_8.index t (0 : Fin 3) = 4 * min t.val 4 + 3 ∧ win0_8.index t (1 : Fin 3) = 0 ∧ win0_8.index t (2 : Fin 3) = 0)

theorem bblk8_apply (c : Dev nD) (t : Fin cfg0.N) (j : Fin 1024) (l : Fin 20) (hl : l.val = 4 * min t.val 4 + 3) :
    bblk8 m c t (ix3 (0 : Fin 1) (0 : Fin 1) j) = biases m c (ix2 l j) := by
  show (V m c main_v0 : S20x1x1024.Idx → EReal) _ = _
  rw [V_biases m c]
  refine (congrArg _ (funext fun a => Fin.ext ?_)).trans (reshaped_apply (biases m c) l j)
  match a with
  | ⟨0, _⟩ => show win0_8.index t 0 * 1 + 1 * 0 = l.val; rw [(index_b8 t).1, hl]; omega
  | ⟨1, _⟩ => show win0_8.index t 1 * 1 + 1 * 0 = 0; rw [(index_b8 t).2.1]
  | ⟨2, _⟩ => show win0_8.index t 2 * 1024 + 1 * j.val = j.val; rw [(index_b8 t).2.2]; omega

theorem bblk8_row (c : Dev nD) (t : Fin cfg0.N) : brow (bblk8 m c t) = bf (biases m c) (4 * min t.val 4 + 3) := by
  funext j
  have h : 4 * min t.val 4 + 3 < 20 := by omega
  show bblk8 m c t (ix3 (0 : Fin 1) (0 : Fin 1) j) = bf (biases m c) (4 * min t.val 4 + 3) j
  unfold bf
  rw [dif_pos h]
  exact bblk8_apply m c t j ⟨_, h⟩ rfl

/-! ## The tokens' tiles -/

/-- The tokens' window at point `t` holds tile `t - 5` (tile 0 before point 5). -/
theorem index_x : ∀ t : Fin cfg0.N, win0_0.index t (0 : Fin 2) = t.val - 5 ∧ win0_0.index t (1 : Fin 2) = 0 :=
  (by decide +kernel : ∀ t : Fin grid0.N, win0_0.index t (0 : Fin 2) = t.val - 5 ∧ win0_0.index t (1 : Fin 2) = 0)

theorem xblk_apply (c : Dev nD) (t : Fin cfg0.N) (i : Fin 512) (k : Fin 1024) (r : Fin 4096) (hr : r.val = 512 * (t.val - 5) + i.val) :
    xblk m c t (ix2 i k) = tokens m c (ix2 r k) := by
  show (V m c main_arg0 : S4096x1024.Idx → EReal) _ = _
  rw [V_tokens m c]
  refine congrArg _ (funext fun a => Fin.ext ?_)
  match a with
  | ⟨0, _⟩ => show win0_0.index t 0 * 512 + 1 * i.val = r.val; rw [(index_x t).1, hr]; omega
  | ⟨1, _⟩ => show win0_0.index t 1 * 1024 + 1 * k.val = k.val; rw [(index_x t).2]; omega

end Cert.KernelIdeal.HandValue

end
-- ==== Proof.KI.Acc.lean ====
/-
  The accumulator's buffer after each grid point, as rows.

  The first point's four blocks are layers 0 … 3, so it leaves `Cert.Chain.scr` at 0; point `n + 1 ≤ 4` folds
  layers `4 n + 4` … `4 n + 7` into what point `n` left, which takes `scr` at `n` to `scr` at `n + 1`; from
  point 5 on the buffer is not written. So after point `n` it holds `scr` at `min n 4`.
-/
import proofs.«135073_g15564961481514_cont_week2b_1535_21_alg».proof.Proof.KI.Pieces
import proofs.«135073_g15564961481514_cont_week2b_1535_21_alg».proof.Proof.KI.Blocks

set_option maxRecDepth 16384

noncomputable section

namespace Cert.KernelIdeal.HandValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Pay Cert.Chain Cert.Arr

variable (m : (ℓ : Loc nD τ sig) → Buf (Elt Ideal) ℓ)

/-! ## The two folding payloads as rows -/

/-- The first point's payload: the transposed first weight over the first bias, folded three times. -/
theorem first_amat (w1 w2 w3 w4 : Vec Ideal S1x1024x1024 .f32) (b5 b6 b7 b8 : Vec Ideal S1x1x1024 .f32) :
    amat (k0_pay1 (F := Ideal) (k0_pay4 w1 b5 w2 b6 w3 b7) (k0_pay5 w4) b8)
      = foldA (wmat w4) (brow b8) (foldA (wmat w3) (brow b7) (foldA (wmat w2) (brow b6) (aug (fun k j => wmat w1 j k) (brow b5)))) := by
  have e4 : (fun j k : Fin 1024 => k0_pay5 (F := Ideal) w4 (ix2 j k)) = wmat w4 :=
    funext fun j => funext fun k => pay5_apply w4 j k
  have eA : amat (k0_pay4 (F := Ideal) w1 b5 w2 b6 w3 b7)
      = foldA (wmat w3) (brow b7) (foldA (wmat w2) (brow b6) (aug (fun k j => wmat w1 j k) (brow b5))) :=
    funext fun r => funext fun j => pay4_apply w1 b5 w2 b6 w3 b7 r j
  funext r j
  refine (pay1_apply (k0_pay4 (F := Ideal) w1 b5 w2 b6 w3 b7) (k0_pay5 (F := Ideal) w4) b8 r j).trans ?_
  rw [e4, eA]

/-- A later folding point's payload: four folds of what the accumulator held. -/
theorem fold_amat (A : Vec Ideal S1032x1024 .f32) (w1 w2 w3 w4 : Vec Ideal S1x1024x1024 .f32) (b5 b6 b7 b8 : Vec Ideal S1x1x1024 .f32) :
    amat (k0_pay2 (F := Ideal) (k0_pay6 A w1 b5 w2 b6 w3 b7) w4 b8)
      = foldA (wmat w4) (brow b8) (foldA (wmat w3) (brow b7) (foldA (wmat w2) (brow b6) (foldA (wmat w1) (brow b5) (amat A)))) := by
  have eA : amat (k0_pay6 (F := Ideal) A w1 b5 w2 b6 w3 b7)
      = foldA (wmat w3) (brow b7) (foldA (wmat w2) (brow b6) (foldA (wmat w1) (brow b5) (amat A))) :=
    funext fun r => funext fun j => pay6_apply A w1 b5 w2 b6 w3 b7 r j
  funext r j
  refine (pay2_apply (k0_pay6 (F := Ideal) A w1 b5 w2 b6 w3 b7) w4 b8 r j).trans ?_
  rw [eA]

/-! ## What each point leaves, over the named blocks -/

/-- The first point. -/
theorem acc_first (c : Dev nD) (hn : 0 < cfg0.N) :
    (outsAt m c 0 hn).2
      = k0_pay1 (F := Ideal) (k0_pay4 (wblk1 m c ⟨0, hn⟩) (bblk5 m c ⟨0, hn⟩) (wblk2 m c ⟨0, hn⟩) (bblk6 m c ⟨0, hn⟩) (wblk3 m c ⟨0, hn⟩) (bblk7 m c ⟨0, hn⟩)) (k0_pay5 (wblk4 m c ⟨0, hn⟩)) (bblk8 m c ⟨0, hn⟩) := by
  rw [outsAt]
  dsimp only
  exact soutA_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scM (Memref.isWhole_whole _) _ _ _ (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)

/-- A later folding point. -/
theorem acc_fold (c : Dev nD) (n : ℕ) (hn : n + 1 < cfg0.N) (h5 : n + 1 < 5) :
    (outsAt m c (n + 1) hn).2
      = k0_pay2 (F := Ideal) (k0_pay6 (outsAt m c n (Nat.lt_of_succ_lt hn)).2 (wblk1 m c ⟨n + 1, hn⟩) (bblk5 m c ⟨n + 1, hn⟩) (wblk2 m c ⟨n + 1, hn⟩) (bblk6 m c ⟨n + 1, hn⟩) (wblk3 m c ⟨n + 1, hn⟩) (bblk7 m c ⟨n + 1, hn⟩)) (wblk4 m c ⟨n + 1, hn⟩) (bblk8 m c ⟨n + 1, hn⟩) := by
  rw [outsAt, dif_pos h5]
  dsimp only
  exact soutB_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) _ _ _ (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt m c n (Nat.lt_of_succ_lt hn)).2

/-- An applying point: the output tile, the accumulator as it was. -/
theorem out_apply (c : Dev nD) (n : ℕ) (hn : n + 1 < cfg0.N) (h5 : ¬n + 1 < 5) :
    outsAt m c (n + 1) hn
      = (k0_pay3 (F := Ideal) (xblk m c ⟨n + 1, hn⟩) (topRows (outsAt m c n (Nat.lt_of_succ_lt hn)).2) (biasRow (outsAt m c n (Nat.lt_of_succ_lt hn)).2),
          (outsAt m c n (Nat.lt_of_succ_lt hn)).2) := by
  rw [outsAt, dif_neg h5]
  exact congrArg (fun z => (z, (outsAt m c n (Nat.lt_of_succ_lt hn)).2))
    (outC_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scM (Memref.isWhole_whole _) _ _ _ (iblk m c 0 ⟨n + 1, hn⟩) (outsAt m c n (Nat.lt_of_succ_lt hn)).2)

/-! ## The accumulator after point `n` -/

/-- The four blocks' layers at a point, by number. -/
theorem layers_at (c : Dev nD) (t : Fin cfg0.N) (l : ℕ) (hl : 4 * min t.val 4 = l) :
    wmat (wblk1 m c t) = Wf (weights m c) l ∧ wmat (wblk2 m c t) = Wf (weights m c) (l + 1)
      ∧ wmat (wblk3 m c t) = Wf (weights m c) (l + 2) ∧ wmat (wblk4 m c t) = Wf (weights m c) (l + 3)
      ∧ brow (bblk5 m c t) = bf (biases m c) l ∧ brow (bblk6 m c t) = bf (biases m c) (l + 1)
      ∧ brow (bblk7 m c t) = bf (biases m c) (l + 2) ∧ brow (bblk8 m c t) = bf (biases m c) (l + 3) := by
  subst hl
  exact ⟨wblk1_mat m c t, wblk2_mat m c t, wblk3_mat m c t, wblk4_mat m c t, bblk5_row m c t, bblk6_row m c t, bblk7_row m c t, bblk8_row m c t⟩

/-- THE ACCUMULATOR: after point `n` its rows are the composed layers `0 … 4 · min n 4 + 3`. -/
theorem acc_eq (c : Dev nD) : ∀ (n : ℕ) (hn : n < cfg0.N),
    amat (outsAt m c n hn).2 = scr (Wf (weights m c)) (bf (biases m c)) (min n 4)
  | 0, hn => by
    obtain ⟨e1, e2, e3, e4, e5, e6, e7, e8⟩ := layers_at m c ⟨0, hn⟩ 0 rfl
    rw [acc_first m c hn, first_amat, e1, e2, e3, e4, e5, e6, e7, e8]
    exact scr_zero (Wf (weights m c)) (bf (biases m c))
  | n + 1, hn => by
    by_cases h5 : n + 1 < 5
    · obtain ⟨e1, e2, e3, e4, e5, e6, e7, e8⟩ := layers_at m c ⟨n + 1, hn⟩ (4 * n + 4) (by show 4 * min (n + 1) 4 = 4 * n + 4; omega)
      rw [acc_fold m c n hn h5, fold_amat, e1, e2, e3, e4, e5, e6, e7, e8, acc_eq c n (Nat.lt_of_succ_lt hn),
        show min n 4 = n by omega, show min (n + 1) 4 = n + 1 by omega]
      exact scr_succ (Wf (weights m c)) (bf (biases m c)) n
    · rw [out_apply m c n hn h5]
      dsimp only
      rw [acc_eq c n (Nat.lt_of_succ_lt hn), show min n 4 = 4 by omega, show min (n + 1) 4 = 4 by omega]

end Cert.KernelIdeal.HandValue

end
-- ==== Proof.KI.Value.lean ====
/-
  What the kernel's result array holds at the ideal instance: the composed affine map applied to the tokens.

  The accumulator's buffer after grid point `n` (`n ≤ 4`) holds, read as rows, `Cert.Chain.scr` of the weights
  and biases at `n`: the first point's blocks are layers 0 … 3, point `n`'s blocks are layers `4n … 4n+3`, and the
  body's payloads are the folds of `Cert.Chain` (`Cert.KernelIdeal.Pay`). From point 4 on it is unchanged. Point
  `t ≥ 5` writes back the tile of 512 rows from row `512 (t - 5)`: the tokens' tile times the accumulator's matrix
  plus its bias row, which is that tile of the composed map's value. The eight tiles cover the array.
-/
import proofs.«135073_g15564961481514_cont_week2b_1535_21_alg».proof.Proof.KI.Frame
import proofs.«135073_g15564961481514_cont_week2b_1535_21_alg».proof.Proof.KI.Acc
import proofs.«135073_g15564961481514_cont_week2b_1535_21_alg».proof.Proof.KPay
import proofs.«135073_g15564961481514_cont_week2b_1535_21_alg».proof.Proof.Arr
import Idealize.ShloMosaic.Lib.Pipeline.Value

set_option maxRecDepth 16384

noncomputable section

namespace Cert.KernelIdeal.HandValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Pay Cert.Chain Cert.Arr

variable (m : (ℓ : Loc nD τ sig) → Buf (Elt Ideal) ℓ)

/-! ## The output tile at an index -/

/-- The tile an applying point stores, read at `(i, j)`: row `i` of the tokens' tile through the composed map, once the
    accumulator's rows are the composed layers `0 … 19`. -/
theorem tile_value (xb : Vec Ideal S512x1024 .f32) (acc : Vec Ideal S1032x1024 .f32)
    (W : ℕ → Fin 1024 → Fin 1024 → EReal) (b : ℕ → Fin 1024 → EReal) (hacc : amat acc = scr W b 4) (i : Fin 512) (j : Fin 1024) :
    k0_pay3 (F := Ideal) xb (topRows acc) (biasRow acc) (ix2 i j) = kernelOut W b (fun i k => xb (ix2 i k)) i j := by
  refine (pay3_apply xb (topRows acc) (biasRow acc) i j).trans ?_
  rw [← applyA_scr W b (fun i k => xb (ix2 i k)), ← hacc]
  show (∑ k : Fin 1024, xb (ix2 i k) * topRows acc (ix2 k j)) + biasRow acc (ix2 (0 : Fin 1) j)
    = (∑ k : Fin 1024, xb (ix2 i k) * acc (ix2 (⟨k.val, _⟩ : Fin 1032) j)) + acc (ix2 (⟨1024, _⟩ : Fin 1032) j)
  exact congrArg₂ (· + ·)
    (Finset.sum_congr rfl fun k _ => congrArg (fun z => xb (ix2 i k) * z) (topRows_apply acc k j _))
    (biasRow_apply acc j _)

/-- What an applying point `t` leaves in the output's staging buffer is the tile of the composed map's value from row
    `512 (t - 5)`. -/
theorem tile_eq (c : Dev nD) (t : Fin cfg0.N) (h5 : 5 ≤ t.val) (y : S512x1024.Idx) (r : S4096x1024.Idx)
    (h0 : (r 0).val = 512 * (t.val - 5) + (y 0).val) (h1 : (r 1).val = (y 1).val) :
    (outsAt m c t.val t.isLt).1 y = outArr (tokens m c) (weights m c) (biases m c) r := by
  obtain ⟨n, hn⟩ := t
  cases n with
  | zero => dsimp only at h5; omega
  | succ n =>
    have h4 : 4 ≤ n := by dsimp only at h5; omega
    have h5' : ¬n + 1 < 5 := by omega
    have hacc : amat (outsAt m c n (Nat.lt_of_succ_lt hn)).2 = scr (Wf (weights m c)) (bf (biases m c)) 4 := by
      rw [acc_eq m c n (Nat.lt_of_succ_lt hn), show min n 4 = 4 by omega]
    obtain ⟨i, j, rfl⟩ : ∃ (i : Fin 512) (j : Fin 1024), y = ix2 i j := ⟨y 0, y 1, eq_ix2 y⟩
    obtain ⟨r0, r1, rfl⟩ : ∃ (r0 : Fin 4096) (r1 : Fin 1024), r = ix2 r0 r1 := ⟨r 0, r 1, eq_ix2 r⟩
    obtain rfl : r1 = j := Fin.ext h1
    show (outsAt m c (n + 1) hn).1 (ix2 i r1) = _
    rw [out_apply m c n hn h5']
    dsimp only
    refine (tile_value (xblk m c ⟨n + 1, hn⟩) (outsAt m c n (Nat.lt_of_succ_lt hn)).2 (Wf (weights m c)) (bf (biases m c)) hacc i r1).trans ?_
    show (∑ k : Fin 1024, xblk m c ⟨n + 1, hn⟩ (ix2 i k) * accQ (Wf (weights m c)) 19 k r1) + accC (Wf (weights m c)) (bf (biases m c)) 19 r1
      = (∑ k : Fin 1024, tokens m c (ix2 r0 k) * accQ (Wf (weights m c)) 19 k r1) + accC (Wf (weights m c)) (bf (biases m c)) 19 r1
    exact congrArg (fun z => z + accC (Wf (weights m c)) (bf (biases m c)) 19 r1)
      (Finset.sum_congr rfl fun k _ => congrArg (fun z => z * accQ (Wf (weights m c)) 19 k r1) (xblk_apply m c ⟨n + 1, hn⟩ i k r0 h0))

/-! ## The write-backs -/

/-- The output window at point `t` is on tile `t - 5` (tile 0 before point 5). -/
theorem index_o : ∀ t : Fin cfg0.N, win0_9.index t (0 : Fin 2) = t.val - 5 ∧ win0_9.index t (1 : Fin 2) = 0 :=
  (by decide +kernel : ∀ t : Fin grid0.N, win0_9.index t (0 : Fin 2) = t.val - 5 ∧ win0_9.index t (1 : Fin 2) = 0)

/-- The output's block is written back exactly at the applying points. -/
theorem flush_iff (t : Fin cfg0.N) : (cfg0.win 9).flush t = true ↔ 5 ≤ t.val := by
  constructor
  · intro hf
    by_contra h
    have hno := noFlushOut t (fun hc => h ((hcond2 t).mp hc))
    rw [hno] at hf
    exact Bool.false_ne_true hf
  · intro h
    exact flushOut t ((hcond2 t).mpr h)

/-- What an applying point writes back is its block of the composed map's value. -/
theorem flushed_eq (c : Dev nD) (t : Fin cfg0.N) (hf : (cfg0.win 9).flush t = true) :
    (dats (F := Ideal) m 0 c).flushed 9 t
      = ((cfg0.win 9).blk t).view.read (Elt Ideal) (outArr (tokens m c) (weights m c) (biases m c)) := by
  have h5 : 5 ≤ t.val := (flush_iff t).mp hf
  have hA : (dats (F := Ideal) m 0 c).after 9 t = (outsAt m c t.val t.isLt).1 := by dsimp only [dats]
  funext y
  show (dats (F := Ideal) m 0 c).after 9 t ((cfg0.win 9).xinj (grid0.coords t) y)
    = outArr (tokens m c) (weights m c) (biases m c) (((cfg0.win 9).blk t).view.emb y)
  rw [hA]
  refine tile_eq m c t h5 _ _ ?_ ?_
  · show win0_9.index t 0 * 512 + 1 * (y 0).val = 512 * (t.val - 5) + (y 0).val
    rw [(index_o t).1]; omega
  · show win0_9.index t 1 * 1024 + 1 * (y 1).val = (y 1).val
    rw [(index_o t).2]; omega

/-- Row `r` of the result array lies in the block of point `r / 512 + 5`. -/
theorem mem_tile (i : S4096x1024.Idx) (t : Fin cfg0.N) (ht : t.val = (i 0).val / 512 + 5) :
    i ∈ ((cfg0.win 9).blk t).view.set := by
  show i ∈ ((View.whole main_v1).slice (win0_9.rect t)).set
  rw [View.set_slice_whole, Rect.mem_set_unit]
  intro a
  have h0 : (i 0).val < 4096 := idx2_lt0 i
  have h1 : (i 1).val < 1024 := idx2_lt1 i
  match a with
  | ⟨0, _⟩ =>
    show win0_9.index t 0 * 512 ≤ (i 0).val ∧ (i 0).val < win0_9.index t 0 * 512 + 512
    rw [(index_o t).1, ht]; omega
  | ⟨1, _⟩ =>
    show win0_9.index t 1 * 1024 ≤ (i 1).val ∧ (i 1).val < win0_9.index t 1 * 1024 + 1024
    rw [(index_o t).2]; omega

/-- THE RESULT: after the run's last write-back the result array holds the composed map's value of the three
    argument arrays as the launch found them. -/
theorem final_out (c : Dev nD) :
    (dats (F := Ideal) m 0 c).arrAt 9 cfg0.N
      = Cert.Arr.outArr (m ((c : Thread nD τ).loc main_arg0)) (m ((c : Thread nD τ).loc main_arg1)) (m ((c : Thread nD τ).loc main_arg2)) :=
  (dats (F := Ideal) m 0 c).arrAt_eq_of_cover 9 (outArr (tokens m c) (weights m c) (biases m c)) (flushed_eq m c) fun i =>
    have h0 : (i 0).val < 4096 := idx2_lt0 (n0 := 4096) (n1 := 1024) i
    have hN : (i 0).val / 512 + 5 < cfg0.N := by rw [show cfg0.N = 13 from N_0]; omega
    ⟨⟨(i 0).val / 512 + 5, hN⟩, (flush_iff _).mpr (Nat.le_add_left 5 _), mem_tile i ⟨(i 0).val / 512 + 5, hN⟩ rfl⟩

end Cert.KernelIdeal.HandValue

end
-- ==== Proof.Ref.Layer.lean ====
/-
  One layer of the reference, as its nine host operations compose it, read at an index.

  Layer `l` takes the rows `h` to  `h · W_lᵀ + b_l`: the slice `W[l]` of the weights, reshaped to a matrix and
  transposed, contracted with `h` over its columns, plus the slice `b[l]` of the biases broadcast over the rows.
  `layerV` is that composed term for a layer number `l < 20`; `layerV_apply` reads it at an index as
  `Cert.Chain.layer`, and `resL_apply` reads `n` layers applied one after the other as `Cert.Chain.chain … n`.
  `Args` says of a device's buffer contents that the three argument buffers hold given arrays.
-/
import proofs.«135073_g15564961481514_cont_week2b_1535_21_alg».proof.Proof.Gen.ReferenceIdeal
import proofs.«135073_g15564961481514_cont_week2b_1535_21_alg».proof.Proof.Arr
import Idealize.ShloMosaic.Lib.Pipeline.Value
import Idealize.ShloMosaic.Lib.ValueIdx
import Idealize.ShloMosaic.Lib.StableHlo.Run
import Idealize.ShloMosaic.PureOps.Ideal.Laws

noncomputable section

namespace Cert.RefRun

open Cert.ReferenceIdeal Cert.ReferenceIdeal.Gen Idealize.ShloMosaic Idealize.ShloMosaic.ValueIdx
open scoped BigOperators

/-- Layer `l`'s block of the weights is inside the array. -/
theorem slW (l : ℕ) (hl : l < 20) : S20x1024x1024.Slices ![l, 0, 0] S1x1024x1024 :=
  ⟨rfl, fun a => match a with
    | ⟨0, _⟩ => by show l + 1 ≤ 20; omega
    | ⟨1, _⟩ => by show 0 + 1024 ≤ 1024; omega
    | ⟨2, _⟩ => by show 0 + 1024 ≤ 1024; omega⟩

/-- Layer `l`'s row of the biases is inside the array. -/
theorem slb (l : ℕ) (hl : l < 20) : S20x1024.Slices ![l, 0] S1x1024 :=
  ⟨rfl, fun a => match a with
    | ⟨0, _⟩ => by show l + 1 ≤ 20; omega
    | ⟨1, _⟩ => by show 0 + 1024 ≤ 1024; omega⟩

section Generic
variable {F : FTy → Type} [FloatOps F]

/-- `W[l]` as a matrix, transposed: the right operand of layer `l`'s contraction. -/
def wT (l : ℕ) (hl : l < 20) (W : FVec F S20x1024x1024 .f32) : FVec F S1024x1024 .f32 :=
  transpose S1024x1024 [1, 0]
    (shapeCast S1024x1024 (extractStridedSlice S1x1024x1024 ![l, 0, 0] W (slW l hl)) shapeCasts_S1x1024x1024_S1024x1024)
    transposes_S1024x1024_S1024x1024_1_0

/-- `b[l]` broadcast over the 4096 rows. -/
def bB (l : ℕ) (hl : l < 20) (b : FVec F S20x1024 .f32) : FVec F S4096x1024 .f32 :=
  broadcastInDim S4096x1024 ![0, 1] bcast_S1x1024_S4096x1024_0_1
    (broadcastInDim S1x1024 ![1] bcast_S1024_S1x1024_1
      (shapeCast S1024 (extractStridedSlice S1x1024 ![l, 0] b (slb l hl)) shapeCasts_S1x1024_S1024))

/-- Layer `l` applied to the rows `h`, as the reference's nine operations compose it. -/
def layerV (l : ℕ) (hl : l < 20) (W : FVec F S20x1024x1024 .f32) (b : FVec F S20x1024 .f32)
    (h : FVec F S4096x1024 .f32) : FVec F S4096x1024 .f32 :=
  addf (Host.dotGeneral dot_S4096x1024_S1024x1024_S4096x1024_1_0_0_1_n_n none h (wT l hl W)) (bB l hl b)

/-- The first `n` layers applied one after the other to the rows `x`. -/
def resL (x : FVec F S4096x1024 .f32) (W : FVec F S20x1024x1024 .f32) (b : FVec F S20x1024 .f32) :
    (n : ℕ) → n ≤ 20 → FVec F S4096x1024 .f32
  | 0, _ => x
  | n + 1, hn => layerV n (by omega) W b (resL x W b n (by omega))

/-- The three argument buffers hold the rows `x`, the weights `W` and the biases `b`. -/
structure Args (x : FVec F S4096x1024 .f32) (W : FVec F S20x1024x1024 .f32) (b : FVec F S20x1024 .f32)
    (V : Valuation τ sig (Elt F)) : Prop where
  a0 : V (Proc.devRef .tc main_arg0) = x
  a1 : V (Proc.devRef .tc main_arg1) = W
  a2 : V (Proc.devRef .tc main_arg2) = b

end Generic

/-! ## Read at an index, at the ideal values -/

/-- The transposed weight matrix of layer `l` at `(k, j)` is `W[l][j][k]`. -/
theorem wT_apply (l : ℕ) (hl : l < 20) (W : FVec Ideal S20x1024x1024 .f32) (k j : Fin 1024) :
    wT l hl W (ix2 k j) = W (ix3 ⟨l, hl⟩ j k) := by
  unfold wT
  refine (transpose_apply [1, 0] _ transposes_S1024x1024_S1024x1024_1_0 (ix2 k j) (ix2 j k)
    (fun b => match b with | ⟨0, _⟩ => rfl | ⟨1, _⟩ => rfl)).trans ?_
  refine (shapeCast_apply _ shapeCasts_S1x1024x1024_S1024x1024 (ix2 j k) (ix3 (0 : Fin 1) j k) ?_).trans ?_
  · rewrite [Shape.rowMajor_val_three, Shape.rowMajor_val_two]
    show (0 * 1024 + j.val) * 1024 + k.val = j.val * 1024 + k.val
    omega
  · exact extractStridedSlice_apply ![l, 0, 0] W (slW l hl) (ix3 (0 : Fin 1) j k) (ix3 ⟨l, hl⟩ j k) (fun a => match a with
      | ⟨0, _⟩ => by show l = l + 0; omega
      | ⟨1, _⟩ => by show j.val = 0 + j.val; omega
      | ⟨2, _⟩ => by show k.val = 0 + k.val; omega)

/-- The broadcast bias of layer `l` at `(i, j)` is `b[l][j]`. -/
theorem bB_apply (l : ℕ) (hl : l < 20) (b : FVec Ideal S20x1024 .f32) (i : Fin 4096) (j : Fin 1024) :
    bB l hl b (ix2 i j) = b (ix2 ⟨l, hl⟩ j) := by
  unfold bB
  refine (broadcastInDim_apply _ bcast_S1x1024_S4096x1024_0_1 _ (ix2 i j) (ix2 (0 : Fin 1) j) (fun a => match a with
    | ⟨0, _⟩ => by show 0 = if (1 : Nat) = 1 then 0 else i.val; rw [if_pos rfl]
    | ⟨1, _⟩ => by show j.val = if (1024 : Nat) = 1 then 0 else j.val; rw [if_neg (by decide)])).trans ?_
  refine (broadcastInDim_apply _ bcast_S1024_S1x1024_1 _ (ix2 (0 : Fin 1) j) (ix1 j) (fun a => match a with
    | ⟨0, _⟩ => by show j.val = if (1024 : Nat) = 1 then 0 else j.val; rw [if_neg (by decide)])).trans ?_
  refine (shapeCast_apply _ shapeCasts_S1x1024_S1024 (ix1 j) (ix2 (0 : Fin 1) j) ?_).trans ?_
  · rewrite [Shape.rowMajor_val_two, Shape.rowMajor_val_one]
    show 0 * 1024 + j.val = j.val
    omega
  · exact extractStridedSlice_apply ![l, 0] b (slb l hl) (ix2 (0 : Fin 1) j) (ix2 ⟨l, hl⟩ j) (fun a => match a with
      | ⟨0, _⟩ => by show l = l + 0; omega
      | ⟨1, _⟩ => by show j.val = 0 + j.val; omega)

theorem lhs_0 (i : S4096x1024.Idx) (q : dot_S4096x1024_S1024x1024_S4096x1024_1_0_0_1_n_n.contr.Idx) : (dot_S4096x1024_S1024x1024_S4096x1024_1_0_0_1_n_n.lhsIdx i q 0).val = (i 0).val := by
  unfold DotDims.lhsIdx
  rw [dif_neg (show ¬(0 : Fin S4096x1024.rank) ∈ dot_S4096x1024_S1024x1024_S4096x1024_1_0_0_1_n_n.lhsBatch by decide),
    dif_pos (show (0 : Fin S4096x1024.rank) ∈ dot_S4096x1024_S1024x1024_S4096x1024_1_0_0_1_n_n.lhsNonContracting by decide)]
  rfl
theorem lhs_1 (i : S4096x1024.Idx) (q : dot_S4096x1024_S1024x1024_S4096x1024_1_0_0_1_n_n.contr.Idx) : (dot_S4096x1024_S1024x1024_S4096x1024_1_0_0_1_n_n.lhsIdx i q 1).val = (q ⟨0, by decide⟩).val :=
  dot_S4096x1024_S1024x1024_S4096x1024_1_0_0_1_n_n.lhsIdx_val_of_single rfl i q
theorem rhs_0 (i : S4096x1024.Idx) (q : dot_S4096x1024_S1024x1024_S4096x1024_1_0_0_1_n_n.contr.Idx) : (dot_S4096x1024_S1024x1024_S4096x1024_1_0_0_1_n_n.rhsIdx i q 0).val = (q ⟨0, by decide⟩).val :=
  dot_S4096x1024_S1024x1024_S4096x1024_1_0_0_1_n_n.rhsIdx_val_of_single rfl i q
theorem rhs_1 (i : S4096x1024.Idx) (q : dot_S4096x1024_S1024x1024_S4096x1024_1_0_0_1_n_n.contr.Idx) : (dot_S4096x1024_S1024x1024_S4096x1024_1_0_0_1_n_n.rhsIdx i q 1).val = (i 1).val := by
  unfold DotDims.rhsIdx
  rw [dif_neg (show ¬(1 : Fin S1024x1024.rank) ∈ dot_S4096x1024_S1024x1024_S4096x1024_1_0_0_1_n_n.rhsBatch by decide),
    dif_pos (show (1 : Fin S1024x1024.rank) ∈ dot_S4096x1024_S1024x1024_S4096x1024_1_0_0_1_n_n.rhsNonContracting by decide)]
  rfl

/-- The contraction at `(i, j)` is the sum over the shared axis. -/
theorem dot_apply (h : FVec Ideal S4096x1024 .f32) (T : FVec Ideal S1024x1024 .f32) (i : Fin 4096) (j : Fin 1024) :
    Host.dotGeneral dot_S4096x1024_S1024x1024_S4096x1024_1_0_0_1_n_n none h T (ix2 i j) = ∑ k : Fin 1024, h (ix2 i k) * T (ix2 k j) := by
  simp only [Host.dotGeneral]
  rw [Ideal.dotGeneral_apply, ← Equiv.sum_comp (contrEquiv1 dot_S4096x1024_S1024x1024_S4096x1024_1_0_0_1_n_n 1024 rfl rfl).symm]
  refine Finset.sum_congr rfl fun k _ => ?_
  have hk := contrEquiv1_symm_val dot_S4096x1024_S1024x1024_S4096x1024_1_0_0_1_n_n 1024 rfl rfl k
  have el : dot_S4096x1024_S1024x1024_S4096x1024_1_0_0_1_n_n.lhsIdx (ix2 i j) ((contrEquiv1 dot_S4096x1024_S1024x1024_S4096x1024_1_0_0_1_n_n 1024 rfl rfl).symm k) = ix2 i k := funext fun a => Fin.ext (by
    match a with
    | ⟨0, _⟩ => exact lhs_0 _ _
    | ⟨1, _⟩ => exact (lhs_1 _ _).trans hk)
  have er : dot_S4096x1024_S1024x1024_S4096x1024_1_0_0_1_n_n.rhsIdx (ix2 i j) ((contrEquiv1 dot_S4096x1024_S1024x1024_S4096x1024_1_0_0_1_n_n 1024 rfl rfl).symm k) = ix2 k j := funext fun a => Fin.ext (by
    match a with
    | ⟨0, _⟩ => exact (rhs_0 _ _).trans hk
    | ⟨1, _⟩ => exact rhs_1 _ _)
  rw [el, er]

/-- One layer of the reference at an index is the layer of the recurrence. -/
theorem layerV_apply (l : ℕ) (hl : l < 20) (W : FVec Ideal S20x1024x1024 .f32) (b : FVec Ideal S20x1024 .f32)
    (h : FVec Ideal S4096x1024 .f32) (i : Fin 4096) (j : Fin 1024) :
    layerV l hl W b h (ix2 i j) = Cert.Chain.layer (Cert.Arr.Wf W l) (Cert.Arr.bf b l) (fun i k => h (ix2 i k)) i j := by
  show addf (Host.dotGeneral dot_S4096x1024_S1024x1024_S4096x1024_1_0_0_1_n_n none h (wT l hl W)) (bB l hl b) (ix2 i j)
      = (∑ k : Fin 1024, h (ix2 i k) * (if hh : l < 20 then W (ix3 ⟨l, hh⟩ j k) else 0))
        + (if hh : l < 20 then b (ix2 ⟨l, hh⟩ j) else 0)
  rw [addf_apply, dot_apply, bB_apply, dif_pos hl]
  refine congrArg (· + _) (Finset.sum_congr rfl fun k _ => ?_)
  rw [wT_apply, dif_pos hl]

/-- `n` layers of the reference at an index are `n` steps of the recurrence. -/
theorem resL_apply (x : FVec Ideal S4096x1024 .f32) (W : FVec Ideal S20x1024x1024 .f32) (b : FVec Ideal S20x1024 .f32) :
    ∀ (n : ℕ) (hn : n ≤ 20) (i : Fin 4096) (j : Fin 1024),
      resL x W b n hn (ix2 i j) = Cert.Chain.chain (Cert.Arr.Wf W) (Cert.Arr.bf b) (Cert.Arr.xf x) n i j
  | 0, _, i, j => rfl
  | n + 1, hn, i, j => by
    have ih : (fun i k => resL x W b n (by omega) (ix2 i k)) = Cert.Chain.chain (Cert.Arr.Wf W) (Cert.Arr.bf b) (Cert.Arr.xf x) n :=
      funext fun i => funext fun k => resL_apply x W b n (by omega) i k
    show layerV n (by omega) W b (resL x W b n (by omega)) (ix2 i j) = Cert.Chain.layer _ _ (Cert.Chain.chain _ _ _ n) i j
    rw [layerV_apply, ih]

/-- All twenty layers: the array both programs are shown to end with. -/
theorem resL_twenty (x : FVec Ideal S4096x1024 .f32) (W : FVec Ideal S20x1024x1024 .f32) (b : FVec Ideal S20x1024 .f32) :
    resL x W b 20 le_rfl = Cert.Arr.chainArr x W b := by
  funext idx
  rw [eq_ix2 idx]
  exact resL_apply x W b 20 le_rfl _ _

end Cert.RefRun

end
-- ==== Proof.Ref.Ops.lean ====
/- A table of cases: layers 0 … 19 of the reference, each as the literal list of its nine host operations, with what the
   list leaves in the layer's result buffer (`layerV` of the arguments and the previous layer's result) and in the argument
   buffers (what was there). The statements differ only in names and numbers. -/
import proofs.«135073_g15564961481514_cont_week2b_1535_21_alg».proof.Proof.Ref.Layer

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0's nine operations, in order. -/
abbrev ops_0 : List (HloOp τ sig (Elt F)) :=
  [ unary main_arg1 main_v0 ((extractStridedSlice S1x1024x1024 ![0, 0, 0] · slices_S20x1024x1024_S1x1024x1024_0_0_0) : (⟨S20x1024x1024, .f32⟩ : BufTy).Contents (Elt F) → (⟨S1x1024x1024, .f32⟩ : BufTy).Contents (Elt F)),
    reshape main_v0 main_v1 rfl shapeCasts_S1x1024x1024_S1024x1024,
    unary main_v1 main_v2 ((transpose S1024x1024 [1, 0] · transposes_S1024x1024_S1024x1024_1_0) : (⟨S1024x1024, .f32⟩ : BufTy).Contents (Elt F) → (⟨S1024x1024, .f32⟩ : BufTy).Contents (Elt F)),
    binary main_arg0 main_v2 main_v3 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v4 ((extractStridedSlice S1x1024 ![0, 0] · slices_S20x1024_S1x1024_0_0) : (⟨S20x1024, .f32⟩ : BufTy).Contents (Elt F) → (⟨S1x1024, .f32⟩ : BufTy).Contents (Elt F)),
    reshape main_v4 main_v5 rfl shapeCasts_S1x1024_S1024,
    unary main_v5 main_v6 (broadcastInDim S1x1024 ![1] bcast_S1024_S1x1024_1 : (⟨S1024, .f32⟩ : BufTy).Contents (Elt F) → (⟨S1x1024, .f32⟩ : BufTy).Contents (Elt F)),
    unary main_v6 main_v7 (broadcastInDim S4096x1024 ![0, 1] bcast_S1x1024_S4096x1024_0_1 : (⟨S1x1024, .f32⟩ : BufTy).Contents (Elt F) → (⟨S4096x1024, .f32⟩ : BufTy).Contents (Elt F)),
    binary main_v3 main_v7 main_v8 (addf : (⟨S4096x1024, .f32⟩ : BufTy).Contents (Elt F) → (⟨S4096x1024, .f32⟩ : BufTy).Contents (Elt F) → (⟨S4096x1024, .f32⟩ : BufTy).Contents (Elt F)) ]
theorem ops_0_sub : (ops_0 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_0_fresh : ∀ op ∈ (ops_0 : List (HloOp τ sig (Elt F))), op.fresh = ∅ := by
  intro _ h; (repeat (cases h with | head => rfl | tail _ h => ?_)); exact nomatch h
theorem ops_0_out (V : Valuation τ sig (Elt F)) :
    after ops_0 V (Proc.devRef .tc main_v8) = layerV 0 (by decide) (V (Proc.devRef .tc main_arg1)) (V (Proc.devRef .tc main_arg2)) (V (Proc.devRef .tc main_arg0)) := by
  after_results; rfl
theorem ops_0_arg0 (V : Valuation τ sig (Elt F)) : after ops_0 V (Proc.devRef .tc main_arg0) = V (Proc.devRef .tc main_arg0) := by after_results
theorem ops_0_arg1 (V : Valuation τ sig (Elt F)) : after ops_0 V (Proc.devRef .tc main_arg1) = V (Proc.devRef .tc main_arg1) := by after_results
theorem ops_0_arg2 (V : Valuation τ sig (Elt F)) : after ops_0 V (Proc.devRef .tc main_arg2) = V (Proc.devRef .tc main_arg2) := by after_results
/-- After layer 0: the arguments as they were, the layer's result the first 1 layers of the rows. -/
theorem ops_0_step {x : FVec F S4096x1024 .f32} {W : FVec F S20x1024x1024 .f32} {b : FVec F S20x1024 .f32} {V : Valuation τ sig (Elt F)}
    (hA : Args x W b V) (hin : V (Proc.devRef .tc main_arg0) = resL x W b 0 (by decide)) :
    Args x W b (after ops_0 V) ∧ after ops_0 V (Proc.devRef .tc main_v8) = resL x W b 1 (by decide) :=
  ⟨⟨(ops_0_arg0 V).trans hA.a0, (ops_0_arg1 V).trans hA.a1, (ops_0_arg2 V).trans hA.a2⟩,
    by rw [ops_0_out, hA.a1, hA.a2, hin]; rfl⟩

/-- Layer 1's nine operations, in order. -/
abbrev ops_1 : List (HloOp τ sig (Elt F)) :=
  [ unary main_arg1 main_v9 ((extractStridedSlice S1x1024x1024 ![1, 0, 0] · slices_S20x1024x1024_S1x1024x1024_1_0_0) : (⟨S20x1024x1024, .f32⟩ : BufTy).Contents (Elt F) → (⟨S1x1024x1024, .f32⟩ : BufTy).Contents (Elt F)),
    reshape main_v9 main_v10 rfl shapeCasts_S1x1024x1024_S1024x1024,
    unary main_v10 main_v11 ((transpose S1024x1024 [1, 0] · transposes_S1024x1024_S1024x1024_1_0) : (⟨S1024x1024, .f32⟩ : BufTy).Contents (Elt F) → (⟨S1024x1024, .f32⟩ : BufTy).Contents (Elt F)),
    binary main_v8 main_v11 main_v12 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v13 ((extractStridedSlice S1x1024 ![1, 0] · slices_S20x1024_S1x1024_1_0) : (⟨S20x1024, .f32⟩ : BufTy).Contents (Elt F) → (⟨S1x1024, .f32⟩ : BufTy).Contents (Elt F)),
    reshape main_v13 main_v14 rfl shapeCasts_S1x1024_S1024,
    unary main_v14 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S4096x1024 ![0, 1] bcast_S1x1024_S4096x1024_0_1 : (⟨S1x1024, .f32⟩ : BufTy).Contents (Elt F) → (⟨S4096x1024, .f32⟩ : BufTy).Contents (Elt F)),
    binary main_v12 main_v16 main_v17 (addf : (⟨S4096x1024, .f32⟩ : BufTy).Contents (Elt F) → (⟨S4096x1024, .f32⟩ : BufTy).Contents (Elt F) → (⟨S4096x1024, .f32⟩ : BufTy).Contents (Elt F)) ]
theorem ops_1_sub : (ops_1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_1_fresh : ∀ op ∈ (ops_1 : List (HloOp τ sig (Elt F))), op.fresh = ∅ := by
  intro _ h; (repeat (cases h with | head => rfl | tail _ h => ?_)); exact nomatch h
theorem ops_1_out (V : Valuation τ sig (Elt F)) :
    after ops_1 V (Proc.devRef .tc main_v17) = layerV 1 (by decide) (V (Proc.devRef .tc main_arg1)) (V (Proc.devRef .tc main_arg2)) (V (Proc.devRef .tc main_v8)) := by
  after_results; rfl
theorem ops_1_arg0 (V : Valuation τ sig (Elt F)) : after ops_1 V (Proc.devRef .tc main_arg0) = V (Proc.devRef .tc main_arg0) := by after_results
theorem ops_1_arg1 (V : Valuation τ sig (Elt F)) : after ops_1 V (Proc.devRef .tc main_arg1) = V (Proc.devRef .tc main_arg1) := by after_results
theorem ops_1_arg2 (V : Valuation τ sig (Elt F)) : after ops_1 V (Proc.devRef .tc main_arg2) = V (Proc.devRef .tc main_arg2) := by after_results
/-- After layer 1: the arguments as they were, the layer's result the first 2 layers of the rows. -/
theorem ops_1_step {x : FVec F S4096x1024 .f32} {W : FVec F S20x1024x1024 .f32} {b : FVec F S20x1024 .f32} {V : Valuation τ sig (Elt F)}
    (hA : Args x W b V) (hin : V (Proc.devRef .tc main_v8) = resL x W b 1 (by decide)) :
    Args x W b (after ops_1 V) ∧ after ops_1 V (Proc.devRef .tc main_v17) = resL x W b 2 (by decide) :=
  ⟨⟨(ops_1_arg0 V).trans hA.a0, (ops_1_arg1 V).trans hA.a1, (ops_1_arg2 V).trans hA.a2⟩,
    by rw [ops_1_out, hA.a1, hA.a2, hin]; rfl⟩

/-- Layer 2's nine operations, in order. -/
abbrev ops_2 : List (HloOp τ sig (Elt F)) :=
  [ unary main_arg1 main_v18 ((extractStridedSlice S1x1024x1024 ![2, 0, 0] · slices_S20x1024x1024_S1x1024x1024_2_0_0) : (⟨S20x1024x1024, .f32⟩ : BufTy).Contents (Elt F) → (⟨S1x1024x1024, .f32⟩ : BufTy).Contents (Elt F)),
    reshape main_v18 main_v19 rfl shapeCasts_S1x1024x1024_S1024x1024,
    unary main_v19 main_v20 ((transpose S1024x1024 [1, 0] · transposes_S1024x1024_S1024x1024_1_0) : (⟨S1024x1024, .f32⟩ : BufTy).Contents (Elt F) → (⟨S1024x1024, .f32⟩ : BufTy).Contents (Elt F)),
    binary main_v17 main_v20 main_v21 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v22 ((extractStridedSlice S1x1024 ![2, 0] · slices_S20x1024_S1x1024_2_0) : (⟨S20x1024, .f32⟩ : BufTy).Contents (Elt F) → (⟨S1x1024, .f32⟩ : BufTy).Contents (Elt F)),
    reshape main_v22 main_v23 rfl shapeCasts_S1x1024_S1024,
    unary main_v23 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S4096x1024 ![0, 1] bcast_S1x1024_S4096x1024_0_1 : (⟨S1x1024, .f32⟩ : BufTy).Contents (Elt F) → (⟨S4096x1024, .f32⟩ : BufTy).Contents (Elt F)),
    binary main_v21 main_v25 main_v26 (addf : (⟨S4096x1024, .f32⟩ : BufTy).Contents (Elt F) → (⟨S4096x1024, .f32⟩ : BufTy).Contents (Elt F) → (⟨S4096x1024, .f32⟩ : BufTy).Contents (Elt F)) ]
theorem ops_2_sub : (ops_2 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_2_fresh : ∀ op ∈ (ops_2 : List (HloOp τ sig (Elt F))), op.fresh = ∅ := by
  intro _ h; (repeat (cases h with | head => rfl | tail _ h => ?_)); exact nomatch h
theorem ops_2_out (V : Valuation τ sig (Elt F)) :
    after ops_2 V (Proc.devRef .tc main_v26) = layerV 2 (by decide) (V (Proc.devRef .tc main_arg1)) (V (Proc.devRef .tc main_arg2)) (V (Proc.devRef .tc main_v17)) := by
  after_results; rfl
theorem ops_2_arg0 (V : Valuation τ sig (Elt F)) : after ops_2 V (Proc.devRef .tc main_arg0) = V (Proc.devRef .tc main_arg0) := by after_results
theorem ops_2_arg1 (V : Valuation τ sig (Elt F)) : after ops_2 V (Proc.devRef .tc main_arg1) = V (Proc.devRef .tc main_arg1) := by after_results
theorem ops_2_arg2 (V : Valuation τ sig (Elt F)) : after ops_2 V (Proc.devRef .tc main_arg2) = V (Proc.devRef .tc main_arg2) := by after_results
/-- After layer 2: the arguments as they were, the layer's result the first 3 layers of the rows. -/
theorem ops_2_step {x : FVec F S4096x1024 .f32} {W : FVec F S20x1024x1024 .f32} {b : FVec F S20x1024 .f32} {V : Valuation τ sig (Elt F)}
    (hA : Args x W b V) (hin : V (Proc.devRef .tc main_v17) = resL x W b 2 (by decide)) :
    Args x W b (after ops_2 V) ∧ after ops_2 V (Proc.devRef .tc main_v26) = resL x W b 3 (by decide) :=
  ⟨⟨(ops_2_arg0 V).trans hA.a0, (ops_2_arg1 V).trans hA.a1, (ops_2_arg2 V).trans hA.a2⟩,
    by rw [ops_2_out, hA.a1, hA.a2, hin]; rfl⟩

/-- Layer 3's nine operations, in order. -/
abbrev ops_3 : List (HloOp τ sig (Elt F)) :=
  [ unary main_arg1 main_v27 ((extractStridedSlice S1x1024x1024 ![3, 0, 0] · slices_S20x1024x1024_S1x1024x1024_3_0_0) : (⟨S20x1024x1024, .f32⟩ : BufTy).Contents (Elt F) → (⟨S1x1024x1024, .f32⟩ : BufTy).Contents (Elt F)),
    reshape main_v27 main_v28 rfl shapeCasts_S1x1024x1024_S1024x1024,
    unary main_v28 main_v29 ((transpose S1024x1024 [1, 0] · transposes_S1024x1024_S1024x1024_1_0) : (⟨S1024x1024, .f32⟩ : BufTy).Contents (Elt F) → (⟨S1024x1024, .f32⟩ : BufTy).Contents (Elt F)),
    binary main_v26 main_v29 main_v30 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v31 ((extractStridedSlice S1x1024 ![3, 0] · slices_S20x1024_S1x1024_3_0) : (⟨S20x1024, .f32⟩ : BufTy).Contents (Elt F) → (⟨S1x1024, .f32⟩ : BufTy).Contents (Elt F)),
    reshape main_v31 main_v32 rfl shapeCasts_S1x1024_S1024,
    unary main_v32 main_v33 (broadcastInDim S1x1024 ![1] bcast_S1024_S1x1024_1 : (⟨S1024, .f32⟩ : BufTy).Contents (Elt F) → (⟨S1x1024, .f32⟩ : BufTy).Contents (Elt F)),
    unary main_v33 main_v34 (broadcastInDim S4096x1024 ![0, 1] bcast_S1x1024_S4096x1024_0_1 : (⟨S1x1024, .f32⟩ : BufTy).Contents (Elt F) → (⟨S4096x1024, .f32⟩ : BufTy).Contents (Elt F)),
    binary main_v30 main_v34 main_v35 (addf : (⟨S4096x1024, .f32⟩ : BufTy).Contents (Elt F) → (⟨S4096x1024, .f32⟩ : BufTy).Contents (Elt F) → (⟨S4096x1024, .f32⟩ : BufTy).Contents (Elt F)) ]
theorem ops_3_sub : (ops_3 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_3_fresh : ∀ op ∈ (ops_3 : List (HloOp τ sig (Elt F))), op.fresh = ∅ := by
  intro _ h; (repeat (cases h with | head => rfl | tail _ h => ?_)); exact nomatch h
theorem ops_3_out (V : Valuation τ sig (Elt F)) :
    after ops_3 V (Proc.devRef .tc main_v35) = layerV 3 (by decide) (V (Proc.devRef .tc main_arg1)) (V (Proc.devRef .tc main_arg2)) (V (Proc.devRef .tc main_v26)) := by
  after_results; rfl
theorem ops_3_arg0 (V : Valuation τ sig (Elt F)) : after ops_3 V (Proc.devRef .tc main_arg0) = V (Proc.devRef .tc main_arg0) := by after_results
theorem ops_3_arg1 (V : Valuation τ sig (Elt F)) : after ops_3 V (Proc.devRef .tc main_arg1) = V (Proc.devRef .tc main_arg1) := by after_results
theorem ops_3_arg2 (V : Valuation τ sig (Elt F)) : after ops_3 V (Proc.devRef .tc main_arg2) = V (Proc.devRef .tc main_arg2) := by after_results
/-- After layer 3: the arguments as they were, the layer's result the first 4 layers of the rows. -/
theorem ops_3_step {x : FVec F S4096x1024 .f32} {W : FVec F S20x1024x1024 .f32} {b : FVec F S20x1024 .f32} {V : Valuation τ sig (Elt F)}
    (hA : Args x W b V) (hin : V (Proc.devRef .tc main_v26) = resL x W b 3 (by decide)) :
    Args x W b (after ops_3 V) ∧ after ops_3 V (Proc.devRef .tc main_v35) = resL x W b 4 (by decide) :=
  ⟨⟨(ops_3_arg0 V).trans hA.a0, (ops_3_arg1 V).trans hA.a1, (ops_3_arg2 V).trans hA.a2⟩,
    by rw [ops_3_out, hA.a1, hA.a2, hin]; rfl⟩

/-- Layer 4's nine operations, in order. -/
abbrev ops_4 : List (HloOp τ sig (Elt F)) :=
  [ unary main_arg1 main_v36 ((extractStridedSlice S1x1024x1024 ![4, 0, 0] · slices_S20x1024x1024_S1x1024x1024_4_0_0) : (⟨S20x1024x1024, .f32⟩ : BufTy).Contents (Elt F) → (⟨S1x1024x1024, .f32⟩ : BufTy).Contents (Elt F)),
    reshape main_v36 main_v37 rfl shapeCasts_S1x1024x1024_S1024x1024,
    unary main_v37 main_v38 ((transpose S1024x1024 [1, 0] · transposes_S1024x1024_S1024x1024_1_0) : (⟨S1024x1024, .f32⟩ : BufTy).Contents (Elt F) → (⟨S1024x1024, .f32⟩ : BufTy).Contents (Elt F)),
    binary main_v35 main_v38 main_v39 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v40 ((extractStridedSlice S1x1024 ![4, 0] · slices_S20x1024_S1x1024_4_0) : (⟨S20x1024, .f32⟩ : BufTy).Contents (Elt F) → (⟨S1x1024, .f32⟩ : BufTy).Contents (Elt F)),
    reshape main_v40 main_v41 rfl shapeCasts_S1x1024_S1024,
    unary main_v41 main_v42 (broadcastInDim S1x1024 ![1] bcast_S1024_S1x1024_1 : (⟨S1024, .f32⟩ : BufTy).Contents (Elt F) → (⟨S1x1024, .f32⟩ : BufTy).Contents (Elt F)),
    unary main_v42 main_v43 (broadcastInDim S4096x1024 ![0, 1] bcast_S1x1024_S4096x1024_0_1 : (⟨S1x1024, .f32⟩ : BufTy).Contents (Elt F) → (⟨S4096x1024, .f32⟩ : BufTy).Contents (Elt F)),
    binary main_v39 main_v43 main_v44 (addf : (⟨S4096x1024, .f32⟩ : BufTy).Contents (Elt F) → (⟨S4096x1024, .f32⟩ : BufTy).Contents (Elt F) → (⟨S4096x1024, .f32⟩ : BufTy).Contents (Elt F)) ]
theorem ops_4_sub : (ops_4 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_4_fresh : ∀ op ∈ (ops_4 : List (HloOp τ sig (Elt F))), op.fresh = ∅ := by
  intro _ h; (repeat (cases h with | head => rfl | tail _ h => ?_)); exact nomatch h
theorem ops_4_out (V : Valuation τ sig (Elt F)) :
    after ops_4 V (Proc.devRef .tc main_v44) = layerV 4 (by decide) (V (Proc.devRef .tc main_arg1)) (V (Proc.devRef .tc main_arg2)) (V (Proc.devRef .tc main_v35)) := by
  after_results; rfl
theorem ops_4_arg0 (V : Valuation τ sig (Elt F)) : after ops_4 V (Proc.devRef .tc main_arg0) = V (Proc.devRef .tc main_arg0) := by after_results
theorem ops_4_arg1 (V : Valuation τ sig (Elt F)) : after ops_4 V (Proc.devRef .tc main_arg1) = V (Proc.devRef .tc main_arg1) := by after_results
theorem ops_4_arg2 (V : Valuation τ sig (Elt F)) : after ops_4 V (Proc.devRef .tc main_arg2) = V (Proc.devRef .tc main_arg2) := by after_results
/-- After layer 4: the arguments as they were, the layer's result the first 5 layers of the rows. -/
theorem ops_4_step {x : FVec F S4096x1024 .f32} {W : FVec F S20x1024x1024 .f32} {b : FVec F S20x1024 .f32} {V : Valuation τ sig (Elt F)}
    (hA : Args x W b V) (hin : V (Proc.devRef .tc main_v35) = resL x W b 4 (by decide)) :
    Args x W b (after ops_4 V) ∧ after ops_4 V (Proc.devRef .tc main_v44) = resL x W b 5 (by decide) :=
  ⟨⟨(ops_4_arg0 V).trans hA.a0, (ops_4_arg1 V).trans hA.a1, (ops_4_arg2 V).trans hA.a2⟩,
    by rw [ops_4_out, hA.a1, hA.a2, hin]; rfl⟩

/-- Layer 5's nine operations, in order. -/
abbrev ops_5 : List (HloOp τ sig (Elt F)) :=
  [ unary main_arg1 main_v45 ((extractStridedSlice S1x1024x1024 ![5, 0, 0] · slices_S20x1024x1024_S1x1024x1024_5_0_0) : (⟨S20x1024x1024, .f32⟩ : BufTy).Contents (Elt F) → (⟨S1x1024x1024, .f32⟩ : BufTy).Contents (Elt F)),
    reshape main_v45 main_v46 rfl shapeCasts_S1x1024x1024_S1024x1024,
    unary main_v46 main_v47 ((transpose S1024x1024 [1, 0] · transposes_S1024x1024_S1024x1024_1_0) : (⟨S1024x1024, .f32⟩ : BufTy).Contents (Elt F) → (⟨S1024x1024, .f32⟩ : BufTy).Contents (Elt F)),
    binary main_v44 main_v47 main_v48 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v49 ((extractStridedSlice S1x1024 ![5, 0] · slices_S20x1024_S1x1024_5_0) : (⟨S20x1024, .f32⟩ : BufTy).Contents (Elt F) → (⟨S1x1024, .f32⟩ : BufTy).Contents (Elt F)),
    reshape main_v49 main_v50 rfl shapeCasts_S1x1024_S1024,
    unary main_v50 main_v51 (broadcastInDim S1x1024 ![1] bcast_S1024_S1x1024_1 : (⟨S1024, .f32⟩ : BufTy).Contents (Elt F) → (⟨S1x1024, .f32⟩ : BufTy).Contents (Elt F)),
    unary main_v51 main_v52 (broadcastInDim S4096x1024 ![0, 1] bcast_S1x1024_S4096x1024_0_1 : (⟨S1x1024, .f32⟩ : BufTy).Contents (Elt F) → (⟨S4096x1024, .f32⟩ : BufTy).Contents (Elt F)),
    binary main_v48 main_v52 main_v53 (addf : (⟨S4096x1024, .f32⟩ : BufTy).Contents (Elt F) → (⟨S4096x1024, .f32⟩ : BufTy).Contents (Elt F) → (⟨S4096x1024, .f32⟩ : BufTy).Contents (Elt F)) ]
theorem ops_5_sub : (ops_5 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_5_fresh : ∀ op ∈ (ops_5 : List (HloOp τ sig (Elt F))), op.fresh = ∅ := by
  intro _ h; (repeat (cases h with | head => rfl | tail _ h => ?_)); exact nomatch h
theorem ops_5_out (V : Valuation τ sig (Elt F)) :
    after ops_5 V (Proc.devRef .tc main_v53) = layerV 5 (by decide) (V (Proc.devRef .tc main_arg1)) (V (Proc.devRef .tc main_arg2)) (V (Proc.devRef .tc main_v44)) := by
  after_results; rfl
theorem ops_5_arg0 (V : Valuation τ sig (Elt F)) : after ops_5 V (Proc.devRef .tc main_arg0) = V (Proc.devRef .tc main_arg0) := by after_results
theorem ops_5_arg1 (V : Valuation τ sig (Elt F)) : after ops_5 V (Proc.devRef .tc main_arg1) = V (Proc.devRef .tc main_arg1) := by after_results
theorem ops_5_arg2 (V : Valuation τ sig (Elt F)) : after ops_5 V (Proc.devRef .tc main_arg2) = V (Proc.devRef .tc main_arg2) := by after_results
/-- After layer 5: the arguments as they were, the layer's result the first 6 layers of the rows. -/
theorem ops_5_step {x : FVec F S4096x1024 .f32} {W : FVec F S20x1024x1024 .f32} {b : FVec F S20x1024 .f32} {V : Valuation τ sig (Elt F)}
    (hA : Args x W b V) (hin : V (Proc.devRef .tc main_v44) = resL x W b 5 (by decide)) :
    Args x W b (after ops_5 V) ∧ after ops_5 V (Proc.devRef .tc main_v53) = resL x W b 6 (by decide) :=
  ⟨⟨(ops_5_arg0 V).trans hA.a0, (ops_5_arg1 V).trans hA.a1, (ops_5_arg2 V).trans hA.a2⟩,
    by rw [ops_5_out, hA.a1, hA.a2, hin]; rfl⟩

/-- Layer 6's nine operations, in order. -/
abbrev ops_6 : List (HloOp τ sig (Elt F)) :=
  [ unary main_arg1 main_v54 ((extractStridedSlice S1x1024x1024 ![6, 0, 0] · slices_S20x1024x1024_S1x1024x1024_6_0_0) : (⟨S20x1024x1024, .f32⟩ : BufTy).Contents (Elt F) → (⟨S1x1024x1024, .f32⟩ : BufTy).Contents (Elt F)),
    reshape main_v54 main_v55 rfl shapeCasts_S1x1024x1024_S1024x1024,
    unary main_v55 main_v56 ((transpose S1024x1024 [1, 0] · transposes_S1024x1024_S1024x1024_1_0) : (⟨S1024x1024, .f32⟩ : BufTy).Contents (Elt F) → (⟨S1024x1024, .f32⟩ : BufTy).Contents (Elt F)),
    binary main_v53 main_v56 main_v57 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v58 ((extractStridedSlice S1x1024 ![6, 0] · slices_S20x1024_S1x1024_6_0) : (⟨S20x1024, .f32⟩ : BufTy).Contents (Elt F) → (⟨S1x1024, .f32⟩ : BufTy).Contents (Elt F)),
    reshape main_v58 main_v59 rfl shapeCasts_S1x1024_S1024,
    unary main_v59 main_v60 (broadcastInDim S1x1024 ![1] bcast_S1024_S1x1024_1 : (⟨S1024, .f32⟩ : BufTy).Contents (Elt F) → (⟨S1x1024, .f32⟩ : BufTy).Contents (Elt F)),
    unary main_v60 main_v61 (broadcastInDim S4096x1024 ![0, 1] bcast_S1x1024_S4096x1024_0_1 : (⟨S1x1024, .f32⟩ : BufTy).Contents (Elt F) → (⟨S4096x1024, .f32⟩ : BufTy).Contents (Elt F)),
    binary main_v57 main_v61 main_v62 (addf : (⟨S4096x1024, .f32⟩ : BufTy).Contents (Elt F) → (⟨S4096x1024, .f32⟩ : BufTy).Contents (Elt F) → (⟨S4096x1024, .f32⟩ : BufTy).Contents (Elt F)) ]
theorem ops_6_sub : (ops_6 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_6_fresh : ∀ op ∈ (ops_6 : List (HloOp τ sig (Elt F))), op.fresh = ∅ := by
  intro _ h; (repeat (cases h with | head => rfl | tail _ h => ?_)); exact nomatch h
theorem ops_6_out (V : Valuation τ sig (Elt F)) :
    after ops_6 V (Proc.devRef .tc main_v62) = layerV 6 (by decide) (V (Proc.devRef .tc main_arg1)) (V (Proc.devRef .tc main_arg2)) (V (Proc.devRef .tc main_v53)) := by
  after_results; rfl
theorem ops_6_arg0 (V : Valuation τ sig (Elt F)) : after ops_6 V (Proc.devRef .tc main_arg0) = V (Proc.devRef .tc main_arg0) := by after_results
theorem ops_6_arg1 (V : Valuation τ sig (Elt F)) : after ops_6 V (Proc.devRef .tc main_arg1) = V (Proc.devRef .tc main_arg1) := by after_results
theorem ops_6_arg2 (V : Valuation τ sig (Elt F)) : after ops_6 V (Proc.devRef .tc main_arg2) = V (Proc.devRef .tc main_arg2) := by after_results
/-- After layer 6: the arguments as they were, the layer's result the first 7 layers of the rows. -/
theorem ops_6_step {x : FVec F S4096x1024 .f32} {W : FVec F S20x1024x1024 .f32} {b : FVec F S20x1024 .f32} {V : Valuation τ sig (Elt F)}
    (hA : Args x W b V) (hin : V (Proc.devRef .tc main_v53) = resL x W b 6 (by decide)) :
    Args x W b (after ops_6 V) ∧ after ops_6 V (Proc.devRef .tc main_v62) = resL x W b 7 (by decide) :=
  ⟨⟨(ops_6_arg0 V).trans hA.a0, (ops_6_arg1 V).trans hA.a1, (ops_6_arg2 V).trans hA.a2⟩,
    by rw [ops_6_out, hA.a1, hA.a2, hin]; rfl⟩

/-- Layer 7's nine operations, in order. -/
abbrev ops_7 : List (HloOp τ sig (Elt F)) :=
  [ unary main_arg1 main_v63 ((extractStridedSlice S1x1024x1024 ![7, 0, 0] · slices_S20x1024x1024_S1x1024x1024_7_0_0) : (⟨S20x1024x1024, .f32⟩ : BufTy).Contents (Elt F) → (⟨S1x1024x1024, .f32⟩ : BufTy).Contents (Elt F)),
    reshape main_v63 main_v64 rfl shapeCasts_S1x1024x1024_S1024x1024,
    unary main_v64 main_v65 ((transpose S1024x1024 [1, 0] · transposes_S1024x1024_S1024x1024_1_0) : (⟨S1024x1024, .f32⟩ : BufTy).Contents (Elt F) → (⟨S1024x1024, .f32⟩ : BufTy).Contents (Elt F)),
    binary main_v62 main_v65 main_v66 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v67 ((extractStridedSlice S1x1024 ![7, 0] · slices_S20x1024_S1x1024_7_0) : (⟨S20x1024, .f32⟩ : BufTy).Contents (Elt F) → (⟨S1x1024, .f32⟩ : BufTy).Contents (Elt F)),
    reshape main_v67 main_v68 rfl shapeCasts_S1x1024_S1024,
    unary main_v68 main_v69 (broadcastInDim S1x1024 ![1] bcast_S1024_S1x1024_1 : (⟨S1024, .f32⟩ : BufTy).Contents (Elt F) → (⟨S1x1024, .f32⟩ : BufTy).Contents (Elt F)),
    unary main_v69 main_v70 (broadcastInDim S4096x1024 ![0, 1] bcast_S1x1024_S4096x1024_0_1 : (⟨S1x1024, .f32⟩ : BufTy).Contents (Elt F) → (⟨S4096x1024, .f32⟩ : BufTy).Contents (Elt F)),
    binary main_v66 main_v70 main_v71 (addf : (⟨S4096x1024, .f32⟩ : BufTy).Contents (Elt F) → (⟨S4096x1024, .f32⟩ : BufTy).Contents (Elt F) → (⟨S4096x1024, .f32⟩ : BufTy).Contents (Elt F)) ]
theorem ops_7_sub : (ops_7 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_7_fresh : ∀ op ∈ (ops_7 : List (HloOp τ sig (Elt F))), op.fresh = ∅ := by
  intro _ h; (repeat (cases h with | head => rfl | tail _ h => ?_)); exact nomatch h
theorem ops_7_out (V : Valuation τ sig (Elt F)) :
    after ops_7 V (Proc.devRef .tc main_v71) = layerV 7 (by decide) (V (Proc.devRef .tc main_arg1)) (V (Proc.devRef .tc main_arg2)) (V (Proc.devRef .tc main_v62)) := by
  after_results; rfl
theorem ops_7_arg0 (V : Valuation τ sig (Elt F)) : after ops_7 V (Proc.devRef .tc main_arg0) = V (Proc.devRef .tc main_arg0) := by after_results
theorem ops_7_arg1 (V : Valuation τ sig (Elt F)) : after ops_7 V (Proc.devRef .tc main_arg1) = V (Proc.devRef .tc main_arg1) := by after_results
theorem ops_7_arg2 (V : Valuation τ sig (Elt F)) : after ops_7 V (Proc.devRef .tc main_arg2) = V (Proc.devRef .tc main_arg2) := by after_results
/-- After layer 7: the arguments as they were, the layer's result the first 8 layers of the rows. -/
theorem ops_7_step {x : FVec F S4096x1024 .f32} {W : FVec F S20x1024x1024 .f32} {b : FVec F S20x1024 .f32} {V : Valuation τ sig (Elt F)}
    (hA : Args x W b V) (hin : V (Proc.devRef .tc main_v62) = resL x W b 7 (by decide)) :
    Args x W b (after ops_7 V) ∧ after ops_7 V (Proc.devRef .tc main_v71) = resL x W b 8 (by decide) :=
  ⟨⟨(ops_7_arg0 V).trans hA.a0, (ops_7_arg1 V).trans hA.a1, (ops_7_arg2 V).trans hA.a2⟩,
    by rw [ops_7_out, hA.a1, hA.a2, hin]; rfl⟩

/-- Layer 8's nine operations, in order. -/
abbrev ops_8 : List (HloOp τ sig (Elt F)) :=
  [ unary main_arg1 main_v72 ((extractStridedSlice S1x1024x1024 ![8, 0, 0] · slices_S20x1024x1024_S1x1024x1024_8_0_0) : (⟨S20x1024x1024, .f32⟩ : BufTy).Contents (Elt F) → (⟨S1x1024x1024, .f32⟩ : BufTy).Contents (Elt F)),
    reshape main_v72 main_v73 rfl shapeCasts_S1x1024x1024_S1024x1024,
    unary main_v73 main_v74 ((transpose S1024x1024 [1, 0] · transposes_S1024x1024_S1024x1024_1_0) : (⟨S1024x1024, .f32⟩ : BufTy).Contents (Elt F) → (⟨S1024x1024, .f32⟩ : BufTy).Contents (Elt F)),
    binary main_v71 main_v74 main_v75 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v76 ((extractStridedSlice S1x1024 ![8, 0] · slices_S20x1024_S1x1024_8_0) : (⟨S20x1024, .f32⟩ : BufTy).Contents (Elt F) → (⟨S1x1024, .f32⟩ : BufTy).Contents (Elt F)),
    reshape main_v76 main_v77 rfl shapeCasts_S1x1024_S1024,
    unary main_v77 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S4096x1024 ![0, 1] bcast_S1x1024_S4096x1024_0_1 : (⟨S1x1024, .f32⟩ : BufTy).Contents (Elt F) → (⟨S4096x1024, .f32⟩ : BufTy).Contents (Elt F)),
    binary main_v75 main_v79 main_v80 (addf : (⟨S4096x1024, .f32⟩ : BufTy).Contents (Elt F) → (⟨S4096x1024, .f32⟩ : BufTy).Contents (Elt F) → (⟨S4096x1024, .f32⟩ : BufTy).Contents (Elt F)) ]
theorem ops_8_sub : (ops_8 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_8_fresh : ∀ op ∈ (ops_8 : List (HloOp τ sig (Elt F))), op.fresh = ∅ := by
  intro _ h; (repeat (cases h with | head => rfl | tail _ h => ?_)); exact nomatch h
theorem ops_8_out (V : Valuation τ sig (Elt F)) :
    after ops_8 V (Proc.devRef .tc main_v80) = layerV 8 (by decide) (V (Proc.devRef .tc main_arg1)) (V (Proc.devRef .tc main_arg2)) (V (Proc.devRef .tc main_v71)) := by
  after_results; rfl
theorem ops_8_arg0 (V : Valuation τ sig (Elt F)) : after ops_8 V (Proc.devRef .tc main_arg0) = V (Proc.devRef .tc main_arg0) := by after_results
theorem ops_8_arg1 (V : Valuation τ sig (Elt F)) : after ops_8 V (Proc.devRef .tc main_arg1) = V (Proc.devRef .tc main_arg1) := by after_results
theorem ops_8_arg2 (V : Valuation τ sig (Elt F)) : after ops_8 V (Proc.devRef .tc main_arg2) = V (Proc.devRef .tc main_arg2) := by after_results
/-- After layer 8: the arguments as they were, the layer's result the first 9 layers of the rows. -/
theorem ops_8_step {x : FVec F S4096x1024 .f32} {W : FVec F S20x1024x1024 .f32} {b : FVec F S20x1024 .f32} {V : Valuation τ sig (Elt F)}
    (hA : Args x W b V) (hin : V (Proc.devRef .tc main_v71) = resL x W b 8 (by decide)) :
    Args x W b (after ops_8 V) ∧ after ops_8 V (Proc.devRef .tc main_v80) = resL x W b 9 (by decide) :=
  ⟨⟨(ops_8_arg0 V).trans hA.a0, (ops_8_arg1 V).trans hA.a1, (ops_8_arg2 V).trans hA.a2⟩,
    by rw [ops_8_out, hA.a1, hA.a2, hin]; rfl⟩

/-- Layer 9's nine operations, in order. -/
abbrev ops_9 : List (HloOp τ sig (Elt F)) :=
  [ unary main_arg1 main_v81 ((extractStridedSlice S1x1024x1024 ![9, 0, 0] · slices_S20x1024x1024_S1x1024x1024_9_0_0) : (⟨S20x1024x1024, .f32⟩ : BufTy).Contents (Elt F) → (⟨S1x1024x1024, .f32⟩ : BufTy).Contents (Elt F)),
    reshape main_v81 main_v82 rfl shapeCasts_S1x1024x1024_S1024x1024,
    unary main_v82 main_v83 ((transpose S1024x1024 [1, 0] · transposes_S1024x1024_S1024x1024_1_0) : (⟨S1024x1024, .f32⟩ : BufTy).Contents (Elt F) → (⟨S1024x1024, .f32⟩ : BufTy).Contents (Elt F)),
    binary main_v80 main_v83 main_v84 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v85 ((extractStridedSlice S1x1024 ![9, 0] · slices_S20x1024_S1x1024_9_0) : (⟨S20x1024, .f32⟩ : BufTy).Contents (Elt F) → (⟨S1x1024, .f32⟩ : BufTy).Contents (Elt F)),
    reshape main_v85 main_v86 rfl shapeCasts_S1x1024_S1024,
    unary main_v86 main_v87 (broadcastInDim S1x1024 ![1] bcast_S1024_S1x1024_1 : (⟨S1024, .f32⟩ : BufTy).Contents (Elt F) → (⟨S1x1024, .f32⟩ : BufTy).Contents (Elt F)),
    unary main_v87 main_v88 (broadcastInDim S4096x1024 ![0, 1] bcast_S1x1024_S4096x1024_0_1 : (⟨S1x1024, .f32⟩ : BufTy).Contents (Elt F) → (⟨S4096x1024, .f32⟩ : BufTy).Contents (Elt F)),
    binary main_v84 main_v88 main_v89 (addf : (⟨S4096x1024, .f32⟩ : BufTy).Contents (Elt F) → (⟨S4096x1024, .f32⟩ : BufTy).Contents (Elt F) → (⟨S4096x1024, .f32⟩ : BufTy).Contents (Elt F)) ]
theorem ops_9_sub : (ops_9 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_9_fresh : ∀ op ∈ (ops_9 : List (HloOp τ sig (Elt F))), op.fresh = ∅ := by
  intro _ h; (repeat (cases h with | head => rfl | tail _ h => ?_)); exact nomatch h
theorem ops_9_out (V : Valuation τ sig (Elt F)) :
    after ops_9 V (Proc.devRef .tc main_v89) = layerV 9 (by decide) (V (Proc.devRef .tc main_arg1)) (V (Proc.devRef .tc main_arg2)) (V (Proc.devRef .tc main_v80)) := by
  after_results; rfl
theorem ops_9_arg0 (V : Valuation τ sig (Elt F)) : after ops_9 V (Proc.devRef .tc main_arg0) = V (Proc.devRef .tc main_arg0) := by after_results
theorem ops_9_arg1 (V : Valuation τ sig (Elt F)) : after ops_9 V (Proc.devRef .tc main_arg1) = V (Proc.devRef .tc main_arg1) := by after_results
theorem ops_9_arg2 (V : Valuation τ sig (Elt F)) : after ops_9 V (Proc.devRef .tc main_arg2) = V (Proc.devRef .tc main_arg2) := by after_results
/-- After layer 9: the arguments as they were, the layer's result the first 10 layers of the rows. -/
theorem ops_9_step {x : FVec F S4096x1024 .f32} {W : FVec F S20x1024x1024 .f32} {b : FVec F S20x1024 .f32} {V : Valuation τ sig (Elt F)}
    (hA : Args x W b V) (hin : V (Proc.devRef .tc main_v80) = resL x W b 9 (by decide)) :
    Args x W b (after ops_9 V) ∧ after ops_9 V (Proc.devRef .tc main_v89) = resL x W b 10 (by decide) :=
  ⟨⟨(ops_9_arg0 V).trans hA.a0, (ops_9_arg1 V).trans hA.a1, (ops_9_arg2 V).trans hA.a2⟩,
    by rw [ops_9_out, hA.a1, hA.a2, hin]; rfl⟩

/-- Layer 10's nine operations, in order. -/
abbrev ops_10 : List (HloOp τ sig (Elt F)) :=
  [ unary main_arg1 main_v90 ((extractStridedSlice S1x1024x1024 ![10, 0, 0] · slices_S20x1024x1024_S1x1024x1024_10_0_0) : (⟨S20x1024x1024, .f32⟩ : BufTy).Contents (Elt F) → (⟨S1x1024x1024, .f32⟩ : BufTy).Contents (Elt F)),
    reshape main_v90 main_v91 rfl shapeCasts_S1x1024x1024_S1024x1024,
    unary main_v91 main_v92 ((transpose S1024x1024 [1, 0] · transposes_S1024x1024_S1024x1024_1_0) : (⟨S1024x1024, .f32⟩ : BufTy).Contents (Elt F) → (⟨S1024x1024, .f32⟩ : BufTy).Contents (Elt F)),
    binary main_v89 main_v92 main_v93 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v94 ((extractStridedSlice S1x1024 ![10, 0] · slices_S20x1024_S1x1024_10_0) : (⟨S20x1024, .f32⟩ : BufTy).Contents (Elt F) → (⟨S1x1024, .f32⟩ : BufTy).Contents (Elt F)),
    reshape main_v94 main_v95 rfl shapeCasts_S1x1024_S1024,
    unary main_v95 main_v96 (broadcastInDim S1x1024 ![1] bcast_S1024_S1x1024_1 : (⟨S1024, .f32⟩ : BufTy).Contents (Elt F) → (⟨S1x1024, .f32⟩ : BufTy).Contents (Elt F)),
    unary main_v96 main_v97 (broadcastInDim S4096x1024 ![0, 1] bcast_S1x1024_S4096x1024_0_1 : (⟨S1x1024, .f32⟩ : BufTy).Contents (Elt F) → (⟨S4096x1024, .f32⟩ : BufTy).Contents (Elt F)),
    binary main_v93 main_v97 main_v98 (addf : (⟨S4096x1024, .f32⟩ : BufTy).Contents (Elt F) → (⟨S4096x1024, .f32⟩ : BufTy).Contents (Elt F) → (⟨S4096x1024, .f32⟩ : BufTy).Contents (Elt F)) ]
theorem ops_10_sub : (ops_10 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_10_fresh : ∀ op ∈ (ops_10 : List (HloOp τ sig (Elt F))), op.fresh = ∅ := by
  intro _ h; (repeat (cases h with | head => rfl | tail _ h => ?_)); exact nomatch h
theorem ops_10_out (V : Valuation τ sig (Elt F)) :
    after ops_10 V (Proc.devRef .tc main_v98) = layerV 10 (by decide) (V (Proc.devRef .tc main_arg1)) (V (Proc.devRef .tc main_arg2)) (V (Proc.devRef .tc main_v89)) := by
  after_results; rfl
theorem ops_10_arg0 (V : Valuation τ sig (Elt F)) : after ops_10 V (Proc.devRef .tc main_arg0) = V (Proc.devRef .tc main_arg0) := by after_results
theorem ops_10_arg1 (V : Valuation τ sig (Elt F)) : after ops_10 V (Proc.devRef .tc main_arg1) = V (Proc.devRef .tc main_arg1) := by after_results
theorem ops_10_arg2 (V : Valuation τ sig (Elt F)) : after ops_10 V (Proc.devRef .tc main_arg2) = V (Proc.devRef .tc main_arg2) := by after_results
/-- After layer 10: the arguments as they were, the layer's result the first 11 layers of the rows. -/
theorem ops_10_step {x : FVec F S4096x1024 .f32} {W : FVec F S20x1024x1024 .f32} {b : FVec F S20x1024 .f32} {V : Valuation τ sig (Elt F)}
    (hA : Args x W b V) (hin : V (Proc.devRef .tc main_v89) = resL x W b 10 (by decide)) :
    Args x W b (after ops_10 V) ∧ after ops_10 V (Proc.devRef .tc main_v98) = resL x W b 11 (by decide) :=
  ⟨⟨(ops_10_arg0 V).trans hA.a0, (ops_10_arg1 V).trans hA.a1, (ops_10_arg2 V).trans hA.a2⟩,
    by rw [ops_10_out, hA.a1, hA.a2, hin]; rfl⟩

/-- Layer 11's nine operations, in order. -/
abbrev ops_11 : List (HloOp τ sig (Elt F)) :=
  [ unary main_arg1 main_v99 ((extractStridedSlice S1x1024x1024 ![11, 0, 0] · slices_S20x1024x1024_S1x1024x1024_11_0_0) : (⟨S20x1024x1024, .f32⟩ : BufTy).Contents (Elt F) → (⟨S1x1024x1024, .f32⟩ : BufTy).Contents (Elt F)),
    reshape main_v99 main_v100 rfl shapeCasts_S1x1024x1024_S1024x1024,
    unary main_v100 main_v101 ((transpose S1024x1024 [1, 0] · transposes_S1024x1024_S1024x1024_1_0) : (⟨S1024x1024, .f32⟩ : BufTy).Contents (Elt F) → (⟨S1024x1024, .f32⟩ : BufTy).Contents (Elt F)),
    binary main_v98 main_v101 main_v102 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v103 ((extractStridedSlice S1x1024 ![11, 0] · slices_S20x1024_S1x1024_11_0) : (⟨S20x1024, .f32⟩ : BufTy).Contents (Elt F) → (⟨S1x1024, .f32⟩ : BufTy).Contents (Elt F)),
    reshape main_v103 main_v104 rfl shapeCasts_S1x1024_S1024,
    unary main_v104 main_v105 (broadcastInDim S1x1024 ![1] bcast_S1024_S1x1024_1 : (⟨S1024, .f32⟩ : BufTy).Contents (Elt F) → (⟨S1x1024, .f32⟩ : BufTy).Contents (Elt F)),
    unary main_v105 main_v106 (broadcastInDim S4096x1024 ![0, 1] bcast_S1x1024_S4096x1024_0_1 : (⟨S1x1024, .f32⟩ : BufTy).Contents (Elt F) → (⟨S4096x1024, .f32⟩ : BufTy).Contents (Elt F)),
    binary main_v102 main_v106 main_v107 (addf : (⟨S4096x1024, .f32⟩ : BufTy).Contents (Elt F) → (⟨S4096x1024, .f32⟩ : BufTy).Contents (Elt F) → (⟨S4096x1024, .f32⟩ : BufTy).Contents (Elt F)) ]
theorem ops_11_sub : (ops_11 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_11_fresh : ∀ op ∈ (ops_11 : List (HloOp τ sig (Elt F))), op.fresh = ∅ := by
  intro _ h; (repeat (cases h with | head => rfl | tail _ h => ?_)); exact nomatch h
theorem ops_11_out (V : Valuation τ sig (Elt F)) :
    after ops_11 V (Proc.devRef .tc main_v107) = layerV 11 (by decide) (V (Proc.devRef .tc main_arg1)) (V (Proc.devRef .tc main_arg2)) (V (Proc.devRef .tc main_v98)) := by
  after_results; rfl
theorem ops_11_arg0 (V : Valuation τ sig (Elt F)) : after ops_11 V (Proc.devRef .tc main_arg0) = V (Proc.devRef .tc main_arg0) := by after_results
theorem ops_11_arg1 (V : Valuation τ sig (Elt F)) : after ops_11 V (Proc.devRef .tc main_arg1) = V (Proc.devRef .tc main_arg1) := by after_results
theorem ops_11_arg2 (V : Valuation τ sig (Elt F)) : after ops_11 V (Proc.devRef .tc main_arg2) = V (Proc.devRef .tc main_arg2) := by after_results
/-- After layer 11: the arguments as they were, the layer's result the first 12 layers of the rows. -/
theorem ops_11_step {x : FVec F S4096x1024 .f32} {W : FVec F S20x1024x1024 .f32} {b : FVec F S20x1024 .f32} {V : Valuation τ sig (Elt F)}
    (hA : Args x W b V) (hin : V (Proc.devRef .tc main_v98) = resL x W b 11 (by decide)) :
    Args x W b (after ops_11 V) ∧ after ops_11 V (Proc.devRef .tc main_v107) = resL x W b 12 (by decide) :=
  ⟨⟨(ops_11_arg0 V).trans hA.a0, (ops_11_arg1 V).trans hA.a1, (ops_11_arg2 V).trans hA.a2⟩,
    by rw [ops_11_out, hA.a1, hA.a2, hin]; rfl⟩

/-- Layer 12's nine operations, in order. -/
abbrev ops_12 : List (HloOp τ sig (Elt F)) :=
  [ unary main_arg1 main_v108 ((extractStridedSlice S1x1024x1024 ![12, 0, 0] · slices_S20x1024x1024_S1x1024x1024_12_0_0) : (⟨S20x1024x1024, .f32⟩ : BufTy).Contents (Elt F) → (⟨S1x1024x1024, .f32⟩ : BufTy).Contents (Elt F)),
    reshape main_v108 main_v109 rfl shapeCasts_S1x1024x1024_S1024x1024,
    unary main_v109 main_v110 ((transpose S1024x1024 [1, 0] · transposes_S1024x1024_S1024x1024_1_0) : (⟨S1024x1024, .f32⟩ : BufTy).Contents (Elt F) → (⟨S1024x1024, .f32⟩ : BufTy).Contents (Elt F)),
    binary main_v107 main_v110 main_v111 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v112 ((extractStridedSlice S1x1024 ![12, 0] · slices_S20x1024_S1x1024_12_0) : (⟨S20x1024, .f32⟩ : BufTy).Contents (Elt F) → (⟨S1x1024, .f32⟩ : BufTy).Contents (Elt F)),
    reshape main_v112 main_v113 rfl shapeCasts_S1x1024_S1024,
    unary main_v113 main_v114 (broadcastInDim S1x1024 ![1] bcast_S1024_S1x1024_1 : (⟨S1024, .f32⟩ : BufTy).Contents (Elt F) → (⟨S1x1024, .f32⟩ : BufTy).Contents (Elt F)),
    unary main_v114 main_v115 (broadcastInDim S4096x1024 ![0, 1] bcast_S1x1024_S4096x1024_0_1 : (⟨S1x1024, .f32⟩ : BufTy).Contents (Elt F) → (⟨S4096x1024, .f32⟩ : BufTy).Contents (Elt F)),
    binary main_v111 main_v115 main_v116 (addf : (⟨S4096x1024, .f32⟩ : BufTy).Contents (Elt F) → (⟨S4096x1024, .f32⟩ : BufTy).Contents (Elt F) → (⟨S4096x1024, .f32⟩ : BufTy).Contents (Elt F)) ]
theorem ops_12_sub : (ops_12 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_12_fresh : ∀ op ∈ (ops_12 : List (HloOp τ sig (Elt F))), op.fresh = ∅ := by
  intro _ h; (repeat (cases h with | head => rfl | tail _ h => ?_)); exact nomatch h
theorem ops_12_out (V : Valuation τ sig (Elt F)) :
    after ops_12 V (Proc.devRef .tc main_v116) = layerV 12 (by decide) (V (Proc.devRef .tc main_arg1)) (V (Proc.devRef .tc main_arg2)) (V (Proc.devRef .tc main_v107)) := by
  after_results; rfl
theorem ops_12_arg0 (V : Valuation τ sig (Elt F)) : after ops_12 V (Proc.devRef .tc main_arg0) = V (Proc.devRef .tc main_arg0) := by after_results
theorem ops_12_arg1 (V : Valuation τ sig (Elt F)) : after ops_12 V (Proc.devRef .tc main_arg1) = V (Proc.devRef .tc main_arg1) := by after_results
theorem ops_12_arg2 (V : Valuation τ sig (Elt F)) : after ops_12 V (Proc.devRef .tc main_arg2) = V (Proc.devRef .tc main_arg2) := by after_results
/-- After layer 12: the arguments as they were, the layer's result the first 13 layers of the rows. -/
theorem ops_12_step {x : FVec F S4096x1024 .f32} {W : FVec F S20x1024x1024 .f32} {b : FVec F S20x1024 .f32} {V : Valuation τ sig (Elt F)}
    (hA : Args x W b V) (hin : V (Proc.devRef .tc main_v107) = resL x W b 12 (by decide)) :
    Args x W b (after ops_12 V) ∧ after ops_12 V (Proc.devRef .tc main_v116) = resL x W b 13 (by decide) :=
  ⟨⟨(ops_12_arg0 V).trans hA.a0, (ops_12_arg1 V).trans hA.a1, (ops_12_arg2 V).trans hA.a2⟩,
    by rw [ops_12_out, hA.a1, hA.a2, hin]; rfl⟩

/-- Layer 13's nine operations, in order. -/
abbrev ops_13 : List (HloOp τ sig (Elt F)) :=
  [ unary main_arg1 main_v117 ((extractStridedSlice S1x1024x1024 ![13, 0, 0] · slices_S20x1024x1024_S1x1024x1024_13_0_0) : (⟨S20x1024x1024, .f32⟩ : BufTy).Contents (Elt F) → (⟨S1x1024x1024, .f32⟩ : BufTy).Contents (Elt F)),
    reshape main_v117 main_v118 rfl shapeCasts_S1x1024x1024_S1024x1024,
    unary main_v118 main_v119 ((transpose S1024x1024 [1, 0] · transposes_S1024x1024_S1024x1024_1_0) : (⟨S1024x1024, .f32⟩ : BufTy).Contents (Elt F) → (⟨S1024x1024, .f32⟩ : BufTy).Contents (Elt F)),
    binary main_v116 main_v119 main_v120 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v121 ((extractStridedSlice S1x1024 ![13, 0] · slices_S20x1024_S1x1024_13_0) : (⟨S20x1024, .f32⟩ : BufTy).Contents (Elt F) → (⟨S1x1024, .f32⟩ : BufTy).Contents (Elt F)),
    reshape main_v121 main_v122 rfl shapeCasts_S1x1024_S1024,
    unary main_v122 main_v123 (broadcastInDim S1x1024 ![1] bcast_S1024_S1x1024_1 : (⟨S1024, .f32⟩ : BufTy).Contents (Elt F) → (⟨S1x1024, .f32⟩ : BufTy).Contents (Elt F)),
    unary main_v123 main_v124 (broadcastInDim S4096x1024 ![0, 1] bcast_S1x1024_S4096x1024_0_1 : (⟨S1x1024, .f32⟩ : BufTy).Contents (Elt F) → (⟨S4096x1024, .f32⟩ : BufTy).Contents (Elt F)),
    binary main_v120 main_v124 main_v125 (addf : (⟨S4096x1024, .f32⟩ : BufTy).Contents (Elt F) → (⟨S4096x1024, .f32⟩ : BufTy).Contents (Elt F) → (⟨S4096x1024, .f32⟩ : BufTy).Contents (Elt F)) ]
theorem ops_13_sub : (ops_13 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_13_fresh : ∀ op ∈ (ops_13 : List (HloOp τ sig (Elt F))), op.fresh = ∅ := by
  intro _ h; (repeat (cases h with | head => rfl | tail _ h => ?_)); exact nomatch h
theorem ops_13_out (V : Valuation τ sig (Elt F)) :
    after ops_13 V (Proc.devRef .tc main_v125) = layerV 13 (by decide) (V (Proc.devRef .tc main_arg1)) (V (Proc.devRef .tc main_arg2)) (V (Proc.devRef .tc main_v116)) := by
  after_results; rfl
theorem ops_13_arg0 (V : Valuation τ sig (Elt F)) : after ops_13 V (Proc.devRef .tc main_arg0) = V (Proc.devRef .tc main_arg0) := by after_results
theorem ops_13_arg1 (V : Valuation τ sig (Elt F)) : after ops_13 V (Proc.devRef .tc main_arg1) = V (Proc.devRef .tc main_arg1) := by after_results
theorem ops_13_arg2 (V : Valuation τ sig (Elt F)) : after ops_13 V (Proc.devRef .tc main_arg2) = V (Proc.devRef .tc main_arg2) := by after_results
/-- After layer 13: the arguments as they were, the layer's result the first 14 layers of the rows. -/
theorem ops_13_step {x : FVec F S4096x1024 .f32} {W : FVec F S20x1024x1024 .f32} {b : FVec F S20x1024 .f32} {V : Valuation τ sig (Elt F)}
    (hA : Args x W b V) (hin : V (Proc.devRef .tc main_v116) = resL x W b 13 (by decide)) :
    Args x W b (after ops_13 V) ∧ after ops_13 V (Proc.devRef .tc main_v125) = resL x W b 14 (by decide) :=
  ⟨⟨(ops_13_arg0 V).trans hA.a0, (ops_13_arg1 V).trans hA.a1, (ops_13_arg2 V).trans hA.a2⟩,
    by rw [ops_13_out, hA.a1, hA.a2, hin]; rfl⟩

/-- Layer 14's nine operations, in order. -/
abbrev ops_14 : List (HloOp τ sig (Elt F)) :=
  [ unary main_arg1 main_v126 ((extractStridedSlice S1x1024x1024 ![14, 0, 0] · slices_S20x1024x1024_S1x1024x1024_14_0_0) : (⟨S20x1024x1024, .f32⟩ : BufTy).Contents (Elt F) → (⟨S1x1024x1024, .f32⟩ : BufTy).Contents (Elt F)),
    reshape main_v126 main_v127 rfl shapeCasts_S1x1024x1024_S1024x1024,
    unary main_v127 main_v128 ((transpose S1024x1024 [1, 0] · transposes_S1024x1024_S1024x1024_1_0) : (⟨S1024x1024, .f32⟩ : BufTy).Contents (Elt F) → (⟨S1024x1024, .f32⟩ : BufTy).Contents (Elt F)),
    binary main_v125 main_v128 main_v129 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v130 ((extractStridedSlice S1x1024 ![14, 0] · slices_S20x1024_S1x1024_14_0) : (⟨S20x1024, .f32⟩ : BufTy).Contents (Elt F) → (⟨S1x1024, .f32⟩ : BufTy).Contents (Elt F)),
    reshape main_v130 main_v131 rfl shapeCasts_S1x1024_S1024,
    unary main_v131 main_v132 (broadcastInDim S1x1024 ![1] bcast_S1024_S1x1024_1 : (⟨S1024, .f32⟩ : BufTy).Contents (Elt F) → (⟨S1x1024, .f32⟩ : BufTy).Contents (Elt F)),
    unary main_v132 main_v133 (broadcastInDim S4096x1024 ![0, 1] bcast_S1x1024_S4096x1024_0_1 : (⟨S1x1024, .f32⟩ : BufTy).Contents (Elt F) → (⟨S4096x1024, .f32⟩ : BufTy).Contents (Elt F)),
    binary main_v129 main_v133 main_v134 (addf : (⟨S4096x1024, .f32⟩ : BufTy).Contents (Elt F) → (⟨S4096x1024, .f32⟩ : BufTy).Contents (Elt F) → (⟨S4096x1024, .f32⟩ : BufTy).Contents (Elt F)) ]
theorem ops_14_sub : (ops_14 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_14_fresh : ∀ op ∈ (ops_14 : List (HloOp τ sig (Elt F))), op.fresh = ∅ := by
  intro _ h; (repeat (cases h with | head => rfl | tail _ h => ?_)); exact nomatch h
theorem ops_14_out (V : Valuation τ sig (Elt F)) :
    after ops_14 V (Proc.devRef .tc main_v134) = layerV 14 (by decide) (V (Proc.devRef .tc main_arg1)) (V (Proc.devRef .tc main_arg2)) (V (Proc.devRef .tc main_v125)) := by
  after_results; rfl
theorem ops_14_arg0 (V : Valuation τ sig (Elt F)) : after ops_14 V (Proc.devRef .tc main_arg0) = V (Proc.devRef .tc main_arg0) := by after_results
theorem ops_14_arg1 (V : Valuation τ sig (Elt F)) : after ops_14 V (Proc.devRef .tc main_arg1) = V (Proc.devRef .tc main_arg1) := by after_results
theorem ops_14_arg2 (V : Valuation τ sig (Elt F)) : after ops_14 V (Proc.devRef .tc main_arg2) = V (Proc.devRef .tc main_arg2) := by after_results
/-- After layer 14: the arguments as they were, the layer's result the first 15 layers of the rows. -/
theorem ops_14_step {x : FVec F S4096x1024 .f32} {W : FVec F S20x1024x1024 .f32} {b : FVec F S20x1024 .f32} {V : Valuation τ sig (Elt F)}
    (hA : Args x W b V) (hin : V (Proc.devRef .tc main_v125) = resL x W b 14 (by decide)) :
    Args x W b (after ops_14 V) ∧ after ops_14 V (Proc.devRef .tc main_v134) = resL x W b 15 (by decide) :=
  ⟨⟨(ops_14_arg0 V).trans hA.a0, (ops_14_arg1 V).trans hA.a1, (ops_14_arg2 V).trans hA.a2⟩,
    by rw [ops_14_out, hA.a1, hA.a2, hin]; rfl⟩

/-- Layer 15's nine operations, in order. -/
abbrev ops_15 : List (HloOp τ sig (Elt F)) :=
  [ unary main_arg1 main_v135 ((extractStridedSlice S1x1024x1024 ![15, 0, 0] · slices_S20x1024x1024_S1x1024x1024_15_0_0) : (⟨S20x1024x1024, .f32⟩ : BufTy).Contents (Elt F) → (⟨S1x1024x1024, .f32⟩ : BufTy).Contents (Elt F)),
    reshape main_v135 main_v136 rfl shapeCasts_S1x1024x1024_S1024x1024,
    unary main_v136 main_v137 ((transpose S1024x1024 [1, 0] · transposes_S1024x1024_S1024x1024_1_0) : (⟨S1024x1024, .f32⟩ : BufTy).Contents (Elt F) → (⟨S1024x1024, .f32⟩ : BufTy).Contents (Elt F)),
    binary main_v134 main_v137 main_v138 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v139 ((extractStridedSlice S1x1024 ![15, 0] · slices_S20x1024_S1x1024_15_0) : (⟨S20x1024, .f32⟩ : BufTy).Contents (Elt F) → (⟨S1x1024, .f32⟩ : BufTy).Contents (Elt F)),
    reshape main_v139 main_v140 rfl shapeCasts_S1x1024_S1024,
    unary main_v140 main_v141 (broadcastInDim S1x1024 ![1] bcast_S1024_S1x1024_1 : (⟨S1024, .f32⟩ : BufTy).Contents (Elt F) → (⟨S1x1024, .f32⟩ : BufTy).Contents (Elt F)),
    unary main_v141 main_v142 (broadcastInDim S4096x1024 ![0, 1] bcast_S1x1024_S4096x1024_0_1 : (⟨S1x1024, .f32⟩ : BufTy).Contents (Elt F) → (⟨S4096x1024, .f32⟩ : BufTy).Contents (Elt F)),
    binary main_v138 main_v142 main_v143 (addf : (⟨S4096x1024, .f32⟩ : BufTy).Contents (Elt F) → (⟨S4096x1024, .f32⟩ : BufTy).Contents (Elt F) → (⟨S4096x1024, .f32⟩ : BufTy).Contents (Elt F)) ]
theorem ops_15_sub : (ops_15 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_15_fresh : ∀ op ∈ (ops_15 : List (HloOp τ sig (Elt F))), op.fresh = ∅ := by
  intro _ h; (repeat (cases h with | head => rfl | tail _ h => ?_)); exact nomatch h
theorem ops_15_out (V : Valuation τ sig (Elt F)) :
    after ops_15 V (Proc.devRef .tc main_v143) = layerV 15 (by decide) (V (Proc.devRef .tc main_arg1)) (V (Proc.devRef .tc main_arg2)) (V (Proc.devRef .tc main_v134)) := by
  after_results; rfl
theorem ops_15_arg0 (V : Valuation τ sig (Elt F)) : after ops_15 V (Proc.devRef .tc main_arg0) = V (Proc.devRef .tc main_arg0) := by after_results
theorem ops_15_arg1 (V : Valuation τ sig (Elt F)) : after ops_15 V (Proc.devRef .tc main_arg1) = V (Proc.devRef .tc main_arg1) := by after_results
theorem ops_15_arg2 (V : Valuation τ sig (Elt F)) : after ops_15 V (Proc.devRef .tc main_arg2) = V (Proc.devRef .tc main_arg2) := by after_results
/-- After layer 15: the arguments as they were, the layer's result the first 16 layers of the rows. -/
theorem ops_15_step {x : FVec F S4096x1024 .f32} {W : FVec F S20x1024x1024 .f32} {b : FVec F S20x1024 .f32} {V : Valuation τ sig (Elt F)}
    (hA : Args x W b V) (hin : V (Proc.devRef .tc main_v134) = resL x W b 15 (by decide)) :
    Args x W b (after ops_15 V) ∧ after ops_15 V (Proc.devRef .tc main_v143) = resL x W b 16 (by decide) :=
  ⟨⟨(ops_15_arg0 V).trans hA.a0, (ops_15_arg1 V).trans hA.a1, (ops_15_arg2 V).trans hA.a2⟩,
    by rw [ops_15_out, hA.a1, hA.a2, hin]; rfl⟩

/-- Layer 16's nine operations, in order. -/
abbrev ops_16 : List (HloOp τ sig (Elt F)) :=
  [ unary main_arg1 main_v144 ((extractStridedSlice S1x1024x1024 ![16, 0, 0] · slices_S20x1024x1024_S1x1024x1024_16_0_0) : (⟨S20x1024x1024, .f32⟩ : BufTy).Contents (Elt F) → (⟨S1x1024x1024, .f32⟩ : BufTy).Contents (Elt F)),
    reshape main_v144 main_v145 rfl shapeCasts_S1x1024x1024_S1024x1024,
    unary main_v145 main_v146 ((transpose S1024x1024 [1, 0] · transposes_S1024x1024_S1024x1024_1_0) : (⟨S1024x1024, .f32⟩ : BufTy).Contents (Elt F) → (⟨S1024x1024, .f32⟩ : BufTy).Contents (Elt F)),
    binary main_v143 main_v146 main_v147 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v148 ((extractStridedSlice S1x1024 ![16, 0] · slices_S20x1024_S1x1024_16_0) : (⟨S20x1024, .f32⟩ : BufTy).Contents (Elt F) → (⟨S1x1024, .f32⟩ : BufTy).Contents (Elt F)),
    reshape main_v148 main_v149 rfl shapeCasts_S1x1024_S1024,
    unary main_v149 main_v150 (broadcastInDim S1x1024 ![1] bcast_S1024_S1x1024_1 : (⟨S1024, .f32⟩ : BufTy).Contents (Elt F) → (⟨S1x1024, .f32⟩ : BufTy).Contents (Elt F)),
    unary main_v150 main_v151 (broadcastInDim S4096x1024 ![0, 1] bcast_S1x1024_S4096x1024_0_1 : (⟨S1x1024, .f32⟩ : BufTy).Contents (Elt F) → (⟨S4096x1024, .f32⟩ : BufTy).Contents (Elt F)),
    binary main_v147 main_v151 main_v152 (addf : (⟨S4096x1024, .f32⟩ : BufTy).Contents (Elt F) → (⟨S4096x1024, .f32⟩ : BufTy).Contents (Elt F) → (⟨S4096x1024, .f32⟩ : BufTy).Contents (Elt F)) ]
theorem ops_16_sub : (ops_16 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_16_fresh : ∀ op ∈ (ops_16 : List (HloOp τ sig (Elt F))), op.fresh = ∅ := by
  intro _ h; (repeat (cases h with | head => rfl | tail _ h => ?_)); exact nomatch h
theorem ops_16_out (V : Valuation τ sig (Elt F)) :
    after ops_16 V (Proc.devRef .tc main_v152) = layerV 16 (by decide) (V (Proc.devRef .tc main_arg1)) (V (Proc.devRef .tc main_arg2)) (V (Proc.devRef .tc main_v143)) := by
  after_results; rfl
theorem ops_16_arg0 (V : Valuation τ sig (Elt F)) : after ops_16 V (Proc.devRef .tc main_arg0) = V (Proc.devRef .tc main_arg0) := by after_results
theorem ops_16_arg1 (V : Valuation τ sig (Elt F)) : after ops_16 V (Proc.devRef .tc main_arg1) = V (Proc.devRef .tc main_arg1) := by after_results
theorem ops_16_arg2 (V : Valuation τ sig (Elt F)) : after ops_16 V (Proc.devRef .tc main_arg2) = V (Proc.devRef .tc main_arg2) := by after_results
/-- After layer 16: the arguments as they were, the layer's result the first 17 layers of the rows. -/
theorem ops_16_step {x : FVec F S4096x1024 .f32} {W : FVec F S20x1024x1024 .f32} {b : FVec F S20x1024 .f32} {V : Valuation τ sig (Elt F)}
    (hA : Args x W b V) (hin : V (Proc.devRef .tc main_v143) = resL x W b 16 (by decide)) :
    Args x W b (after ops_16 V) ∧ after ops_16 V (Proc.devRef .tc main_v152) = resL x W b 17 (by decide) :=
  ⟨⟨(ops_16_arg0 V).trans hA.a0, (ops_16_arg1 V).trans hA.a1, (ops_16_arg2 V).trans hA.a2⟩,
    by rw [ops_16_out, hA.a1, hA.a2, hin]; rfl⟩

/-- Layer 17's nine operations, in order. -/
abbrev ops_17 : List (HloOp τ sig (Elt F)) :=
  [ unary main_arg1 main_v153 ((extractStridedSlice S1x1024x1024 ![17, 0, 0] · slices_S20x1024x1024_S1x1024x1024_17_0_0) : (⟨S20x1024x1024, .f32⟩ : BufTy).Contents (Elt F) → (⟨S1x1024x1024, .f32⟩ : BufTy).Contents (Elt F)),
    reshape main_v153 main_v154 rfl shapeCasts_S1x1024x1024_S1024x1024,
    unary main_v154 main_v155 ((transpose S1024x1024 [1, 0] · transposes_S1024x1024_S1024x1024_1_0) : (⟨S1024x1024, .f32⟩ : BufTy).Contents (Elt F) → (⟨S1024x1024, .f32⟩ : BufTy).Contents (Elt F)),
    binary main_v152 main_v155 main_v156 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v157 ((extractStridedSlice S1x1024 ![17, 0] · slices_S20x1024_S1x1024_17_0) : (⟨S20x1024, .f32⟩ : BufTy).Contents (Elt F) → (⟨S1x1024, .f32⟩ : BufTy).Contents (Elt F)),
    reshape main_v157 main_v158 rfl shapeCasts_S1x1024_S1024,
    unary main_v158 main_v159 (broadcastInDim S1x1024 ![1] bcast_S1024_S1x1024_1 : (⟨S1024, .f32⟩ : BufTy).Contents (Elt F) → (⟨S1x1024, .f32⟩ : BufTy).Contents (Elt F)),
    unary main_v159 main_v160 (broadcastInDim S4096x1024 ![0, 1] bcast_S1x1024_S4096x1024_0_1 : (⟨S1x1024, .f32⟩ : BufTy).Contents (Elt F) → (⟨S4096x1024, .f32⟩ : BufTy).Contents (Elt F)),
    binary main_v156 main_v160 main_v161 (addf : (⟨S4096x1024, .f32⟩ : BufTy).Contents (Elt F) → (⟨S4096x1024, .f32⟩ : BufTy).Contents (Elt F) → (⟨S4096x1024, .f32⟩ : BufTy).Contents (Elt F)) ]
theorem ops_17_sub : (ops_17 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_17_fresh : ∀ op ∈ (ops_17 : List (HloOp τ sig (Elt F))), op.fresh = ∅ := by
  intro _ h; (repeat (cases h with | head => rfl | tail _ h => ?_)); exact nomatch h
theorem ops_17_out (V : Valuation τ sig (Elt F)) :
    after ops_17 V (Proc.devRef .tc main_v161) = layerV 17 (by decide) (V (Proc.devRef .tc main_arg1)) (V (Proc.devRef .tc main_arg2)) (V (Proc.devRef .tc main_v152)) := by
  after_results; rfl
theorem ops_17_arg0 (V : Valuation τ sig (Elt F)) : after ops_17 V (Proc.devRef .tc main_arg0) = V (Proc.devRef .tc main_arg0) := by after_results
theorem ops_17_arg1 (V : Valuation τ sig (Elt F)) : after ops_17 V (Proc.devRef .tc main_arg1) = V (Proc.devRef .tc main_arg1) := by after_results
theorem ops_17_arg2 (V : Valuation τ sig (Elt F)) : after ops_17 V (Proc.devRef .tc main_arg2) = V (Proc.devRef .tc main_arg2) := by after_results
/-- After layer 17: the arguments as they were, the layer's result the first 18 layers of the rows. -/
theorem ops_17_step {x : FVec F S4096x1024 .f32} {W : FVec F S20x1024x1024 .f32} {b : FVec F S20x1024 .f32} {V : Valuation τ sig (Elt F)}
    (hA : Args x W b V) (hin : V (Proc.devRef .tc main_v152) = resL x W b 17 (by decide)) :
    Args x W b (after ops_17 V) ∧ after ops_17 V (Proc.devRef .tc main_v161) = resL x W b 18 (by decide) :=
  ⟨⟨(ops_17_arg0 V).trans hA.a0, (ops_17_arg1 V).trans hA.a1, (ops_17_arg2 V).trans hA.a2⟩,
    by rw [ops_17_out, hA.a1, hA.a2, hin]; rfl⟩

/-- Layer 18's nine operations, in order. -/
abbrev ops_18 : List (HloOp τ sig (Elt F)) :=
  [ unary main_arg1 main_v162 ((extractStridedSlice S1x1024x1024 ![18, 0, 0] · slices_S20x1024x1024_S1x1024x1024_18_0_0) : (⟨S20x1024x1024, .f32⟩ : BufTy).Contents (Elt F) → (⟨S1x1024x1024, .f32⟩ : BufTy).Contents (Elt F)),
    reshape main_v162 main_v163 rfl shapeCasts_S1x1024x1024_S1024x1024,
    unary main_v163 main_v164 ((transpose S1024x1024 [1, 0] · transposes_S1024x1024_S1024x1024_1_0) : (⟨S1024x1024, .f32⟩ : BufTy).Contents (Elt F) → (⟨S1024x1024, .f32⟩ : BufTy).Contents (Elt F)),
    binary main_v161 main_v164 main_v165 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v166 ((extractStridedSlice S1x1024 ![18, 0] · slices_S20x1024_S1x1024_18_0) : (⟨S20x1024, .f32⟩ : BufTy).Contents (Elt F) → (⟨S1x1024, .f32⟩ : BufTy).Contents (Elt F)),
    reshape main_v166 main_v167 rfl shapeCasts_S1x1024_S1024,
    unary main_v167 main_v168 (broadcastInDim S1x1024 ![1] bcast_S1024_S1x1024_1 : (⟨S1024, .f32⟩ : BufTy).Contents (Elt F) → (⟨S1x1024, .f32⟩ : BufTy).Contents (Elt F)),
    unary main_v168 main_v169 (broadcastInDim S4096x1024 ![0, 1] bcast_S1x1024_S4096x1024_0_1 : (⟨S1x1024, .f32⟩ : BufTy).Contents (Elt F) → (⟨S4096x1024, .f32⟩ : BufTy).Contents (Elt F)),
    binary main_v165 main_v169 main_v170 (addf : (⟨S4096x1024, .f32⟩ : BufTy).Contents (Elt F) → (⟨S4096x1024, .f32⟩ : BufTy).Contents (Elt F) → (⟨S4096x1024, .f32⟩ : BufTy).Contents (Elt F)) ]
theorem ops_18_sub : (ops_18 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_18_fresh : ∀ op ∈ (ops_18 : List (HloOp τ sig (Elt F))), op.fresh = ∅ := by
  intro _ h; (repeat (cases h with | head => rfl | tail _ h => ?_)); exact nomatch h
theorem ops_18_out (V : Valuation τ sig (Elt F)) :
    after ops_18 V (Proc.devRef .tc main_v170) = layerV 18 (by decide) (V (Proc.devRef .tc main_arg1)) (V (Proc.devRef .tc main_arg2)) (V (Proc.devRef .tc main_v161)) := by
  after_results; rfl
theorem ops_18_arg0 (V : Valuation τ sig (Elt F)) : after ops_18 V (Proc.devRef .tc main_arg0) = V (Proc.devRef .tc main_arg0) := by after_results
theorem ops_18_arg1 (V : Valuation τ sig (Elt F)) : after ops_18 V (Proc.devRef .tc main_arg1) = V (Proc.devRef .tc main_arg1) := by after_results
theorem ops_18_arg2 (V : Valuation τ sig (Elt F)) : after ops_18 V (Proc.devRef .tc main_arg2) = V (Proc.devRef .tc main_arg2) := by after_results
/-- After layer 18: the arguments as they were, the layer's result the first 19 layers of the rows. -/
theorem ops_18_step {x : FVec F S4096x1024 .f32} {W : FVec F S20x1024x1024 .f32} {b : FVec F S20x1024 .f32} {V : Valuation τ sig (Elt F)}
    (hA : Args x W b V) (hin : V (Proc.devRef .tc main_v161) = resL x W b 18 (by decide)) :
    Args x W b (after ops_18 V) ∧ after ops_18 V (Proc.devRef .tc main_v170) = resL x W b 19 (by decide) :=
  ⟨⟨(ops_18_arg0 V).trans hA.a0, (ops_18_arg1 V).trans hA.a1, (ops_18_arg2 V).trans hA.a2⟩,
    by rw [ops_18_out, hA.a1, hA.a2, hin]; rfl⟩

/-- Layer 19's nine operations, in order. -/
abbrev ops_19 : List (HloOp τ sig (Elt F)) :=
  [ unary main_arg1 main_v171 ((extractStridedSlice S1x1024x1024 ![19, 0, 0] · slices_S20x1024x1024_S1x1024x1024_19_0_0) : (⟨S20x1024x1024, .f32⟩ : BufTy).Contents (Elt F) → (⟨S1x1024x1024, .f32⟩ : BufTy).Contents (Elt F)),
    reshape main_v171 main_v172 rfl shapeCasts_S1x1024x1024_S1024x1024,
    unary main_v172 main_v173 ((transpose S1024x1024 [1, 0] · transposes_S1024x1024_S1024x1024_1_0) : (⟨S1024x1024, .f32⟩ : BufTy).Contents (Elt F) → (⟨S1024x1024, .f32⟩ : BufTy).Contents (Elt F)),
    binary main_v170 main_v173 main_v174 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg2 main_v175 ((extractStridedSlice S1x1024 ![19, 0] · slices_S20x1024_S1x1024_19_0) : (⟨S20x1024, .f32⟩ : BufTy).Contents (Elt F) → (⟨S1x1024, .f32⟩ : BufTy).Contents (Elt F)),
    reshape main_v175 main_v176 rfl shapeCasts_S1x1024_S1024,
    unary main_v176 main_v177 (broadcastInDim S1x1024 ![1] bcast_S1024_S1x1024_1 : (⟨S1024, .f32⟩ : BufTy).Contents (Elt F) → (⟨S1x1024, .f32⟩ : BufTy).Contents (Elt F)),
    unary main_v177 main_v178 (broadcastInDim S4096x1024 ![0, 1] bcast_S1x1024_S4096x1024_0_1 : (⟨S1x1024, .f32⟩ : BufTy).Contents (Elt F) → (⟨S4096x1024, .f32⟩ : BufTy).Contents (Elt F)),
    binary main_v174 main_v178 main_v179 (addf : (⟨S4096x1024, .f32⟩ : BufTy).Contents (Elt F) → (⟨S4096x1024, .f32⟩ : BufTy).Contents (Elt F) → (⟨S4096x1024, .f32⟩ : BufTy).Contents (Elt F)) ]
theorem ops_19_sub : (ops_19 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub ..⟩
theorem ops_19_fresh : ∀ op ∈ (ops_19 : List (HloOp τ sig (Elt F))), op.fresh = ∅ := by
  intro _ h; (repeat (cases h with | head => rfl | tail _ h => ?_)); exact nomatch h
theorem ops_19_out (V : Valuation τ sig (Elt F)) :
    after ops_19 V (Proc.devRef .tc main_v179) = layerV 19 (by decide) (V (Proc.devRef .tc main_arg1)) (V (Proc.devRef .tc main_arg2)) (V (Proc.devRef .tc main_v170)) := by
  after_results; rfl
theorem ops_19_arg0 (V : Valuation τ sig (Elt F)) : after ops_19 V (Proc.devRef .tc main_arg0) = V (Proc.devRef .tc main_arg0) := by after_results
theorem ops_19_arg1 (V : Valuation τ sig (Elt F)) : after ops_19 V (Proc.devRef .tc main_arg1) = V (Proc.devRef .tc main_arg1) := by after_results
theorem ops_19_arg2 (V : Valuation τ sig (Elt F)) : after ops_19 V (Proc.devRef .tc main_arg2) = V (Proc.devRef .tc main_arg2) := by after_results
/-- After layer 19: the arguments as they were, the layer's result the first 20 layers of the rows. -/
theorem ops_19_step {x : FVec F S4096x1024 .f32} {W : FVec F S20x1024x1024 .f32} {b : FVec F S20x1024 .f32} {V : Valuation τ sig (Elt F)}
    (hA : Args x W b V) (hin : V (Proc.devRef .tc main_v170) = resL x W b 19 (by decide)) :
    Args x W b (after ops_19 V) ∧ after ops_19 V (Proc.devRef .tc main_v179) = resL x W b 20 (by decide) :=
  ⟨⟨(ops_19_arg0 V).trans hA.a0, (ops_19_arg1 V).trans hA.a1, (ops_19_arg2 V).trans hA.a2⟩,
    by rw [ops_19_out, hA.a1, hA.a2, hin]; rfl⟩

end Cert.RefRun

end
-- ==== Proof.RefRun.lean ====
/-
  The reference's run: every weakly fair execution of its @main ends with the result buffer at the twenty layers
  applied one after the other to the rows, the three arguments unchanged.

  @main is one straight line of 180 host operations, nine per layer. The line is the twenty layers' lists one after
  the other; what a layer's list leaves in the buffers is read off layer by layer (Ref/Ops.lean), each layer taking
  the result of the one before it, so after the last the result buffer holds `resL … 20`, which read at an index
  is `Cert.Chain.chain … 20` (Ref/Layer.lean).
-/
import proofs.«135073_g15564961481514_cont_week2b_1535_21_alg».proof.Proof.Ref.Ops
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

section Generic
variable {F : FTy → Type} [FloatOps F]

/-- @main's 180 operations: the twenty layers' lists, in order. -/
abbrev allOps : List (HloOp τ sig (Elt F)) :=
  ops_0 ++ (ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ (ops_17 ++ (ops_18 ++ (ops_19)))))))))))))))))))

set_option maxRecDepth 8192 in
set_option maxHeartbeats 4000000 in
theorem main_eq (c : Dev nD) : main (F := F) c = seq allOps := rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of the two in a row. -/
theorem mem_append_of {α : Type} {p : α → Prop} {l₁ l₂ : List α} (h₁ : ∀ a ∈ l₁, p a) (h₂ : ∀ a ∈ l₂, p a) :
    ∀ a ∈ l₁ ++ l₂, p a :=
  fun a ha => (List.mem_append.1 ha).elim (h₁ a) (h₂ a)

theorem allOps_sub : (allOps : List (HloOp τ sig (Elt F))).Forall fun op => op.bufs ⊆ tcRefs τ sig :=
  List.forall_append.2 ⟨ops_0_sub, List.forall_append.2 ⟨ops_1_sub, List.forall_append.2 ⟨ops_2_sub, List.forall_append.2 ⟨ops_3_sub, List.forall_append.2 ⟨ops_4_sub, List.forall_append.2 ⟨ops_5_sub, List.forall_append.2 ⟨ops_6_sub, List.forall_append.2 ⟨ops_7_sub, List.forall_append.2 ⟨ops_8_sub, List.forall_append.2 ⟨ops_9_sub, List.forall_append.2 ⟨ops_10_sub, List.forall_append.2 ⟨ops_11_sub, List.forall_append.2 ⟨ops_12_sub, List.forall_append.2 ⟨ops_13_sub, List.forall_append.2 ⟨ops_14_sub, List.forall_append.2 ⟨ops_15_sub, List.forall_append.2 ⟨ops_16_sub, List.forall_append.2 ⟨ops_17_sub, List.forall_append.2 ⟨ops_18_sub, ops_19_sub⟩⟩⟩⟩⟩⟩⟩⟩⟩⟩⟩⟩⟩⟩⟩⟩⟩⟩⟩

theorem allOps_fresh : ∀ op ∈ (allOps : List (HloOp τ sig (Elt F))), op.fresh = ∅ :=
  mem_append_of ops_0_fresh (mem_append_of ops_1_fresh (mem_append_of ops_2_fresh (mem_append_of ops_3_fresh (mem_append_of ops_4_fresh (mem_append_of ops_5_fresh (mem_append_of ops_6_fresh (mem_append_of ops_7_fresh (mem_append_of ops_8_fresh (mem_append_of ops_9_fresh (mem_append_of ops_10_fresh (mem_append_of ops_11_fresh (mem_append_of ops_12_fresh (mem_append_of ops_13_fresh (mem_append_of ops_14_fresh (mem_append_of ops_15_fresh (mem_append_of ops_16_fresh (mem_append_of ops_17_fresh (mem_append_of ops_18_fresh (ops_19_fresh)))))))))))))))))))

/-- After the whole line: the arguments as they were, the last layer's result buffer at the twenty layers of the rows. -/
theorem after_allOps (V : Valuation τ sig (Elt F)) :
    Args (V (Proc.devRef .tc main_arg0)) (V (Proc.devRef .tc main_arg1)) (V (Proc.devRef .tc main_arg2)) (after allOps V)
    ∧ after allOps V (Proc.devRef .tc main_v179)
        = resL (V (Proc.devRef .tc main_arg0)) (V (Proc.devRef .tc main_arg1)) (V (Proc.devRef .tc main_arg2)) 20 le_rfl := by
  have s0 := ops_0_step (V := V) ⟨rfl, rfl, rfl⟩ rfl
  have s1 := ops_1_step s0.1 s0.2
  have s2 := ops_2_step s1.1 s1.2
  have s3 := ops_3_step s2.1 s2.2
  have s4 := ops_4_step s3.1 s3.2
  have s5 := ops_5_step s4.1 s4.2
  have s6 := ops_6_step s5.1 s5.2
  have s7 := ops_7_step s6.1 s6.2
  have s8 := ops_8_step s7.1 s7.2
  have s9 := ops_9_step s8.1 s8.2
  have s10 := ops_10_step s9.1 s9.2
  have s11 := ops_11_step s10.1 s10.2
  have s12 := ops_12_step s11.1 s11.2
  have s13 := ops_13_step s12.1 s12.2
  have s14 := ops_14_step s13.1 s13.2
  have s15 := ops_15_step s14.1 s14.2
  have s16 := ops_16_step s15.1 s15.2
  have s17 := ops_17_step s16.1 s16.2
  have s18 := ops_18_step s17.1 s17.2
  have s19 := ops_19_step s18.1 s18.2
  simp only [allOps, after_append]
  exact s19

end Generic

/-- On every device, from any memory with zero counters: every weakly fair execution of the reference's @main
    terminates with its result buffer at the twenty layers applied one after the other and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread _ _).loc Cert.ReferenceIdeal.main_v179) = Cert.Arr.chainArr (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono
    (fun _ h c =>
      have A := after_allOps (F := Ideal) (launchContents m c)
      ⟨(h c main_v179).trans (A.2.trans (resL_twenty _ _ _)),
        (h c main_arg0).trans A.1.a0, (h c main_arg1).trans A.1.a1, (h c main_arg2).trans A.1.a2⟩)
    (run_seq scopedRefs_eq scopedSems_eq defs main (fun _ => allOps) main_eq (fun _ => allOps_sub) m ρ (fun _ => allOps_fresh))

end Cert.RefRun

end
-- ==== Proof.Finite.lean ====
/-
  What the precondition says: every entry of the three argument arrays is a real number.

  The printed predicate compares the absolute value of every entry with +∞ (strictly below) and takes the
  conjunction over each array and then over the three arrays. An extended real whose absolute value is below
  +∞ is neither +∞ nor -∞, so it is the coercion of a real.
-/
import proofs.«135073_g15564961481514_cont_week2b_1535_21_alg».proof.Pre_finite_inputs
import proofs.«135073_g15564961481514_cont_week2b_1535_21_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

/-- The pattern `0x7F800000` (sign 0, exponent all ones, significand 0) denotes +∞. -/
theorem inf_bits : Ideal.ofBits .f32 0x7F800000#32 = (⊤ : EReal) := by
  simp [Ideal.ofBits, Ideal.ieee]

/-- An extended real whose absolute value `max e (-e)` lies strictly below +∞ is a real: at `⊤` the
    maximum is `⊤`, at `⊥` it is `-⊥ = ⊤`, and `⊤ < ⊤` is false. -/
theorem real_of_abs_lt (e : EReal)
    (h : Ideal.cmp .olt (max e (-e)) (Ideal.ofBits .f32 0x7F800000#32) = 1#1) : ∃ r : ℝ, e = (r : EReal) := by
  rw [inf_bits] at h
  induction e using EReal.rec with
  | bot => simp [Ideal.cmp] at h
  | top => simp [Ideal.cmp] at h
  | coe r => exact ⟨r, rfl⟩

/-- The rank-0 shape has exactly one index. -/
instance : Subsingleton Cert.Pre_finite_inputs.S_.Idx := ⟨fun a b => funext fun d => d.elim0⟩

/-- Under the precondition at the ideal instance, every entry of each argument is (the coercion of) a real. -/
theorem real_of_pre [hP : Cert.Pre_finite_inputs.Facts]
    (x : FVec Ideal Cert.Pre_finite_inputs.S4096x1024 .f32) (W : FVec Ideal Cert.Pre_finite_inputs.S20x1024x1024 .f32)
    (b : FVec Ideal Cert.Pre_finite_inputs.S20x1024 .f32)
    (h : Cert.Pre_finite_inputs.fn (F := Ideal) x W b = fun _ => 1#1) :
    (∀ i, ∃ r : ℝ, x i = (r : EReal)) ∧ (∀ i, ∃ r : ℝ, W i = (r : EReal)) ∧ (∀ i, ∃ r : ℝ, b i = (r : EReal)) := by
  -- the predicate's one value is 1
  have e := congrFun h ValueIdx.ix0
  dsimp only [Cert.Pre_finite_inputs.fn] at e
  -- a conjunction of bits is 1 exactly when each bit is
  obtain ⟨e12, e3⟩ := IntOp.andi_eq_one.1 e
  obtain ⟨e1, e2⟩ := IntOp.andi_eq_one.1 e12
  -- a conjunction over a whole array that is 1 has a 1 at every index: there |entry| < +∞
  refine ⟨fun i => ?_, fun i => ?_, fun i => ?_⟩
  · exact real_of_abs_lt _ (Host.reduce_andi_all _ _ _ _ _ e1 i)
  · exact real_of_abs_lt _ (Host.reduce_andi_all _ _ _ _ _ e2 i)
  · exact real_of_abs_lt _ (Host.reduce_andi_all _ _ _ _ _ e3 i)

end Cert.Finite

end
-- ==== Proof.lean ====
/-
  A kernel for twenty chained affine layers, against the layers applied one after the other.

  The reference computes  h₀ = x,  h_{l+1} = h_l · W_lᵀ + b_l  for l = 0 … 19 on 4096 tokens of 1024 features.
  The kernel never forms the intermediate activations: over five grid points it composes the layers into one
  affine map, kept as an accumulator of 1032 rows (the matrix Q = W₀ᵀ W₁ᵀ ⋯ and, in its last eight rows, the
  row c = (⋯(b₀ W₁ᵀ + b₁) W₂ᵀ + ⋯)), four layers a point; over eight more grid points it writes the tiles
  x_tile · Q + c of the result. At the ideal instance the changes of float format are identities and the matrix
  unit's sums are exact, so the kernel's result is  x · Q₁₉ + c₁₉  entry by entry (`Cert.Arr.outArr`) and the
  reference's is the twenty-fold recurrence (`Cert.Arr.chainArr`). The two agree when every entry of x, W and b
  is a real number, which is what the precondition says: the matrix product is then associative and distributes
  over the added bias rows (`Cert.Chain.chain_eq_kernelOut`). On the extended reals alone distributivity fails at
  the infinities, so the precondition is used.

  The three frames: the kernel's program, at either instance, is one host reshape and one pipelined region of
  thirteen grid points whose weight and bias windows stand four to an array; the run is the pipeline library's
  launch for windows sharing arrays, each shared array's full share dealt in quarters to its four reading
  windows, over a body obligation proved case by case (first point, folding points, applying points), the
  accumulator's buffer carried in the region invariant. The reference is a straight line of host operations.
  Nothing was rewritten by the idealization, so there is nothing to preserve.
-/
import proofs.«135073_g15564961481514_cont_week2b_1535_21_alg».proof.Defs
import proofs.«135073_g15564961481514_cont_week2b_1535_21_alg».proof.Proof.Gen.Kernel
import proofs.«135073_g15564961481514_cont_week2b_1535_21_alg».proof.Proof.Gen.KernelIdeal
import proofs.«135073_g15564961481514_cont_week2b_1535_21_alg».proof.Proof.Gen.ReferenceIdeal
import proofs.«135073_g15564961481514_cont_week2b_1535_21_alg».proof.Proof.Gen.Pre_finite_inputs
import proofs.«135073_g15564961481514_cont_week2b_1535_21_alg».proof.Proof.K.Launch
import proofs.«135073_g15564961481514_cont_week2b_1535_21_alg».proof.Proof.KI.Launch
import proofs.«135073_g15564961481514_cont_week2b_1535_21_alg».proof.Proof.KI.Value
import proofs.«135073_g15564961481514_cont_week2b_1535_21_alg».proof.Proof.RefRun
import proofs.«135073_g15564961481514_cont_week2b_1535_21_alg».proof.Proof.Finite
import proofs.«135073_g15564961481514_cont_week2b_1535_21_alg».proof.Proof.Arr
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its three arguments as they were. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference is its run with the result dropped. -/
theorem frame_ri : Cert.frame_ReferenceIdeal := fun m ρ _ =>
  (θ_run Cert.ReferenceIdeal.defs _ _).mono (fun _ h c => (h c).2) (Cert.RefRun.run m ρ)

/-- The idealization rewrote nothing. -/
theorem preserves : Cert.preserves_Kernel_KernelIdeal := trivial

/-- Both idealized programs end with the composed map's value of the (agreeing) arguments: the kernel by its run
    read at the result array, the reference by its run and the law that joins the two orders of composition on
    real entries. -/
theorem algebraic : Cert.algebraic_KernelIdeal_ReferenceIdeal := by
  intro m ρ m' ρ' hpre hagree
  refine ⟨fun c => Cert.Arr.outArr (m ((c.tc : Thread _ _).loc Cert.KernelIdeal.main_arg0))
      (m ((c.tc : Thread _ _).loc Cert.KernelIdeal.main_arg1)) (m ((c.tc : Thread _ _).loc Cert.KernelIdeal.main_arg2)), ?_, ?_⟩
  · exact (θ_run Cert.KernelIdeal.defs _ _).mono
      (fun _ h c => ⟨(h c).1.trans (Cert.KernelIdeal.HandValue.final_out m c), (h c).2⟩)
      (Cert.KernelIdeal.Hand.run_out (F := Ideal) m ρ)
  · refine (θ_run Cert.ReferenceIdeal.defs _ _).mono (fun _ h c => ⟨(h c).1.trans ?_, (h c).2⟩) (Cert.RefRun.run m' ρ')
    rw [(hagree c).1, (hagree c).2.1, (hagree c).2.2]
    obtain ⟨hx, hW, hb⟩ := Cert.Finite.real_of_pre _ _ _ (hpre c)
    exact Cert.Arr.chainArr_eq_outArr _ _ _ hx hW hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
